-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50257 : Shape := ⟨2, ![2048, 50257]⟩
abbrev S2048 : Shape := ⟨1, ![2048]⟩
abbrev S_ : Shape := ⟨0, ![]⟩

class Facts : Prop where
  bcast_S_S2048x50257 : S_.BroadcastsInDim S2048x50257 (![] : Fin 0 → Fin S2048x50257.rank)
  reducesTo_S2048x50257_S_d0_1 : S2048x50257.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x50257 .f32) (main_arg1 : IVec S2048 32) : IVec S_ 1 :=
  let main_v0 : FVec F S2048x50257 .f32 := Host.absf main_arg0
  let main_cst : FVec F S_ .f32 := constant S_ .f32 0x7F800000#32
  let main_v1 : FVec F S2048x50257 .f32 := broadcastInDim S2048x50257 ![] bcast_S_S2048x50257 main_cst
  let main_v2 : IVec S2048x50257 1 := cmpf .olt main_v0 main_v1
  let main_c : IVec S_ 1 := constantI S_ 1 1#1
  let main_v3 : IVec S_ 1 := (fun x v => Host.reduce IntOp.andi x v reducesTo_S2048x50257_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 2#32
  let main_v6 : IVec S2048 32 := broadcastInDim S2048 ![] bcast_S_S2048 main_c_1
  let main_v7 : IVec S2048 1 := cmpi .slt main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Kernel.lean ====
abbrev S2048x50257 : Shape := ⟨2, ![2048, 50257]⟩
abbrev S2048 : Shape := ⟨1, ![2048]⟩
abbrev S2048x1 : Shape := ⟨2, ![2048, 1]⟩
abbrev S512x4096 : Shape := ⟨2, ![512, 4096]⟩
abbrev S512x1 : Shape := ⟨2, ![512, 1]⟩
abbrev S512x128 : Shape := ⟨2, ![512, 128]⟩
abbrev S512 : Shape := ⟨1, ![512]⟩
abbrev S_ : Shape := ⟨0, ![]⟩

abbrev nBuf : Space → Nat
  | .hbm => 34
  | .vmem => 9
  | .smem => 0
  | _ => 0

abbrev bufTy : (tb : Table) → Fin (tcTables nBuf tb) → BufTy
  | .hbm, ⟨0, _⟩ => ⟨S2048x50257, .f32⟩
  | .hbm, ⟨1, _⟩ => ⟨S2048, .i32⟩
  | .hbm, ⟨2, _⟩ => ⟨S2048x1, .i32⟩
  | .hbm, ⟨3, _⟩ => ⟨S2048x1, .f32⟩
  | .hbm, ⟨4, _⟩ => ⟨S2048x1, .f32⟩
  | .hbm, ⟨5, _⟩ => ⟨S2048, .f32⟩
  | .hbm, ⟨6, _⟩ => ⟨S2048, .f32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x128, .f32⟩
  | _, _ => ⟨S2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def k0_cond3 (i : grid0.Coords) : BitVec 1 :=
  let arg1 : BitVec 32 := BitVec.ofNat 32 (i 1).val
  let c12_i32_3 : BitVec 32 := 12#32
  let v7 : BitVec 1 := Scalar.cmpi .eq arg1 c12_i32_3
  let v8 : BitVec 32 := Scalar.extui v7
  let c0_i32_4 : BitVec 32 := 0#32
  let v9 : BitVec 1 := Scalar.cmpi .ne v8 c0_i32_4
  v9

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S2048_S2048x1_0 : S2048.BroadcastsInDim S2048x1 (![0] : Fin 1 → Fin S2048x1.rank)
  inb_S512x4096_S512x4096_0_0 : ∀ a, (![0, 0] : Fin 2 → Nat) a + S512x4096.size a ≤ S512x4096.size a
  h_S512x4096 : 0 < S512x4096.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  slices_S512x4096_o0_0_S512x1 : S512x4096.Slices ![0, 0] S512x1
  slices_S512x4096_o0_1_S512x1 : S512x4096.Slices ![0, 1] S512x1
  slices_S512x4096_o0_0_S512x128 : S512x4096.Slices ![0, 0] S512x128
  slices_S512x4096_o0_128_S512x128 : S512x4096.Slices ![0, 128] S512x128
  slices_S512x4096_o0_256_S512x128 : S512x4096.Slices ![0, 256] S512x128
  slices_S512x4096_o0_384_S512x128 : S512x4096.Slices ![0, 384] S512x128
  slices_S512x4096_o0_512_S512x128 : S512x4096.Slices ![0, 512] S512x128
  slices_S512x4096_o0_640_S512x128 : S512x4096.Slices ![0, 640] S512x128
  slices_S512x4096_o0_768_S512x128 : S512x4096.Slices ![0, 768] S512x128
  slices_S512x4096_o0_896_S512x128 : S512x4096.Slices ![0, 896] S512x128
  slices_S512x4096_o0_1024_S512x128 : S512x4096.Slices ![0, 1024] S512x128
  slices_S512x4096_o0_1152_S512x128 : S512x4096.Slices ![0, 1152] S512x128
  slices_S512x4096_o0_1280_S512x128 : S512x4096.Slices ![0, 1280] S512x128
  slices_S512x4096_o0_1408_S512x128 : S512x4096.Slices ![0, 1408] S512x128
  slices_S512x4096_o0_1536_S512x128 : S512x4096.Slices ![0, 1536] S512x128
  slices_S512x4096_o0_1664_S512x128 : S512x4096.Slices ![0, 1664] S512x128
  slices_S512x4096_o0_1792_S512x128 : S512x4096.Slices ![0, 1792] S512x128
  slices_S512x4096_o0_1920_S512x128 : S512x4096.Slices ![0, 1920] S512x128
  slices_S512x4096_o0_2048_S512x128 : S512x4096.Slices ![0, 2048] S512x128
  slices_S512x4096_o0_2176_S512x128 : S512x4096.Slices ![0, 2176] S512x128
  slices_S512x4096_o0_2304_S512x128 : S512x4096.Slices ![0, 2304] S512x128
  slices_S512x4096_o0_2432_S512x128 : S512x4096.Slices ![0, 2432] S512x128
  slices_S512x4096_o0_2560_S512x128 : S512x4096.Slices ![0, 2560] S512x128
  slices_S512x4096_o0_2688_S512x128 : S512x4096.Slices ![0, 2688] S512x128
  slices_S512x4096_o0_2816_S512x128 : S512x4096.Slices ![0, 2816] S512x128
  slices_S512x4096_o0_2944_S512x128 : S512x4096.Slices ![0, 2944] S512x128
  slices_S512x4096_o0_3072_S512x128 : S512x4096.Slices ![0, 3072] S512x128
  slices_S512x4096_o0_3200_S512x128 : S512x4096.Slices ![0, 3200] S512x128
  slices_S512x4096_o0_3328_S512x128 : S512x4096.Slices ![0, 3328] S512x128
  slices_S512x4096_o0_3456_S512x128 : S512x4096.Slices ![0, 3456] S512x128
  slices_S512x4096_o0_3584_S512x128 : S512x4096.Slices ![0, 3584] S512x128
  slices_S512x4096_o0_3712_S512x128 : S512x4096.Slices ![0, 3712] S512x128
  slices_S512x4096_o0_3840_S512x128 : S512x4096.Slices ![0, 3840] S512x128
  slices_S512x4096_o0_3968_S512x128 : S512x4096.Slices ![0, 3968] S512x128
  iota_S512x4096_d1_w32 : S512x4096.Iotas .tc 32 [1]
  reduces_S512x128_S512 : S512x128.Reduces [1] S512
  shapeCasts_S512_S512x1 : S512.ShapeCasts S512x1
  shapeCasts_S2048x1_S2048 : S2048x1.ShapeCasts S2048
  bcast_S_S2048 : S_.BroadcastsInDim S2048 (![] : Fin 0 → Fin S2048.rank)
  reducesTo_S2048_S_d0 : S2048.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x4096.size a < S2048x50257.size a
  hwx0_0 : ∀ i : grid0.Coords, EltTy.bits .f32 = 32 ∨ (Rect.unit (s := S2048x50257) (fun a => cc0_transform_0 i a * S512x4096.size a) (fun a => (Pipeline.Clip.of (cc0_transform_0 i a) (S512x4096.size a) (S2048x50257.size a)).extent (S512x4096.size a)) fun a => Pipeline.Clip.inb (Pipeline.Clip.ok_of (hstart0_0 i a))).WholeWords (EltTy.packing .f32)
  hwxs0_0 : ∀ i : grid0.Coords, EltTy.bits .f32 = 32 ∨ (Rect.unit (s := S512x4096) (fun _ => 0) (fun a => (Pipeline.Clip.of (cc0_transform_0 i a) (S512x4096.size a) (S2048x50257.size a)).extent (S512x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .i32 = 32 ∨ (Rect.block (s := S2048x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .f32 = 32 ∨ (Rect.block (s := S2048x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)

variable [Facts₀]

abbrev win0_0 : Pipeline.Window sig grid0 :=
  Pipeline.Window.ofSpecClip (Memref.whole main_arg0) S512x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond1 i == 1#1) | ⟨_ + 4, h⟩ => absurd h (Nat.not_lt.2 (Nat.le_add_left _ _))

class Facts : Prop extends Facts₀ where

variable [Facts]
-- ==== ReferenceIdeal.lean ====
abbrev S2048x50257 : Shape := ⟨2, ![2048, 50257]⟩
abbrev S2048 : Shape := ⟨1, ![2048]⟩
abbrev S2 : Shape := ⟨1, ![2]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S2048x50257, .f32⟩
  | .hbm, ⟨1, _⟩ => ⟨S2048, .i32⟩
  | .hbm, ⟨2, _⟩ => ⟨S2, .f32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048, .f32⟩
  | .hbm, ⟨12, _⟩ => ⟨S2048x1, .i32⟩
  | .hbm, ⟨13, _⟩ => ⟨S_, .i32⟩
  | .hbm, ⟨14, _⟩ => ⟨S2048x1, .i32⟩
  | .hbm, ⟨15, _⟩ => ⟨S2048x1, .i1⟩
  | .hbm, ⟨16, _⟩ => ⟨S_, .i32⟩
  | .hbm, ⟨17, _⟩ => ⟨S2048x1, .i32⟩
  | .hbm, ⟨18, _⟩ => ⟨S2048x1, .i32⟩
  | .hbm, ⟨19, _⟩ => ⟨S2048x1, .i32⟩
  | .hbm, ⟨20, _⟩ => ⟨S2048x1x1, .i32⟩
  | .hbm, ⟨21, _⟩ => ⟨S1, .i32⟩
  | .hbm, ⟨22, _⟩ => ⟨S_, .i32⟩
  | .hbm, ⟨23, _⟩ => ⟨S2048x1x1, .i32⟩
  | .hbm, ⟨24, _⟩ => ⟨S2048x1x1, .i1⟩
  | .hbm, ⟨25, _⟩ => ⟨S1x1x1, .i32⟩
  | .hbm, ⟨26, _⟩ => ⟨S2048x1x1, .i32⟩
  | .hbm, ⟨27, _⟩ => ⟨S2048x1x1, .i1⟩
  | .hbm, ⟨28, _⟩ => ⟨S2048x1x1, .i1⟩
  | .hbm, ⟨29, _⟩ => ⟨S_, .i1⟩
  | .hbm, ⟨30, _⟩ => ⟨S2048x1, .i1⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S2048x50257, .f32⟩
  | .hbm, ⟨42, _⟩ => ⟨S2048x50257, .f32⟩
  | .hbm, ⟨43, _⟩ => ⟨S2048x50257, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_5 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  h_S_ : 0 < S_.numel
  shapeCasts_S2048x1_S2048 : S2048x1.ShapeCasts S2048
  bcast_S_S2048x50257 : S_.BroadcastsInDim S2048x50257 (![] : Fin 0 → Fin S2048x50257.rank)
  reducesTo_S2048x50257_S2048_d1 : S2048x50257.ReducesTo [1] S2048
  reducesTo_S2048_S_d0 : S2048.ReducesTo [0] S_
  gather_S2_S2048x1_S2048_n_0_n_n_0_1_1_wf : GatherDims.WF S2 S2048x1 S2048 [] [0] [] [0] [] 1 ![1]
  gather_S2048x50257_S2048x1x1_S2048x1_n_1_0_0_1_2_11_wf : GatherDims.WF S2048x50257 S2048x1x1 S2048x1 [] [1] [0] [1] [0] 2 ![1, 1]

variable [Facts₀]

def gather_S2_S2048x1_S2048_n_0_n_n_0_1_1 : GatherDims S2 S2048x1 S2048 where
  offsetDims := []
  collapsedSliceDims := [0]
  operandBatchingDims := []
  startIndicesBatchingDims := []
  startIndexMap := [0]
  indexVectorDim := 1
  sliceSizes := ![1]
  wf := gather_S2_S2048x1_S2048_n_0_n_n_0_1_1_wf
def gather_S2048x50257_S2048x1x1_S2048x1_n_1_0_0_1_2_11 : GatherDims S2048x50257 S2048x1x1 S2048x1 where
  offsetDims := []
  collapsedSliceDims := [1]
  operandBatchingDims := [0]
  startIndicesBatchingDims := [0]
  startIndexMap := [1]
  indexVectorDim := 2
  sliceSizes := ![1, 1]
  wf := gather_S2048x50257_S2048x1x1_S2048x1_n_1_0_0_1_2_11_wf

class Facts : Prop extends Facts₀ where

variable [Facts]
-- ==== Proof.KBRuns.lean ====
/-
  What the three runs of the kernel body share: which of its three conditionals a grid point takes, where its two
  result windows are idle, and the scratch accumulator as a memref.

  The grid is 4 row tiles by 13 column tiles, the column tile moving fastest: point t is row tile t / 13, column
  tile t % 13. The body resets the accumulator and stores the labelled logits at column tile 0, adds the tile's
  lane-folded exponentials at every tile (unmasked at tiles 0..11, masked past column 50257 at tile 12), and at
  tile 12 also stores the rows' totals. So a point is of one of three kinds: FIRST (t % 13 = 0), MIDDLE
  (0 < t % 13 < 12), LAST (t % 13 = 12).
-/
import proofs.«429872_j65068754535073_3_alg».proof.Proof.Gen.Kernel.Frame
import proofs.«429872_j65068754535073_3_alg».proof.Proof.Gen.Kernel.Skeleton
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-! ## The three conditions, decided over the grid -/

/-- "column tile 0": the reset and the labelled-logit store. -/
abbrev cFirst (i : grid0.Coords) : Prop := k0_cond1 i = 1#1
/-- "column tile below 12": the unmasked accumulation. -/
abbrev cBelow (i : grid0.Coords) : Prop :=
  (Scalar.cmpi .ne (Scalar.extui (Scalar.cmpi .slt (BitVec.ofNat 32 (i 1).val) 12#32)) 0#32) = 1#1
/-- "column tile 12": the masked accumulation and the totals' store. -/
abbrev cLast (i : grid0.Coords) : Prop := k0_cond3 i = 1#1

theorem hFirst : ∀ t : Fin cfg0.N, cFirst (grid0.coords t) ↔ t.val % 13 = 0 :=
  (by decide +kernel : ∀ t : Fin grid0.N, cFirst (grid0.coords t) ↔ t.val % 13 = 0)
theorem hBelow : ∀ t : Fin cfg0.N, cBelow (grid0.coords t) ↔ t.val % 13 ≠ 12 :=
  (by decide +kernel : ∀ t : Fin grid0.N, cBelow (grid0.coords t) ↔ t.val % 13 ≠ 12)
theorem hLast : ∀ t : Fin cfg0.N, cLast (grid0.coords t) ↔ t.val % 13 = 12 :=
  (by decide +kernel : ∀ t : Fin grid0.N, cLast (grid0.coords t) ↔ t.val % 13 = 12)
/-- The column tile of a point, as the body's word for it. -/
theorem hCol : ∀ t : Fin cfg0.N, ((grid0.coords t) 1).val = t.val % 13 :=
  (by decide +kernel : ∀ t : Fin grid0.N, ((grid0.coords t) 1).val = t.val % 13)

/-! ## Where the windows are idle, and where they are written back -/

theorem live0 : ∀ t : Fin cfg0.N, cfg0.idle 0 (grid0.coords t) = false := by decide +kernel
theorem live1 : ∀ t : Fin cfg0.N, cfg0.idle 1 (grid0.coords t) = false := by decide +kernel
/-- The totals' window is idle except at the last column tile, -/
theorem idle2 : ∀ t : Fin cfg0.N, cfg0.idle 2 (grid0.coords t) = !(decide (t.val % 13 = 12)) :=
  (by decide +kernel : ∀ t : Fin grid0.N, cfg0.idle 2 (grid0.coords t) = !(decide (t.val % 13 = 12)))
/-- the labelled logits' window except at the first. -/
theorem idle3 : ∀ t : Fin cfg0.N, cfg0.idle 3 (grid0.coords t) = !(decide (t.val % 13 = 0)) :=
  (by decide +kernel : ∀ t : Fin grid0.N, cfg0.idle 3 (grid0.coords t) = !(decide (t.val % 13 = 0)))
/-- Neither result window is ever fetched; -/
theorem fetch2 : ∀ t : Fin cfg0.N, (cfg0.win 2).fetch t = false := by decide +kernel
theorem fetch3 : ∀ t : Fin cfg0.N, (cfg0.win 3).fetch t = false := by decide +kernel
/-- both are written back at the last column tile of each row tile, and only there. -/
theorem flush2 : ∀ t : Fin cfg0.N, (cfg0.win 2).flush t = decide (t.val % 13 = 12) :=
  (by decide +kernel : ∀ t : Fin grid0.N, win0_2.flush t = decide (t.val % 13 = 12))
theorem flush3 : ∀ t : Fin cfg0.N, (cfg0.win 3).flush t = decide (t.val % 13 = 12) :=
  (by decide +kernel : ∀ t : Fin grid0.N, win0_3.flush t = decide (t.val % 13 = 12))

/-! ## The memrefs the body is called with -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
/-- The accumulator: a scoped buffer of the kernel's own, carried from point to point. -/
abbrev scM : Memref sig .tc .vmem S512x128 .f32 := Memref.whole cc0_scratch0
abbrev VS : View sig .tc .vmem S512x128 .f32 := (scM).view
/-- One staging buffer of each result window, through which its contents are stated. -/
abbrev VO2 : View sig .tc .vmem S512x1 .f32 := (Memref.whole cc0_stg2_0 : Memref sig .tc .vmem S512x1 .f32).view
abbrev VO3 : View sig .tc .vmem S512x1 .f32 := (Memref.whole cc0_stg3_0 : Memref sig .tc .vmem S512x1 .f32).view

/-- The region's invariant with the accumulator as a memref owned at some contents. -/
theorem PhiA_eq (c : Dev nD) :
    (Pipeline.ΦA spec0 c : sProp 𝕄)
      = iprop(iprop((∃ d, owns (c : Thread nD τ) (scM) fullShare d)) ∗ (∃ r, prngReg c r)) := by
  unfold Pipeline.ΦA; rw [scopedRest0_eq]; simp only [scM, owns_whole]; try rfl

end Cert.Kernel.Body

end
-- ==== Proof.KBRunFirst.lean ====
/-
  The body at a FIRST point (column tile 0): it zeroes the accumulator, stores the labelled logits, and adds the tile's
  lane-folded exponentials to the accumulator. The totals' window is left untouched.
-/
import proofs.«429872_j65068754535073_3_alg».proof.Proof.KBRuns
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
/-- The body's triple at a first point, on any whole memrefs: the two input buffers at their contents, the totals' buffer
    at contents handed back untouched, the labelled logits' buffer and the accumulator at anything; it ends with the
    inputs as they were, the labelled logits' buffer and the accumulator with the pieces the stores wrote (found by
    running the body). -/
noncomputable def runFirst (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
    (h1 : cFirst i) (h2 : cBelow i) (h3 : ¬cLast i)
    (x0 : Vec F S512x4096 .f32) (x1 : Vec F S512x1 .i32) :
    Σ' (L3 : List (View.Piece (Elt F) S512x1 .f32)), { LS : List (View.Piece (Elt F) S512x128 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__amsoftmax_kernel i arg2 harg2 arg3 harg3 arg4 harg4 arg5 harg5 arg6 harg6) K } := by
  refine ⟨?_, ?_, fun xi2 E K => ?run⟩
  case run =>
    simp only [cc0__amsoftmax_kernel_eq_skeleton]; unfold cc0__amsoftmax_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Body

end
-- ==== Proof.KBRunMiddle.lean ====
/-
  The body at a MIDDLE point (column tiles 1..11): it adds the tile's lane-folded exponentials to the accumulator it
  finds. Both result windows are left untouched.
-/
import proofs.«429872_j65068754535073_3_alg».proof.Proof.KBRunFirst
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
/-- The body's triple at a middle point: the two input buffers at their contents, both result buffers at contents handed
    back untouched, the accumulator at what the point before left (xs); it ends with the accumulator holding the
    pieces the one store wrote. -/
noncomputable def runMiddle (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
    (h1 : ¬cFirst i) (h2 : cBelow i) (h3 : ¬cLast i)
    (x0 : Vec F S512x4096 .f32) (x1 : Vec F S512x1 .i32) (xs : Vec F S512x128 .f32) :
    { LS : List (View.Piece (Elt F) S512x128 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare xi2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc0__amsoftmax_kernel i arg2 harg2 arg3 harg3 arg4 harg4 arg5 harg5 arg6 harg6) K } := by
  refine ⟨?_, fun xi2 xi3 E K => ?run⟩
  case run =>
    simp only [cc0__amsoftmax_kernel_eq_skeleton]; unfold cc0__amsoftmax_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Body

end
-- ==== Proof.KBRunLast.lean ====
/-
  The body at a LAST point (column tile 12, which overhangs the matrix's 50257 columns): it masks the tile's scaled
  entries to −∞ past column 50257, adds the lane-folded exponentials to the accumulator it finds, and stores the rows'
  totals (the accumulator summed over its 128 lanes). The labelled logits' window is left untouched.
-/
import proofs.«429872_j65068754535073_3_alg».proof.Proof.KBRunMiddle
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
/-- The body's triple at a last point: the two input buffers at their contents, the labelled logits' buffer at contents
    handed back untouched, the totals' buffer at anything, the accumulator at what the point before left (xs); it ends
    with the totals' buffer and the accumulator holding the pieces the stores wrote. -/
noncomputable def runLast (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
    (h1 : ¬cFirst i) (h2 : ¬cBelow i) (h3 : cLast i)
    (x0 : Vec F S512x4096 .f32) (x1 : Vec F S512x1 .i32) (xs : Vec F S512x128 .f32) :
    Σ' (L2 : List (View.Piece (Elt F) S512x1 .f32)), { LS : List (View.Piece (Elt F) S512x128 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xi3 ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc0__amsoftmax_kernel i arg2 harg2 arg3 harg3 arg4 harg4 arg5 harg5 arg6 harg6) K } := by
  refine ⟨?_, ?_, fun xi3 E K => ?run⟩
  case run =>
    simp only [cc0__amsoftmax_kernel_eq_skeleton]; unfold cc0__amsoftmax_kernel_skel
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1
    obtain rfl := harg5.eq_unread hf3; obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    iexists _; iexact HS

end Cert.Kernel.Body

end
-- ==== Proof.KBOuts.lean ====
/-
  The kernel's proof data and its frame.

  What the three buffers the body writes hold after each grid point, by recursion on the point: the rows' totals (stored
  at the last column tile of a row tile), the labelled logits (stored at the first, kept until the row tile's end) and
  the accumulator (reset at the first column tile, added to at every tile). The score tile a point finds is the
  matrix's block there; at the last column tile the block overhangs the matrix and the part past column 50257 holds
  words nothing names, which the body masks before it uses them: what it leaves does not depend on them.
-/
import proofs.«429872_j65068754535073_3_alg».proof.Proof.KBRunLast
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The score tile a point finds -/

/-- The score tile's staging buffer at point t: the matrix's block on the part inside the matrix, d past it. -/
def x0At (c : Dev nD) (t : Fin cfg0.N) (d : S512x4096.Idx → Elt F .f32) : Vec F S512x4096 .f32 :=
  win0_0.fill (grid0.coords t) d (iblk m c 0 t)
/-- The same with the zero word past the matrix's end: the representative the proof data names. -/
abbrev x0Std (c : Dev nD) (t : Fin cfg0.N) : Vec F S512x4096 .f32 := x0At m c t (fun _ => Scalar.ofBits .f32 0#32)

/-- Only the last column tile overhangs the matrix. -/
theorem noclip0 : ∀ t : Fin cfg0.N, t.val % 13 ≠ 12 → ∀ a, (cfg0.win 0).clip (grid0.coords t) a = none := by decide +kernel
/-- The two result windows' blocks tile their arrays. -/
theorem noclip2 : ∀ (i : cfg0.grid.Coords) a, (cfg0.win 2).clip i a = none := by decide +kernel
theorem noclip3 : ∀ (i : cfg0.grid.Coords) a, (cfg0.win 3).clip i a = none := by decide +kernel

/-- Away from the last column tile the staging buffer is the block, whatever it held before. -/
theorem x0At_indep (c : Dev nD) (t : Fin cfg0.N) (h : t.val % 13 ≠ 12) (d d' : S512x4096.Idx → Elt F .f32) :
    x0At m c t d = x0At m c t d' :=
  Pipeline.fill_of_clip_none (cfg := cfg0) 0 (grid0.coords t) (noclip0 t h) d d' (iblk m c 0 t)

/-- On the part the fetch fills, the staging buffer is the block, whatever it held before. -/
theorem x0At_agree (c : Dev nD) (t : Fin cfg0.N) (d d' : S512x4096.Idx → Elt F .f32) (y : S512x4096.Idx)
    (hy : win0_0.moved (grid0.coords t) y = true) : x0At m c t d y = x0At m c t d' y := by
  unfold x0At Window.fill; rw [dif_pos hy, dif_pos hy]

/-! ## What the runs leave, read back -/

/-- The labelled logits a first point stores. -/
def tgtOf (c : Dev nD) (t : Fin cfg0.N) (h1 : cFirst (grid0.coords t)) (h2 : cBelow (grid0.coords t)) (h3 : ¬cLast (grid0.coords t))
    (x0 : Vec F S512x4096 .f32) (x1 : Vec F S512x1 .i32) : Vec F S512x1 .f32 :=
  VO3.read (Elt F) (VO3.writes (Elt F) VO3.junk (runFirst c (grid0.coords t) (ms0 t) (hs0 t) (ms1 t) (hs1 t) (ms2 t) (hs2 t) (ms3 t) (hs3 t) scM (Memref.isWhole_whole _) h1 h2 h3 x0 x1).1)
/-- The accumulator after a first point. -/
def accFirst (c : Dev nD) (t : Fin cfg0.N) (h1 : cFirst (grid0.coords t)) (h2 : cBelow (grid0.coords t)) (h3 : ¬cLast (grid0.coords t))
    (x0 : Vec F S512x4096 .f32) (x1 : Vec F S512x1 .i32) : Vec F S512x128 .f32 :=
  VS.read (Elt F) (VS.writes (Elt F) VS.junk (runFirst c (grid0.coords t) (ms0 t) (hs0 t) (ms1 t) (hs1 t) (ms2 t) (hs2 t) (ms3 t) (hs3 t) scM (Memref.isWhole_whole _) h1 h2 h3 x0 x1).2.1)
/-- The accumulator after a middle point, over what the point before left. -/
def accMiddle (c : Dev nD) (t : Fin cfg0.N) (h1 : ¬cFirst (grid0.coords t)) (h2 : cBelow (grid0.coords t)) (h3 : ¬cLast (grid0.coords t))
    (x0 : Vec F S512x4096 .f32) (x1 : Vec F S512x1 .i32) (xs : Vec F S512x128 .f32) : Vec F S512x128 .f32 :=
  VS.read (Elt F) (VS.writes (Elt F) VS.junk (runMiddle c (grid0.coords t) (ms0 t) (hs0 t) (ms1 t) (hs1 t) (ms2 t) (hs2 t) (ms3 t) (hs3 t) scM (Memref.isWhole_whole _) h1 h2 h3 x0 x1 xs).1)
/-- The rows' totals a last point stores. -/
def totLast (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) : Vec F S512x1 .f32 :=
  VO2.read (Elt F) (VO2.writes (Elt F) VO2.junk (runLast c (grid0.coords t) (ms0 t) (hs0 t) (ms1 t) (hs1 t) (ms2 t) (hs2 t) (ms3 t) (hs3 t) scM (Memref.isWhole_whole _) h1 h2 h3 x0 x1 xs).1)
/-- The accumulator after a last point. -/
def accLast (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) : Vec F S512x128 .f32 :=
  VS.read (Elt F) (VS.writes (Elt F) VS.junk (runLast c (grid0.coords t) (ms0 t) (hs0 t) (ms1 t) (hs1 t) (ms2 t) (hs2 t) (ms3 t) (hs3 t) scM (Memref.isWhole_whole _) h1 h2 h3 x0 x1 xs).2.1)

/-- Each run's stores cover the buffer they write. -/
theorem cover_tgt (c : Dev nD) (t : Fin cfg0.N) (h1 : cFirst (grid0.coords t)) (h2 : cBelow (grid0.coords t)) (h3 : ¬cLast (grid0.coords t))
    (x0 : Vec F S512x4096 .f32) (x1 : Vec F S512x1 .i32) (y : S512x1.Idx) :
    ∃ pc ∈ (runFirst c (grid0.coords t) (ms0 t) (hs0 t) (ms1 t) (hs1 t) (ms2 t) (hs2 t) (ms3 t) (hs3 t) scM (Memref.isWhole_whole _) h1 h2 h3 x0 x1).1, y ∈ pc.1.set :=
  View.cover_of_tiledL (runFirst c (grid0.coords t) (ms0 t) (hs0 t) (ms1 t) (hs1 t) (ms2 t) (hs2 t) (ms3 t) (hs3 t) scM (Memref.isWhole_whole _) h1 h2 h3 x0 x1).1 S512x1.size (by sl_kernel_rfl) y
theorem cover_accFirst (c : Dev nD) (t : Fin cfg0.N) (h1 : cFirst (grid0.coords t)) (h2 : cBelow (grid0.coords t)) (h3 : ¬cLast (grid0.coords t))
    (x0 : Vec F S512x4096 .f32) (x1 : Vec F S512x1 .i32) (y : S512x128.Idx) :
    ∃ pc ∈ (runFirst c (grid0.coords t) (ms0 t) (hs0 t) (ms1 t) (hs1 t) (ms2 t) (hs2 t) (ms3 t) (hs3 t) scM (Memref.isWhole_whole _) h1 h2 h3 x0 x1).2.1, y ∈ pc.1.set :=
  View.cover_of_tiledL (runFirst c (grid0.coords t) (ms0 t) (hs0 t) (ms1 t) (hs1 t) (ms2 t) (hs2 t) (ms3 t) (hs3 t) scM (Memref.isWhole_whole _) h1 h2 h3 x0 x1).2.1 S512x128.size (by sl_kernel_rfl) y
theorem cover_accMiddle (c : Dev nD) (t : Fin cfg0.N) (h1 : ¬cFirst (grid0.coords t)) (h2 : cBelow (grid0.coords t)) (h3 : ¬cLast (grid0.coords t))
    (x0 : Vec F S512x4096 .f32) (x1 : Vec F S512x1 .i32) (xs : Vec F S512x128 .f32) (y : S512x128.Idx) :
    ∃ pc ∈ (runMiddle c (grid0.coords t) (ms0 t) (hs0 t) (ms1 t) (hs1 t) (ms2 t) (hs2 t) (ms3 t) (hs3 t) scM (Memref.isWhole_whole _) h1 h2 h3 x0 x1 xs).1, y ∈ pc.1.set :=
  View.cover_of_tiledL (runMiddle c (grid0.coords t) (ms0 t) (hs0 t) (ms1 t) (hs1 t) (ms2 t) (hs2 t) (ms3 t) (hs3 t) scM (Memref.isWhole_whole _) h1 h2 h3 x0 x1 xs).1 S512x128.size (by sl_kernel_rfl) y
theorem cover_tot (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) (y : S512x1.Idx) :
    ∃ pc ∈ (runLast c (grid0.coords t) (ms0 t) (hs0 t) (ms1 t) (hs1 t) (ms2 t) (hs2 t) (ms3 t) (hs3 t) scM (Memref.isWhole_whole _) h1 h2 h3 x0 x1 xs).1, y ∈ pc.1.set :=
  View.cover_of_tiledL (runLast c (grid0.coords t) (ms0 t) (hs0 t) (ms1 t) (hs1 t) (ms2 t) (hs2 t) (ms3 t) (hs3 t) scM (Memref.isWhole_whole _) h1 h2 h3 x0 x1 xs).1 S512x1.size (by sl_kernel_rfl) y
theorem cover_accLast (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) (y : S512x128.Idx) :
    ∃ pc ∈ (runLast c (grid0.coords t) (ms0 t) (hs0 t) (ms1 t) (hs1 t) (ms2 t) (hs2 t) (ms3 t) (hs3 t) scM (Memref.isWhole_whole _) h1 h2 h3 x0 x1 xs).2.1, y ∈ pc.1.set :=
  View.cover_of_tiledL (runLast c (grid0.coords t) (ms0 t) (hs0 t) (ms1 t) (hs1 t) (ms2 t) (hs2 t) (ms3 t) (hs3 t) scM (Memref.isWhole_whole _) h1 h2 h3 x0 x1 xs).2.1 S512x128.size (by sl_kernel_rfl) y

end Cert.Kernel.Body

end
-- ==== Proof.KBDats.lean ====
/-
  The contents of the three written buffers point by point, the region's invariant, and the proof data of the pipeline.
-/
import proofs.«429872_j65068754535073_3_alg».proof.Proof.KBOuts
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the written buffers hold after each point -/

/-- After the body at position n: (the rows' totals, the labelled logits, the accumulator). A first point stores the
    logits and restarts the accumulator; a middle point adds to it; a last point adds to it and stores the totals.
    The totals before a row tile's last point, like the logits of a finished row tile, are whatever was there. -/
def outsAt (c : Dev nD) : (n : ℕ) → n < cfg0.N → Vec F S512x1 .f32 × Vec F S512x1 .f32 × Vec F S512x128 .f32
  | 0, hn => (fun _ => Scalar.ofBits .f32 0#32,
      tgtOf c ⟨0, hn⟩ ((hFirst ⟨0, hn⟩).mpr (Nat.zero_mod _)) ((hBelow ⟨0, hn⟩).mpr (show (0 : ℕ) % 13 ≠ 12 from by decide)) (fun h => absurd ((hLast ⟨0, hn⟩).mp h) (show ¬(0 : ℕ) % 13 = 12 from by decide)) (x0Std m c ⟨0, hn⟩) (iblk m c 1 ⟨0, hn⟩),
      accFirst c ⟨0, hn⟩ ((hFirst ⟨0, hn⟩).mpr (Nat.zero_mod _)) ((hBelow ⟨0, hn⟩).mpr (show (0 : ℕ) % 13 ≠ 12 from by decide)) (fun h => absurd ((hLast ⟨0, hn⟩).mp h) (show ¬(0 : ℕ) % 13 = 12 from by decide)) (x0Std m c ⟨0, hn⟩) (iblk m c 1 ⟨0, hn⟩))
  | n + 1, hn =>
    if h0 : (n + 1) % 13 = 0 then
      ((outsAt c n (Nat.lt_of_succ_lt hn)).1,
        tgtOf c ⟨n + 1, hn⟩ ((hFirst ⟨n + 1, hn⟩).mpr h0) ((hBelow ⟨n + 1, hn⟩).mpr (fun h => by (try dsimp only at h); omega)) (fun h => by have := (hLast ⟨n + 1, hn⟩).mp h; (try dsimp only at this); omega) (x0Std m c ⟨n + 1, hn⟩) (iblk m c 1 ⟨n + 1, hn⟩),
        accFirst c ⟨n + 1, hn⟩ ((hFirst ⟨n + 1, hn⟩).mpr h0) ((hBelow ⟨n + 1, hn⟩).mpr (fun h => by (try dsimp only at h); omega)) (fun h => by have := (hLast ⟨n + 1, hn⟩).mp h; (try dsimp only at this); omega) (x0Std m c ⟨n + 1, hn⟩) (iblk m c 1 ⟨n + 1, hn⟩))
    else if h12 : (n + 1) % 13 = 12 then
      (totLast c ⟨n + 1, hn⟩ (fun h => h0 ((hFirst ⟨n + 1, hn⟩).mp h)) (fun h => (hBelow ⟨n + 1, hn⟩).mp h h12) ((hLast ⟨n + 1, hn⟩).mpr h12) (x0Std m c ⟨n + 1, hn⟩) (iblk m c 1 ⟨n + 1, hn⟩) (outsAt c n (Nat.lt_of_succ_lt hn)).2.2,
        (outsAt c n (Nat.lt_of_succ_lt hn)).2.1,
        accLast c ⟨n + 1, hn⟩ (fun h => h0 ((hFirst ⟨n + 1, hn⟩).mp h)) (fun h => (hBelow ⟨n + 1, hn⟩).mp h h12) ((hLast ⟨n + 1, hn⟩).mpr h12) (x0Std m c ⟨n + 1, hn⟩) (iblk m c 1 ⟨n + 1, hn⟩) (outsAt c n (Nat.lt_of_succ_lt hn)).2.2)
    else
      ((outsAt c n (Nat.lt_of_succ_lt hn)).1,
        (outsAt c n (Nat.lt_of_succ_lt hn)).2.1,
        accMiddle c ⟨n + 1, hn⟩ (fun h => h0 ((hFirst ⟨n + 1, hn⟩).mp h)) ((hBelow ⟨n + 1, hn⟩).mpr h12) (fun h => h12 ((hLast ⟨n + 1, hn⟩).mp h)) (x0Std m c ⟨n + 1, hn⟩) (iblk m c 1 ⟨n + 1, hn⟩) (outsAt c n (Nat.lt_of_succ_lt hn)).2.2)

/-- At a first point. -/
theorem outsAt_first (c : Dev nD) (t : Fin cfg0.N) (h0 : t.val % 13 = 0) :
    ∃ a, outsAt m c t.val t.isLt = (a,
      tgtOf c t ((hFirst t).mpr h0) ((hBelow t).mpr (by omega)) (fun h => by have := (hLast t).mp h; omega) (x0Std m c t) (iblk m c 1 t),
      accFirst c t ((hFirst t).mpr h0) ((hBelow t).mpr (by omega)) (fun h => by have := (hLast t).mp h; omega) (x0Std m c t) (iblk m c 1 t)) := by
  obtain ⟨n, hn⟩ := t
  cases n with
  | zero => exact ⟨_, rfl⟩
  | succ n => exact ⟨_, (dif_pos h0).trans rfl⟩

/-- At a middle point: the totals and the logits are the point before's, the accumulator grows. -/
theorem outsAt_middle (c : Dev nD) (t : Fin cfg0.N) (h0 : ¬t.val % 13 = 0) (h12 : ¬t.val % 13 = 12) :
    outsAt m c t.val t.isLt = ((outsAt m c (t.val - 1) (Nat.lt_of_le_of_lt (Nat.sub_le _ _) t.isLt)).1,
      (outsAt m c (t.val - 1) (Nat.lt_of_le_of_lt (Nat.sub_le _ _) t.isLt)).2.1,
      accMiddle c t (fun h => h0 ((hFirst t).mp h)) ((hBelow t).mpr h12) (fun h => h12 ((hLast t).mp h)) (x0Std m c t) (iblk m c 1 t) (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h12).trans rfl)

/-- At a last point: the totals are stored, the logits are the point before's. -/
theorem outsAt_last (c : Dev nD) (t : Fin cfg0.N) (h0 : ¬t.val % 13 = 0) (h12 : t.val % 13 = 12) :
    outsAt m c t.val t.isLt = (totLast c t (fun h => h0 ((hFirst t).mp h)) (fun h => (hBelow t).mp h h12) ((hLast t).mpr h12) (x0Std m c t) (iblk m c 1 t) (outsAt m c (t.val - 1) (Nat.lt_of_le_of_lt (Nat.sub_le _ _) t.isLt)).2.2,
      (outsAt m c (t.val - 1) (Nat.lt_of_le_of_lt (Nat.sub_le _ _) t.isLt)).2.1,
      accLast c t (fun h => h0 ((hFirst t).mp h)) (fun h => (hBelow t).mp h h12) ((hLast t).mpr h12) (x0Std m c t) (iblk m c 1 t) (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h12).trans rfl)

/-! ## The region's invariant -/

/-- Before position n: before the first point every scoped buffer at anything; afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

/-- The arrays as the region finds them; after the body the score tile's buffer at the block (zero past the matrix),
    the labels' at its block, the two result buffers and the accumulator at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => x0Std m c t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = x0Std m c t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]

/-- The score tile's buffer when the body runs: just fetched, the block on the part inside the matrix. -/
theorem before0 (c : Dev nD) (t : Fin cfg0.N) (d) : (dats m 0 c).before 0 t d = x0At m c t d := by
  rw [(dats m 0 c).before_fetched 0 t (fetch0_0 t)]
  unfold Dat.fetched Dat.blockOf x0At iblk; rw [A_eq]; try rfl
/-- The labels' buffer holds its block at every point. -/
theorem before1 (c : Dev nD) (t : Fin cfg0.N) (d) : (dats m 0 c).before 1 t d = iblk m c 1 t :=
  before0_1_of m (dats m 0 c) (A_eq m c 1) (after1 m c) t d

/-- The labelled logits' buffer after a row tile's first point holds what that point stored, until the row tile ends:
    through the idle points the buffer is handed on untouched. -/
theorem before3 (c : Dev nD) : ∀ (n : ℕ) (hn : n < cfg0.N), n % 13 ≠ 0 → ∀ d,
    (dats m 0 c).before 3 ⟨n, hn⟩ d = (outsAt m c (n - 1) (by omega)).2.1 := by
  intro n
  induction n with
  | zero => intro hn h; exact absurd (Nat.zero_mod _) h
  | succ n ih =>
    intro hn h d
    have hN : n + 1 < 52 := lt_of_lt_of_eq hn (show cfg0.N = 52 from N_0)
    rw [(dats m 0 c).before_of_pos 3 ⟨n + 1, hn⟩ (Nat.succ_ne_zero n) (fetch3 _)]
    have hfl : (cfg0.win 3).flush ⟨(⟨n + 1, hn⟩ : Fin cfg0.N).val - 1, Nat.lt_of_le_of_lt (Nat.sub_le _ _) hn⟩ = false :=
      (flush3 ⟨n, Nat.lt_of_succ_lt hn⟩).trans (by simp; omega)
    rw [hfl, if_neg Bool.false_ne_true]
    unfold Dat.left
    by_cases hz : n % 13 = 0
    · have hi : cfg0.idle 3 (cfg0.grid.coords ⟨(⟨n + 1, hn⟩ : Fin cfg0.N).val - 1, Nat.lt_of_le_of_lt (Nat.sub_le _ _) hn⟩) = false :=
        (idle3 ⟨n, Nat.lt_of_succ_lt hn⟩).trans (by simp [hz])
      rw [hi]; dsimp only
      unfold Dat.kept
      rw [Pipeline.fill_of_clip_none (cfg := cfg0) 3 _ (noclip3 _) d ((dats m 0 c).after 3 _), Window.fill_cut, after3]
    · have hi : cfg0.idle 3 (cfg0.grid.coords ⟨(⟨n + 1, hn⟩ : Fin cfg0.N).val - 1, Nat.lt_of_le_of_lt (Nat.sub_le _ _) hn⟩) = true :=
        (idle3 ⟨n, Nat.lt_of_succ_lt hn⟩).trans (by simp [hz])
      rw [hi]; dsimp only
      have := ih (Nat.lt_of_succ_lt hn) hz d
      simp only [Nat.add_sub_cancel] at this ⊢
      rw [this]
      have hm := outsAt_middle m c ⟨n, Nat.lt_of_succ_lt hn⟩ hz (by (try dsimp only); omega)
      rw [hm]

end Cert.Kernel.Body

end
-- ==== Proof.KBPieces.lean ====
/-
  What each run's stores leave, as the arithmetic of the kernel's body.

  Every store of the body writes its whole buffer (the unit rectangle at offsets [0, 0]), so what a run leaves in a
  buffer is the value its LAST store there wrote, and a load reads the buffer's contents whole. Read through that, the
  pieces of the three runs are: at a first point the labelled logits (column 0 or 1 of the tile by the label) and the
  accumulator (the tile's lane-folded exponentials added to the zero vector the reset has just stored); at a middle
  point the same sum added to the accumulator found; at a last point the masked tile's sum added to the accumulator
  found, and the totals, which are the lane sums of that accumulator read back.
-/
import proofs.«429872_j65068754535073_3_alg».proof.Proof.KBOuts
import Idealize.ShloMosaic.Lib.Pipeline.Value
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

/-- The two zero offsets, spelt as the constant function. -/
theorem offs_zero : (![0, 0] : Fin 2 → Nat) = fun _ => 0 := funext fun a => by fin_cases a <;> rfl

/-- The accumulator a last point leaves is the masked tile's lane-folded exponentials added to what it found. -/
theorem accLast_eq (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) :
    accLast c t h1 h2 h3 x0 x1 xs = k0_pay4 (k0_pay9 (BitVec.ofNat 32 ((grid0.coords t) 1).val) x0) (k0_pay10 (BitVec.ofNat 32 ((grid0.coords t) 1).val) x0) xs := by
  unfold accLast
  rw [View.read_writes_eq_canon _ _ _ (cover_accLast c t h1 h2 h3 x0 x1 xs)]
  unfold runLast
  dsimp only
  sl_unfold_words
  rw [View.canon_unit_zero offs_zero]
  simp only [View.readAt_eq_ld, (hs0 t).read_unread, (Memref.isWhole_whole _).read_unread,
    View.ld_unit_zero (S := S512x4096) offs_zero, View.ld_unit_zero (S := S512x128) offs_zero]

/-- The totals a last point stores are the lane sums of the accumulator it has just left. -/
theorem totLast_eq (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) :
    totLast c t h1 h2 h3 x0 x1 xs = k0_pay5 (k0_pay4 (k0_pay9 (BitVec.ofNat 32 ((grid0.coords t) 1).val) x0) (k0_pay10 (BitVec.ofNat 32 ((grid0.coords t) 1).val) x0) xs) := by
  unfold totLast
  rw [View.read_writes_eq_canon _ _ _ (cover_tot c t h1 h2 h3 x0 x1 xs)]
  unfold runLast
  dsimp only
  sl_unfold_words
  rw [View.canon_unit_zero (S := S512x1) offs_zero]
  simp only [View.readAt_eq_ld, (hs0 t).read_unread, (Memref.isWhole_whole _).read_unread,
    View.readCov_unit_zero (S := S512x128) _ offs_zero,
    View.ld_unit_zero (S := S512x4096) offs_zero, View.ld_unit_zero (S := S512x128) offs_zero]

/-- The labelled logits a first point stores: column 0 of the tile where the label is 0, column 1 elsewhere. -/
theorem tgtOf_eq (c : Dev nD) (t : Fin cfg0.N) (h1 : cFirst (grid0.coords t)) (h2 : cBelow (grid0.coords t)) (h3 : ¬cLast (grid0.coords t))
    (x0 : Vec F S512x4096 .f32) (x1 : Vec F S512x1 .i32) : tgtOf c t h1 h2 h3 x0 x1 = k0_pay2 x0 x1 := by
  unfold tgtOf
  rw [View.read_writes_eq_canon _ _ _ (cover_tgt c t h1 h2 h3 x0 x1)]
  unfold runFirst
  dsimp only
  sl_unfold_words
  rw [View.canon_unit_zero (S := S512x1) offs_zero]
  simp only [View.readAt_eq_ld, (hs0 t).read_unread, (hs1 t).read_unread,
    View.ld_unit_zero (S := S512x4096) offs_zero, View.ld_unit_zero (S := S512x1) offs_zero]

/-- The accumulator a first point leaves: the tile's lane-folded exponentials added to the zero vector it has just
    been reset to. -/
theorem accFirst_eq (c : Dev nD) (t : Fin cfg0.N) (h1 : cFirst (grid0.coords t)) (h2 : cBelow (grid0.coords t)) (h3 : ¬cLast (grid0.coords t))
    (x0 : Vec F S512x4096 .f32) (x1 : Vec F S512x1 .i32) :
    accFirst c t h1 h2 h3 x0 x1 = k0_pay3 (k0_pay6 x0) (k0_pay7 x0) (k0_pay8 x0) (k0_pay1 (F := F)) := by
  unfold accFirst
  rw [View.read_writes_eq_canon _ _ _ (cover_accFirst c t h1 h2 h3 x0 x1)]
  unfold runFirst
  dsimp only
  sl_unfold_words
  rw [View.canon_cons_unit_zero (S := S512x128) offs_zero, View.readCov_unit_zero (S := S512x128) _ offs_zero]
  simp only [View.readAt_eq_ld, (hs0 t).read_unread, View.ld_unit_zero (S := S512x4096) offs_zero]

/-- The accumulator a middle point leaves: the tile's lane-folded exponentials added to what it found. -/
theorem accMiddle_eq (c : Dev nD) (t : Fin cfg0.N) (h1 : ¬cFirst (grid0.coords t)) (h2 : cBelow (grid0.coords t)) (h3 : ¬cLast (grid0.coords t))
    (x0 : Vec F S512x4096 .f32) (x1 : Vec F S512x1 .i32) (xs : Vec F S512x128 .f32) :
    accMiddle c t h1 h2 h3 x0 x1 xs = k0_pay3 (k0_pay6 x0) (k0_pay7 x0) (k0_pay8 x0) xs := by
  unfold accMiddle
  rw [View.read_writes_eq_canon _ _ _ (cover_accMiddle c t h1 h2 h3 x0 x1 xs)]
  unfold runMiddle
  dsimp only
  sl_unfold_words
  rw [View.canon_unit_zero (S := S512x128) offs_zero]
  simp only [View.readAt_eq_ld, (hs0 t).read_unread, (Memref.isWhole_whole _).read_unread,
    View.ld_unit_zero (S := S512x4096) offs_zero, View.ld_unit_zero (S := S512x128) offs_zero]

end Cert.Kernel.Body

end
-- ==== Proof.KBIndep.lean ====
/-
  What a last point leaves does not depend on the words past the matrix's end.

  At column tile 12 the score tile overhangs the matrix: of its 4096 columns only the first 50257 − 12·4096 = 1105 are the
  matrix's. The body forms 30·x on the whole tile but selects −∞ wherever 12·4096 + (column) ≥ 50257 before it takes
  the exponential, so the exponential vector — and with it the accumulator and the rows' totals — is the same for any
  two tiles that agree on the first 1105 columns.
-/
import proofs.«429872_j65068754535073_3_alg».proof.Proof.KBDats
import proofs.«429872_j65068754535073_3_alg».proof.Proof.KBPieces
import Idealize.ShloMosaic.Lib.ValueIdx
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen Idealize.ShloMosaic.ValueIdx

variable {F : FTy → Type} [FloatOps F]

variable (m : (ℓ : Loc nD τ sig) → Buf (Elt F) ℓ)

/-- Past the matrix's last column the mask is off: 12·4096 + n ≥ 50257 for n ≥ 1105 (as signed 32-bit words). -/
theorem mask_off : ∀ n : Fin 4096, 1105 ≤ n.val →
    IntOp.cmpi .slt (IntOp.addi (Scalar.muli 12#32 4096#32) (BitVec.ofNat 32 n.val)) 50257#32 = 0#1 := by decide +kernel

/-- The masked exponential vector of two tiles that agree on the matrix's columns is one vector. -/
theorem pay9_congr (x x' : Vec F S512x4096 .f32) (h : ∀ y : S512x4096.Idx, (y 1).val < 1105 → x y = x' y) :
    k0_pay9 (F := F) 12#32 x = k0_pay9 12#32 x' := by
  funext y
  unfold k0_pay9
  dsimp only
  simp only [exp, select, mulf, cmpi, addi, broadcast]
  have hi : iota Kind.tc S512x4096 32 [1] iota_S512x4096_d1_w32 y = BitVec.ofNat 32 (y 1).val := by simp [iota]
  rw [hi]
  by_cases hy : (y 1).val < 1105
  · rw [h y hy]
  · have hm := mask_off ⟨(y 1).val, idx2_lt1 y⟩ (Nat.le_of_not_lt hy)
    dsimp only at hm
    rw [hm]; rfl

/-- The lane fold is a function of the exponential vector. -/
theorem pay10_congr (a : BitVec 32) (x x' : Vec F S512x4096 .f32) (h : k0_pay9 (F := F) a x = k0_pay9 a x') :
    k0_pay10 (F := F) a x = k0_pay10 a x' := by
  unfold k0_pay10
  rw [h]

/-- At a last point the fetch fills 512 rows and 1105 columns of the staging buffer. -/
theorem xsize_last : ∀ t : Fin cfg0.N, t.val % 13 = 12 →
    win0_0.xsize (grid0.coords t) 0 = 512 ∧ win0_0.xsize (grid0.coords t) 1 = 1105 := by decide +kernel

theorem moved_last (t : Fin cfg0.N) (h12 : t.val % 13 = 12) (y : S512x4096.Idx) (hy : (y 1).val < 1105) :
    win0_0.moved (grid0.coords t) y = true := by
  rw [win0_0.moved_iff]
  intro a
  match a with
  | ⟨0, _⟩ => rw [show win0_0.xsize (grid0.coords t) ⟨0, _⟩ = 512 from (xsize_last t h12).1]; exact idx2_lt0 y
  | ⟨1, _⟩ => rw [show win0_0.xsize (grid0.coords t) ⟨1, _⟩ = 1105 from (xsize_last t h12).2]; exact hy

/-- The masked exponential vector at a last point, whatever the buffer held past the matrix's end. -/
theorem pay9_last (c : Dev nD) (t : Fin cfg0.N) (h12 : t.val % 13 = 12) (d : S512x4096.Idx → Elt F .f32) :
    k0_pay9 (F := F) (BitVec.ofNat 32 ((grid0.coords t) 1).val) (x0At m c t d)
      = k0_pay9 (BitVec.ofNat 32 ((grid0.coords t) 1).val) (x0Std m c t) := by
  rw [show BitVec.ofNat 32 ((grid0.coords t) 1).val = 12#32 from by rw [hCol t, h12]]
  exact pay9_congr _ _ (fun y hy => x0At_agree m c t d _ y (moved_last t h12 y hy))

theorem totLast_indep (c : Dev nD) (t : Fin cfg0.N) (h0 : ¬t.val % 13 = 0) (h12 : t.val % 13 = 12) (x1 : Vec F S512x1 .i32) (xs : Vec F S512x128 .f32)
    (d : S512x4096.Idx → Elt F .f32) :
    totLast c t (fun h => h0 ((hFirst t).mp h)) (fun h => (hBelow t).mp h h12) ((hLast t).mpr h12) (x0At m c t d) x1 xs
      = totLast c t (fun h => h0 ((hFirst t).mp h)) (fun h => (hBelow t).mp h h12) ((hLast t).mpr h12) (x0Std m c t) x1 xs := by
  rw [totLast_eq, totLast_eq, pay9_last m c t h12 d, pay10_congr _ _ _ (pay9_last m c t h12 d)]

theorem accLast_indep (c : Dev nD) (t : Fin cfg0.N) (h0 : ¬t.val % 13 = 0) (h12 : t.val % 13 = 12) (x1 : Vec F S512x1 .i32) (xs : Vec F S512x128 .f32)
    (d : S512x4096.Idx → Elt F .f32) :
    accLast c t (fun h => h0 ((hFirst t).mp h)) (fun h => (hBelow t).mp h h12) ((hLast t).mpr h12) (x0At m c t d) x1 xs
      = accLast c t (fun h => h0 ((hFirst t).mp h)) (fun h => (hBelow t).mp h h12) ((hLast t).mpr h12) (x0Std m c t) x1 xs := by
  rw [accLast_eq, accLast_eq, pay9_last m c t h12 d, pay10_congr _ _ _ (pay9_last m c t h12 d)]

end Cert.Kernel.Body

end
-- ==== Proof.KBBody.lean ====
/-
  The body obligation at every grid point, the run of the program and its frame.
-/
import proofs.«429872_j65068754535073_3_alg».proof.Proof.KBIndep
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the obligation states of each window -/

/-- The score tile's window is loose: its buffer is stated on the part inside the matrix only, which is the block. -/
theorem leaves0 (c : Dev nD) (t : Fin cfg0.N) :
    (dats m 0 c).leaves 0 t = iprop(∃ d, owns (c : Thread nD τ) (ms0 t) fullShare (x0At m c t d)) := by
  unfold Dat.leaves; rw [live0 t]; dsimp only
  congr 1; funext d
  rw [after0]
  show owns _ _ _ (win0_0.fill (grid0.coords t) d (win0_0.cut (grid0.coords t) (win0_0.fill (grid0.coords t) (fun _ => Scalar.ofBits .f32 0#32) (iblk m c 0 t))))
    = owns _ _ _ (win0_0.fill (grid0.coords t) d (iblk m c 0 t))
  rw [win0_0.cut_fill]
theorem leaves1 (c : Dev nD) (t : Fin cfg0.N) :
    (dats m 0 c).leaves 1 t = owns (c : Thread nD τ) (ms1 t) fullShare (iblk m c 1 t) := by
  unfold Dat.leaves; rw [live1 t]; dsimp only; rw [after1]
theorem leaves2_idle (c : Dev nD) (t : Fin cfg0.N) (h : t.val % 13 ≠ 12) :
    (dats m 0 c).leaves 2 t = iprop(∃ d, owns (c : Thread nD τ) (ms2 t) fullShare ((dats m 0 c).before 2 t d)) :=
  (dats m 0 c).leaves_idle 2 t (by rw [idle2 t]; simp [h]) (by rw [flush2 t]; simp [h])
theorem leaves2_last (c : Dev nD) (t : Fin cfg0.N) (h : t.val % 13 = 12) :
    (dats m 0 c).leaves 2 t = owns (c : Thread nD τ) (ms2 t) fullShare ((outsAt m c t.val t.isLt).1) := by
  unfold Dat.leaves; rw [idle2 t]; simp only [h, decide_true, Bool.not_true]; rw [after2]
theorem leaves3_idle (c : Dev nD) (t : Fin cfg0.N) (h0 : t.val % 13 ≠ 0) (h : t.val % 13 ≠ 12) :
    (dats m 0 c).leaves 3 t = iprop(∃ d, owns (c : Thread nD τ) (ms3 t) fullShare ((dats m 0 c).before 3 t d)) :=
  (dats m 0 c).leaves_idle 3 t (by rw [idle3 t]; simp [h0]) (by rw [flush3 t]; simp [h])
theorem leaves3_first (c : Dev nD) (t : Fin cfg0.N) (h0 : t.val % 13 = 0) :
    (dats m 0 c).leaves 3 t = owns (c : Thread nD τ) (ms3 t) fullShare ((outsAt m c t.val t.isLt).2.1) := by
  unfold Dat.leaves; rw [idle3 t]; simp only [h0, decide_true, Bool.not_true]; rw [after3]
theorem leaves3_last (c : Dev nD) (t : Fin cfg0.N) (h : t.val % 13 = 12) :
    (dats m 0 c).leaves 3 t = owns (c : Thread nD τ) (ms3 t) fullShare ((outsAt m c t.val t.isLt).2.1) := by
  unfold Dat.leaves; rw [idle3 t, flush3 t]
  simp only [h, show ¬((12 : ℕ) = 0) by decide, decide_false, decide_true, Bool.not_false]; rw [after3]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 52 := lt_of_lt_of_eq t.isLt (show cfg0.N = 52 from N_0)
  by_cases h0 : t.val % 13 = 0
  · -- a first point
    have h12 : t.val % 13 ≠ 12 := by omega
    rw [leaves2_idle m c t h12, leaves3_first m c t h0]
    obtain ⟨a, ha⟩ := outsAt_first m c t h0
    rw [ha]; dsimp only
    unfold tgtOf accFirst
    have hpre : (dats m 0 c).Φ t.castSucc ⊢ iprop(iprop((∃ d, owns (c : Thread nD τ) scM fullShare d)) ∗ (∃ r, prngReg c r)) := by
      rw [PhiS_castSucc m c t]
      by_cases hz : t.val = 0
      · rw [PhiS_zero m c _ _ hz, PhiA_eq]
      · rw [PhiS_pos m c _ _ hz]
        iintro ⟨HS, Hg⟩
        isplitl [HS]
        · iexists _; iexact HS
        iexact Hg
    refine (sep_mono hpre .rfl).trans ?_
    iintro ⟨⟨HS, Hg⟩, Ho, ⟨%d0, H0⟩, ⟨%d1, H1⟩, ⟨%d2, H2⟩, ⟨%d3, H3⟩⟩
    rw [x0At_indep m c t h12 d0 (fun _ => Scalar.ofBits .f32 0#32)]
    iapply ((runFirst c (grid0.coords t) (ms0 t) (hs0 t) (ms1 t) (hs1 t) (ms2 t) (hs2 t) (ms3 t) (hs3 t) scM (Memref.isWhole_whole _) ((hFirst t).mpr h0) ((hBelow t).mpr (by omega)) (fun h => by have := (hLast t).mp h; omega) (x0Std m c t) (iblk m c 1 t)).2.2 _ Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hg]
    · isplitl [HS]
      · unfold owns; iexists _; isplitr
        swap; · iexact HS
        ipureintro; exact View.read_writes_of_cover _ _ _ _ _ (cover_accFirst c t _ _ _ _ _)
      iexact Hg
    isplitl [Ho]; · iexact Ho
    isplitl [H0]; · iexists _; iexact H0
    isplitl [H1]; · iexact H1
    isplitl [H2]; · iexists _; iexact H2
    unfold owns; iexists _; isplitr
    swap; · iexact H3
    ipureintro; exact View.read_writes_of_cover _ _ _ _ _ (cover_tgt c t _ _ _ _ _)
  · have hz : t.val ≠ 0 := fun h => h0 (by rw [h])
    by_cases h12 : t.val % 13 = 12
    · -- a last point
      rw [leaves2_last m c t h12, leaves3_last m c t h12]
      rw [outsAt_last m c t h0 h12]; dsimp only
      rw [PhiS_castSucc m c t, PhiS_pos m c _ _ hz]
      iintro ⟨⟨HS, Hg⟩, Ho, ⟨%d0, H0⟩, ⟨%d1, H1⟩, ⟨%d2, H2⟩, ⟨%d3, H3⟩⟩
      rw [before3 m c t.val t.isLt h0 d3]
      rw [← totLast_indep m c t h0 h12 (iblk m c 1 t) _ d0, ← accLast_indep m c t h0 h12 (iblk m c 1 t) _ d0]
      unfold totLast accLast
      iapply ((runLast c (grid0.coords t) (ms0 t) (hs0 t) (ms1 t) (hs1 t) (ms2 t) (hs2 t) (ms3 t) (hs3 t) scM (Memref.isWhole_whole _) (fun h => h0 ((hFirst t).mp h)) (fun h => (hBelow t).mp h h12) ((hLast t).mpr h12) (x0At m c t d0) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (cover_accLast c t _ _ _ _ _ _)
        iexact Hg
      isplitl [Ho]; · iexact Ho
      isplitl [H0]; · iexists _; iexact H0
      isplitl [H1]; · iexact H1
      isplitl [H2]
      · unfold owns; iexists _; isplitr
        swap; · iexact H2
        ipureintro; exact View.read_writes_of_cover _ _ _ _ _ (cover_tot c t _ _ _ _ _ _)
      iexact H3
    · -- a middle point
      rw [leaves2_idle m c t h12, leaves3_idle m c t h0 h12]
      rw [outsAt_middle m c t h0 h12]; dsimp only
      unfold accMiddle
      rw [PhiS_castSucc m c t, PhiS_pos m c _ _ hz]
      iintro ⟨⟨HS, Hg⟩, Ho, ⟨%d0, H0⟩, ⟨%d1, H1⟩, ⟨%d2, H2⟩, ⟨%d3, H3⟩⟩
      rw [x0At_indep m c t h12 d0 (fun _ => Scalar.ofBits .f32 0#32)]
      iapply ((runMiddle c (grid0.coords t) (ms0 t) (hs0 t) (ms1 t) (hs1 t) (ms2 t) (hs2 t) (ms3 t) (hs3 t) scM (Memref.isWhole_whole _) (fun h => h0 ((hFirst t).mp h)) ((hBelow t).mpr h12) (fun h => h12 ((hLast t).mp h)) (x0Std m c t) (iblk m c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (cover_accMiddle c t _ _ _ _ _ _)
        iexact Hg
      isplitl [Ho]; · iexact Ho
      isplitl [H0]; · iexists _; iexact H0
      isplitl [H1]; · iexact H1
      isplitl [H2]; · iexists _; iexact H2
      iexists _; iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 52 := N_0; omega), PhiA_eq]
  iintro ⟨HS, Hg⟩
  isplitl [HS]
  · iexists _; iexact HS
  iexact Hg

/-! ## The run and the frame -/

set_option backward.isDefEq.respectTransparency.types false in
/-- Every weakly fair execution of the program terminates, each array of the pipeline ending at what the proof data
    computes and every other unscoped buffer as the closing host lines leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program runs to the end without a fault and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIRuns.lean ====
/-
  What the three runs of the kernel body share: which of its three conditionals a grid point takes, where its two
  result windows are idle, and the scratch accumulator as a memref.

  The grid is 4 row tiles by 13 column tiles, the column tile moving fastest: point t is row tile t / 13, column
  tile t % 13. The body resets the accumulator and stores the labelled logits at column tile 0, adds the tile's
  lane-folded exponentials at every tile (unmasked at tiles 0..11, masked past column 50257 at tile 12), and at
  tile 12 also stores the rows' totals. So a point is of one of three kinds: FIRST (t % 13 = 0), MIDDLE
  (0 < t % 13 < 12), LAST (t % 13 = 12).
-/
import proofs.«429872_j65068754535073_3_alg».proof.Proof.Gen.KernelIdeal.Frame
import proofs.«429872_j65068754535073_3_alg».proof.Proof.Gen.KernelIdeal.Skeleton
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

/-! ## The three conditions, decided over the grid -/

/-- "column tile 0": the reset and the labelled-logit store. -/
abbrev cFirst (i : grid0.Coords) : Prop := k0_cond1 i = 1#1
/-- "column tile below 12": the unmasked accumulation. -/
abbrev cBelow (i : grid0.Coords) : Prop :=
  (Scalar.cmpi .ne (Scalar.extui (Scalar.cmpi .slt (BitVec.ofNat 32 (i 1).val) 12#32)) 0#32) = 1#1
/-- "column tile 12": the masked accumulation and the totals' store. -/
abbrev cLast (i : grid0.Coords) : Prop := k0_cond3 i = 1#1

theorem hFirst : ∀ t : Fin cfg0.N, cFirst (grid0.coords t) ↔ t.val % 13 = 0 :=
  (by decide +kernel : ∀ t : Fin grid0.N, cFirst (grid0.coords t) ↔ t.val % 13 = 0)
theorem hBelow : ∀ t : Fin cfg0.N, cBelow (grid0.coords t) ↔ t.val % 13 ≠ 12 :=
  (by decide +kernel : ∀ t : Fin grid0.N, cBelow (grid0.coords t) ↔ t.val % 13 ≠ 12)
theorem hLast : ∀ t : Fin cfg0.N, cLast (grid0.coords t) ↔ t.val % 13 = 12 :=
  (by decide +kernel : ∀ t : Fin grid0.N, cLast (grid0.coords t) ↔ t.val % 13 = 12)
/-- The column tile of a point, as the body's word for it. -/
theorem hCol : ∀ t : Fin cfg0.N, ((grid0.coords t) 1).val = t.val % 13 :=
  (by decide +kernel : ∀ t : Fin grid0.N, ((grid0.coords t) 1).val = t.val % 13)

/-! ## Where the windows are idle, and where they are written back -/

theorem live0 : ∀ t : Fin cfg0.N, cfg0.idle 0 (grid0.coords t) = false := by decide +kernel
theorem live1 : ∀ t : Fin cfg0.N, cfg0.idle 1 (grid0.coords t) = false := by decide +kernel
/-- The totals' window is idle except at the last column tile, -/
theorem idle2 : ∀ t : Fin cfg0.N, cfg0.idle 2 (grid0.coords t) = !(decide (t.val % 13 = 12)) :=
  (by decide +kernel : ∀ t : Fin grid0.N, cfg0.idle 2 (grid0.coords t) = !(decide (t.val % 13 = 12)))
/-- the labelled logits' window except at the first. -/
theorem idle3 : ∀ t : Fin cfg0.N, cfg0.idle 3 (grid0.coords t) = !(decide (t.val % 13 = 0)) :=
  (by decide +kernel : ∀ t : Fin grid0.N, cfg0.idle 3 (grid0.coords t) = !(decide (t.val % 13 = 0)))
/-- Neither result window is ever fetched; -/
theorem fetch2 : ∀ t : Fin cfg0.N, (cfg0.win 2).fetch t = false := by decide +kernel
theorem fetch3 : ∀ t : Fin cfg0.N, (cfg0.win 3).fetch t = false := by decide +kernel
/-- both are written back at the last column tile of each row tile, and only there. -/
theorem flush2 : ∀ t : Fin cfg0.N, (cfg0.win 2).flush t = decide (t.val % 13 = 12) :=
  (by decide +kernel : ∀ t : Fin grid0.N, win0_2.flush t = decide (t.val % 13 = 12))
theorem flush3 : ∀ t : Fin cfg0.N, (cfg0.win 3).flush t = decide (t.val % 13 = 12) :=
  (by decide +kernel : ∀ t : Fin grid0.N, win0_3.flush t = decide (t.val % 13 = 12))

/-! ## The memrefs the body is called with -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
/-- The accumulator: a scoped buffer of the kernel's own, carried from point to point. -/
abbrev scM : Memref sig .tc .vmem S512x128 .f32 := Memref.whole cc0_scratch0
abbrev VS : View sig .tc .vmem S512x128 .f32 := (scM).view
/-- One staging buffer of each result window, through which its contents are stated. -/
abbrev VO2 : View sig .tc .vmem S512x1 .f32 := (Memref.whole cc0_stg2_0 : Memref sig .tc .vmem S512x1 .f32).view
abbrev VO3 : View sig .tc .vmem S512x1 .f32 := (Memref.whole cc0_stg3_0 : Memref sig .tc .vmem S512x1 .f32).view

/-- The region's invariant with the accumulator as a memref owned at some contents. -/
theorem PhiA_eq (c : Dev nD) :
    (Pipeline.ΦA spec0 c : sProp 𝕄)
      = iprop(iprop((∃ d, owns (c : Thread nD τ) (scM) fullShare d)) ∗ (∃ r, prngReg c r)) := by
  unfold Pipeline.ΦA; rw [scopedRest0_eq]; simp only [scM, owns_whole]; try rfl

end Cert.KernelIdeal.Body

end
-- ==== Proof.KIRunFirst.lean ====
/-
  The body at a FIRST point (column tile 0): it zeroes the accumulator, stores the labelled logits, and adds the tile's
  lane-folded exponentials to the accumulator. The totals' window is left untouched.
-/
import proofs.«429872_j65068754535073_3_alg».proof.Proof.KIRuns
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

set_option maxHeartbeats 4000000 in
/-- The body's triple at a first point, on any whole memrefs: the two input buffers at their contents, the totals' buffer
    at contents handed back untouched, the labelled logits' buffer and the accumulator at anything; it ends with the
    inputs as they were, the labelled logits' buffer and the accumulator with the pieces the stores wrote (found by
    running the body). -/
noncomputable def runFirst (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
    (h1 : cFirst i) (h2 : cBelow i) (h3 : ¬cLast i)
    (x0 : Vec F S512x4096 .f32) (x1 : Vec F S512x1 .i32) :
    Σ' (L3 : List (View.Piece (Elt F) S512x1 .f32)), { LS : List (View.Piece (Elt F) S512x128 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__amsoftmax_kernel i arg2 harg2 arg3 harg3 arg4 harg4 arg5 harg5 arg6 harg6) K } := by
  refine ⟨?_, ?_, fun xi2 E K => ?run⟩
  case run =>
    simp only [cc0__amsoftmax_kernel_eq_skeleton]; unfold cc0__amsoftmax_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Body

end
-- ==== Proof.KIRunMiddle.lean ====
/-
  The body at a MIDDLE point (column tiles 1..11): it adds the tile's lane-folded exponentials to the accumulator it
  finds. Both result windows are left untouched.
-/
import proofs.«429872_j65068754535073_3_alg».proof.Proof.KIRunFirst
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

set_option maxHeartbeats 4000000 in
/-- The body's triple at a middle point: the two input buffers at their contents, both result buffers at contents handed
    back untouched, the accumulator at what the point before left (xs); it ends with the accumulator holding the
    pieces the one store wrote. -/
noncomputable def runMiddle (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
    (h1 : ¬cFirst i) (h2 : cBelow i) (h3 : ¬cLast i)
    (x0 : Vec F S512x4096 .f32) (x1 : Vec F S512x1 .i32) (xs : Vec F S512x128 .f32) :
    { LS : List (View.Piece (Elt F) S512x128 .f32) //
      ∀ (xi2 xi3 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare xi2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc0__amsoftmax_kernel i arg2 harg2 arg3 harg3 arg4 harg4 arg5 harg5 arg6 harg6) K } := by
  refine ⟨?_, fun xi2 xi3 E K => ?run⟩
  case run =>
    simp only [cc0__amsoftmax_kernel_eq_skeleton]; unfold cc0__amsoftmax_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Body

end
-- ==== Proof.KIRunLast.lean ====
/-
  The body at a LAST point (column tile 12, which overhangs the matrix's 50257 columns): it masks the tile's scaled
  entries to −∞ past column 50257, adds the lane-folded exponentials to the accumulator it finds, and stores the rows'
  totals (the accumulator summed over its 128 lanes). The labelled logits' window is left untouched.
-/
import proofs.«429872_j65068754535073_3_alg».proof.Proof.KIRunMiddle
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

set_option maxHeartbeats 4000000 in
/-- The body's triple at a last point: the two input buffers at their contents, the labelled logits' buffer at contents
    handed back untouched, the totals' buffer at anything, the accumulator at what the point before left (xs); it ends
    with the totals' buffer and the accumulator holding the pieces the stores wrote. -/
noncomputable def runLast (c : Dev nD) (i : grid0.Coords) (arg2 : Memref sig .tc .vmem S512x4096 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x128 .f32) (harg6 : arg6.IsWhole)
    (h1 : ¬cFirst i) (h2 : ¬cBelow i) (h3 : cLast i)
    (x0 : Vec F S512x4096 .f32) (x1 : Vec F S512x1 .i32) (xs : Vec F S512x128 .f32) :
    Σ' (L2 : List (View.Piece (Elt F) S512x1 .f32)), { LS : List (View.Piece (Elt F) S512x128 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xi3 ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc0__amsoftmax_kernel i arg2 harg2 arg3 harg3 arg4 harg4 arg5 harg5 arg6 harg6) K } := by
  refine ⟨?_, ?_, fun xi3 E K => ?run⟩
  case run =>
    simp only [cc0__amsoftmax_kernel_eq_skeleton]; unfold cc0__amsoftmax_kernel_skel
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1
    obtain rfl := harg5.eq_unread hf3; obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; isplitr; · ipureintro; exact harg5.read_unread _
      iexact H3
    iexists _; iexact HS

end Cert.KernelIdeal.Body

end
-- ==== Proof.KIOuts.lean ====
/-
  The kernel's proof data and its frame.

  What the three buffers the body writes hold after each grid point, by recursion on the point: the rows' totals (stored
  at the last column tile of a row tile), the labelled logits (stored at the first, kept until the row tile's end) and
  the accumulator (reset at the first column tile, added to at every tile). The score tile a point finds is the
  matrix's block there; at the last column tile the block overhangs the matrix and the part past column 50257 holds
  words nothing names, which the body masks before it uses them: what it leaves does not depend on them.
-/
import proofs.«429872_j65068754535073_3_alg».proof.Proof.KIRunLast
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The score tile a point finds -/

/-- The score tile's staging buffer at point t: the matrix's block on the part inside the matrix, d past it. -/
def x0At (c : Dev nD) (t : Fin cfg0.N) (d : S512x4096.Idx → Elt F .f32) : Vec F S512x4096 .f32 :=
  win0_0.fill (grid0.coords t) d (iblk m c 0 t)
/-- The same with the zero word past the matrix's end: the representative the proof data names. -/
abbrev x0Std (c : Dev nD) (t : Fin cfg0.N) : Vec F S512x4096 .f32 := x0At m c t (fun _ => Scalar.ofBits .f32 0#32)

/-- Only the last column tile overhangs the matrix. -/
theorem noclip0 : ∀ t : Fin cfg0.N, t.val % 13 ≠ 12 → ∀ a, (cfg0.win 0).clip (grid0.coords t) a = none := by decide +kernel
/-- The two result windows' blocks tile their arrays. -/
theorem noclip2 : ∀ (i : cfg0.grid.Coords) a, (cfg0.win 2).clip i a = none := by decide +kernel
theorem noclip3 : ∀ (i : cfg0.grid.Coords) a, (cfg0.win 3).clip i a = none := by decide +kernel

/-- Away from the last column tile the staging buffer is the block, whatever it held before. -/
theorem x0At_indep (c : Dev nD) (t : Fin cfg0.N) (h : t.val % 13 ≠ 12) (d d' : S512x4096.Idx → Elt F .f32) :
    x0At m c t d = x0At m c t d' :=
  Pipeline.fill_of_clip_none (cfg := cfg0) 0 (grid0.coords t) (noclip0 t h) d d' (iblk m c 0 t)

/-- On the part the fetch fills, the staging buffer is the block, whatever it held before. -/
theorem x0At_agree (c : Dev nD) (t : Fin cfg0.N) (d d' : S512x4096.Idx → Elt F .f32) (y : S512x4096.Idx)
    (hy : win0_0.moved (grid0.coords t) y = true) : x0At m c t d y = x0At m c t d' y := by
  unfold x0At Window.fill; rw [dif_pos hy, dif_pos hy]

/-! ## What the runs leave, read back -/

/-- The labelled logits a first point stores. -/
def tgtOf (c : Dev nD) (t : Fin cfg0.N) (h1 : cFirst (grid0.coords t)) (h2 : cBelow (grid0.coords t)) (h3 : ¬cLast (grid0.coords t))
    (x0 : Vec F S512x4096 .f32) (x1 : Vec F S512x1 .i32) : Vec F S512x1 .f32 :=
  VO3.read (Elt F) (VO3.writes (Elt F) VO3.junk (runFirst c (grid0.coords t) (ms0 t) (hs0 t) (ms1 t) (hs1 t) (ms2 t) (hs2 t) (ms3 t) (hs3 t) scM (Memref.isWhole_whole _) h1 h2 h3 x0 x1).1)
/-- The accumulator after a first point. -/
def accFirst (c : Dev nD) (t : Fin cfg0.N) (h1 : cFirst (grid0.coords t)) (h2 : cBelow (grid0.coords t)) (h3 : ¬cLast (grid0.coords t))
    (x0 : Vec F S512x4096 .f32) (x1 : Vec F S512x1 .i32) : Vec F S512x128 .f32 :=
  VS.read (Elt F) (VS.writes (Elt F) VS.junk (runFirst c (grid0.coords t) (ms0 t) (hs0 t) (ms1 t) (hs1 t) (ms2 t) (hs2 t) (ms3 t) (hs3 t) scM (Memref.isWhole_whole _) h1 h2 h3 x0 x1).2.1)
/-- The accumulator after a middle point, over what the point before left. -/
def accMiddle (c : Dev nD) (t : Fin cfg0.N) (h1 : ¬cFirst (grid0.coords t)) (h2 : cBelow (grid0.coords t)) (h3 : ¬cLast (grid0.coords t))
    (x0 : Vec F S512x4096 .f32) (x1 : Vec F S512x1 .i32) (xs : Vec F S512x128 .f32) : Vec F S512x128 .f32 :=
  VS.read (Elt F) (VS.writes (Elt F) VS.junk (runMiddle c (grid0.coords t) (ms0 t) (hs0 t) (ms1 t) (hs1 t) (ms2 t) (hs2 t) (ms3 t) (hs3 t) scM (Memref.isWhole_whole _) h1 h2 h3 x0 x1 xs).1)
/-- The rows' totals a last point stores. -/
def totLast (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) : Vec F S512x1 .f32 :=
  VO2.read (Elt F) (VO2.writes (Elt F) VO2.junk (runLast c (grid0.coords t) (ms0 t) (hs0 t) (ms1 t) (hs1 t) (ms2 t) (hs2 t) (ms3 t) (hs3 t) scM (Memref.isWhole_whole _) h1 h2 h3 x0 x1 xs).1)
/-- The accumulator after a last point. -/
def accLast (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) : Vec F S512x128 .f32 :=
  VS.read (Elt F) (VS.writes (Elt F) VS.junk (runLast c (grid0.coords t) (ms0 t) (hs0 t) (ms1 t) (hs1 t) (ms2 t) (hs2 t) (ms3 t) (hs3 t) scM (Memref.isWhole_whole _) h1 h2 h3 x0 x1 xs).2.1)

/-- Each run's stores cover the buffer they write. -/
theorem cover_tgt (c : Dev nD) (t : Fin cfg0.N) (h1 : cFirst (grid0.coords t)) (h2 : cBelow (grid0.coords t)) (h3 : ¬cLast (grid0.coords t))
    (x0 : Vec F S512x4096 .f32) (x1 : Vec F S512x1 .i32) (y : S512x1.Idx) :
    ∃ pc ∈ (runFirst c (grid0.coords t) (ms0 t) (hs0 t) (ms1 t) (hs1 t) (ms2 t) (hs2 t) (ms3 t) (hs3 t) scM (Memref.isWhole_whole _) h1 h2 h3 x0 x1).1, y ∈ pc.1.set :=
  View.cover_of_tiledL (runFirst c (grid0.coords t) (ms0 t) (hs0 t) (ms1 t) (hs1 t) (ms2 t) (hs2 t) (ms3 t) (hs3 t) scM (Memref.isWhole_whole _) h1 h2 h3 x0 x1).1 S512x1.size (by sl_kernel_rfl) y
theorem cover_accFirst (c : Dev nD) (t : Fin cfg0.N) (h1 : cFirst (grid0.coords t)) (h2 : cBelow (grid0.coords t)) (h3 : ¬cLast (grid0.coords t))
    (x0 : Vec F S512x4096 .f32) (x1 : Vec F S512x1 .i32) (y : S512x128.Idx) :
    ∃ pc ∈ (runFirst c (grid0.coords t) (ms0 t) (hs0 t) (ms1 t) (hs1 t) (ms2 t) (hs2 t) (ms3 t) (hs3 t) scM (Memref.isWhole_whole _) h1 h2 h3 x0 x1).2.1, y ∈ pc.1.set :=
  View.cover_of_tiledL (runFirst c (grid0.coords t) (ms0 t) (hs0 t) (ms1 t) (hs1 t) (ms2 t) (hs2 t) (ms3 t) (hs3 t) scM (Memref.isWhole_whole _) h1 h2 h3 x0 x1).2.1 S512x128.size (by sl_kernel_rfl) y
theorem cover_accMiddle (c : Dev nD) (t : Fin cfg0.N) (h1 : ¬cFirst (grid0.coords t)) (h2 : cBelow (grid0.coords t)) (h3 : ¬cLast (grid0.coords t))
    (x0 : Vec F S512x4096 .f32) (x1 : Vec F S512x1 .i32) (xs : Vec F S512x128 .f32) (y : S512x128.Idx) :
    ∃ pc ∈ (runMiddle c (grid0.coords t) (ms0 t) (hs0 t) (ms1 t) (hs1 t) (ms2 t) (hs2 t) (ms3 t) (hs3 t) scM (Memref.isWhole_whole _) h1 h2 h3 x0 x1 xs).1, y ∈ pc.1.set :=
  View.cover_of_tiledL (runMiddle c (grid0.coords t) (ms0 t) (hs0 t) (ms1 t) (hs1 t) (ms2 t) (hs2 t) (ms3 t) (hs3 t) scM (Memref.isWhole_whole _) h1 h2 h3 x0 x1 xs).1 S512x128.size (by sl_kernel_rfl) y
theorem cover_tot (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) (y : S512x1.Idx) :
    ∃ pc ∈ (runLast c (grid0.coords t) (ms0 t) (hs0 t) (ms1 t) (hs1 t) (ms2 t) (hs2 t) (ms3 t) (hs3 t) scM (Memref.isWhole_whole _) h1 h2 h3 x0 x1 xs).1, y ∈ pc.1.set :=
  View.cover_of_tiledL (runLast c (grid0.coords t) (ms0 t) (hs0 t) (ms1 t) (hs1 t) (ms2 t) (hs2 t) (ms3 t) (hs3 t) scM (Memref.isWhole_whole _) h1 h2 h3 x0 x1 xs).1 S512x1.size (by sl_kernel_rfl) y
theorem cover_accLast (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) (y : S512x128.Idx) :
    ∃ pc ∈ (runLast c (grid0.coords t) (ms0 t) (hs0 t) (ms1 t) (hs1 t) (ms2 t) (hs2 t) (ms3 t) (hs3 t) scM (Memref.isWhole_whole _) h1 h2 h3 x0 x1 xs).2.1, y ∈ pc.1.set :=
  View.cover_of_tiledL (runLast c (grid0.coords t) (ms0 t) (hs0 t) (ms1 t) (hs1 t) (ms2 t) (hs2 t) (ms3 t) (hs3 t) scM (Memref.isWhole_whole _) h1 h2 h3 x0 x1 xs).2.1 S512x128.size (by sl_kernel_rfl) y

end Cert.KernelIdeal.Body

end
-- ==== Proof.KIDats.lean ====
/-
  The contents of the three written buffers point by point, the region's invariant, and the proof data of the pipeline.
-/
import proofs.«429872_j65068754535073_3_alg».proof.Proof.KIOuts
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the written buffers hold after each point -/

/-- After the body at position n: (the rows' totals, the labelled logits, the accumulator). A first point stores the
    logits and restarts the accumulator; a middle point adds to it; a last point adds to it and stores the totals.
    The totals before a row tile's last point, like the logits of a finished row tile, are whatever was there. -/
def outsAt (c : Dev nD) : (n : ℕ) → n < cfg0.N → Vec F S512x1 .f32 × Vec F S512x1 .f32 × Vec F S512x128 .f32
  | 0, hn => (fun _ => Scalar.ofBits .f32 0#32,
      tgtOf c ⟨0, hn⟩ ((hFirst ⟨0, hn⟩).mpr (Nat.zero_mod _)) ((hBelow ⟨0, hn⟩).mpr (show (0 : ℕ) % 13 ≠ 12 from by decide)) (fun h => absurd ((hLast ⟨0, hn⟩).mp h) (show ¬(0 : ℕ) % 13 = 12 from by decide)) (x0Std m c ⟨0, hn⟩) (iblk m c 1 ⟨0, hn⟩),
      accFirst c ⟨0, hn⟩ ((hFirst ⟨0, hn⟩).mpr (Nat.zero_mod _)) ((hBelow ⟨0, hn⟩).mpr (show (0 : ℕ) % 13 ≠ 12 from by decide)) (fun h => absurd ((hLast ⟨0, hn⟩).mp h) (show ¬(0 : ℕ) % 13 = 12 from by decide)) (x0Std m c ⟨0, hn⟩) (iblk m c 1 ⟨0, hn⟩))
  | n + 1, hn =>
    if h0 : (n + 1) % 13 = 0 then
      ((outsAt c n (Nat.lt_of_succ_lt hn)).1,
        tgtOf c ⟨n + 1, hn⟩ ((hFirst ⟨n + 1, hn⟩).mpr h0) ((hBelow ⟨n + 1, hn⟩).mpr (fun h => by (try dsimp only at h); omega)) (fun h => by have := (hLast ⟨n + 1, hn⟩).mp h; (try dsimp only at this); omega) (x0Std m c ⟨n + 1, hn⟩) (iblk m c 1 ⟨n + 1, hn⟩),
        accFirst c ⟨n + 1, hn⟩ ((hFirst ⟨n + 1, hn⟩).mpr h0) ((hBelow ⟨n + 1, hn⟩).mpr (fun h => by (try dsimp only at h); omega)) (fun h => by have := (hLast ⟨n + 1, hn⟩).mp h; (try dsimp only at this); omega) (x0Std m c ⟨n + 1, hn⟩) (iblk m c 1 ⟨n + 1, hn⟩))
    else if h12 : (n + 1) % 13 = 12 then
      (totLast c ⟨n + 1, hn⟩ (fun h => h0 ((hFirst ⟨n + 1, hn⟩).mp h)) (fun h => (hBelow ⟨n + 1, hn⟩).mp h h12) ((hLast ⟨n + 1, hn⟩).mpr h12) (x0Std m c ⟨n + 1, hn⟩) (iblk m c 1 ⟨n + 1, hn⟩) (outsAt c n (Nat.lt_of_succ_lt hn)).2.2,
        (outsAt c n (Nat.lt_of_succ_lt hn)).2.1,
        accLast c ⟨n + 1, hn⟩ (fun h => h0 ((hFirst ⟨n + 1, hn⟩).mp h)) (fun h => (hBelow ⟨n + 1, hn⟩).mp h h12) ((hLast ⟨n + 1, hn⟩).mpr h12) (x0Std m c ⟨n + 1, hn⟩) (iblk m c 1 ⟨n + 1, hn⟩) (outsAt c n (Nat.lt_of_succ_lt hn)).2.2)
    else
      ((outsAt c n (Nat.lt_of_succ_lt hn)).1,
        (outsAt c n (Nat.lt_of_succ_lt hn)).2.1,
        accMiddle c ⟨n + 1, hn⟩ (fun h => h0 ((hFirst ⟨n + 1, hn⟩).mp h)) ((hBelow ⟨n + 1, hn⟩).mpr h12) (fun h => h12 ((hLast ⟨n + 1, hn⟩).mp h)) (x0Std m c ⟨n + 1, hn⟩) (iblk m c 1 ⟨n + 1, hn⟩) (outsAt c n (Nat.lt_of_succ_lt hn)).2.2)

/-- At a first point. -/
theorem outsAt_first (c : Dev nD) (t : Fin cfg0.N) (h0 : t.val % 13 = 0) :
    ∃ a, outsAt m c t.val t.isLt = (a,
      tgtOf c t ((hFirst t).mpr h0) ((hBelow t).mpr (by omega)) (fun h => by have := (hLast t).mp h; omega) (x0Std m c t) (iblk m c 1 t),
      accFirst c t ((hFirst t).mpr h0) ((hBelow t).mpr (by omega)) (fun h => by have := (hLast t).mp h; omega) (x0Std m c t) (iblk m c 1 t)) := by
  obtain ⟨n, hn⟩ := t
  cases n with
  | zero => exact ⟨_, rfl⟩
  | succ n => exact ⟨_, (dif_pos h0).trans rfl⟩

/-- At a middle point: the totals and the logits are the point before's, the accumulator grows. -/
theorem outsAt_middle (c : Dev nD) (t : Fin cfg0.N) (h0 : ¬t.val % 13 = 0) (h12 : ¬t.val % 13 = 12) :
    outsAt m c t.val t.isLt = ((outsAt m c (t.val - 1) (Nat.lt_of_le_of_lt (Nat.sub_le _ _) t.isLt)).1,
      (outsAt m c (t.val - 1) (Nat.lt_of_le_of_lt (Nat.sub_le _ _) t.isLt)).2.1,
      accMiddle c t (fun h => h0 ((hFirst t).mp h)) ((hBelow t).mpr h12) (fun h => h12 ((hLast t).mp h)) (x0Std m c t) (iblk m c 1 t) (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h12).trans rfl)

/-- At a last point: the totals are stored, the logits are the point before's. -/
theorem outsAt_last (c : Dev nD) (t : Fin cfg0.N) (h0 : ¬t.val % 13 = 0) (h12 : t.val % 13 = 12) :
    outsAt m c t.val t.isLt = (totLast c t (fun h => h0 ((hFirst t).mp h)) (fun h => (hBelow t).mp h h12) ((hLast t).mpr h12) (x0Std m c t) (iblk m c 1 t) (outsAt m c (t.val - 1) (Nat.lt_of_le_of_lt (Nat.sub_le _ _) t.isLt)).2.2,
      (outsAt m c (t.val - 1) (Nat.lt_of_le_of_lt (Nat.sub_le _ _) t.isLt)).2.1,
      accLast c t (fun h => h0 ((hFirst t).mp h)) (fun h => (hBelow t).mp h h12) ((hLast t).mpr h12) (x0Std m c t) (iblk m c 1 t) (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h12).trans rfl)

/-! ## The region's invariant -/

/-- Before position n: before the first point every scoped buffer at anything; afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The proof data -/

/-- The arrays as the region finds them; after the body the score tile's buffer at the block (zero past the matrix),
    the labels' at its block, the two result buffers and the accumulator at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => x0Std m c t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = x0Std m c t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]

/-- The score tile's buffer when the body runs: just fetched, the block on the part inside the matrix. -/
theorem before0 (c : Dev nD) (t : Fin cfg0.N) (d) : (dats m 0 c).before 0 t d = x0At m c t d := by
  rw [(dats m 0 c).before_fetched 0 t (fetch0_0 t)]
  unfold Dat.fetched Dat.blockOf x0At iblk; rw [A_eq]; try rfl
/-- The labels' buffer holds its block at every point. -/
theorem before1 (c : Dev nD) (t : Fin cfg0.N) (d) : (dats m 0 c).before 1 t d = iblk m c 1 t :=
  before0_1_of m (dats m 0 c) (A_eq m c 1) (after1 m c) t d

/-- The labelled logits' buffer after a row tile's first point holds what that point stored, until the row tile ends:
    through the idle points the buffer is handed on untouched. -/
theorem before3 (c : Dev nD) : ∀ (n : ℕ) (hn : n < cfg0.N), n % 13 ≠ 0 → ∀ d,
    (dats m 0 c).before 3 ⟨n, hn⟩ d = (outsAt m c (n - 1) (by omega)).2.1 := by
  intro n
  induction n with
  | zero => intro hn h; exact absurd (Nat.zero_mod _) h
  | succ n ih =>
    intro hn h d
    have hN : n + 1 < 52 := lt_of_lt_of_eq hn (show cfg0.N = 52 from N_0)
    rw [(dats m 0 c).before_of_pos 3 ⟨n + 1, hn⟩ (Nat.succ_ne_zero n) (fetch3 _)]
    have hfl : (cfg0.win 3).flush ⟨(⟨n + 1, hn⟩ : Fin cfg0.N).val - 1, Nat.lt_of_le_of_lt (Nat.sub_le _ _) hn⟩ = false :=
      (flush3 ⟨n, Nat.lt_of_succ_lt hn⟩).trans (by simp; omega)
    rw [hfl, if_neg Bool.false_ne_true]
    unfold Dat.left
    by_cases hz : n % 13 = 0
    · have hi : cfg0.idle 3 (cfg0.grid.coords ⟨(⟨n + 1, hn⟩ : Fin cfg0.N).val - 1, Nat.lt_of_le_of_lt (Nat.sub_le _ _) hn⟩) = false :=
        (idle3 ⟨n, Nat.lt_of_succ_lt hn⟩).trans (by simp [hz])
      rw [hi]; dsimp only
      unfold Dat.kept
      rw [Pipeline.fill_of_clip_none (cfg := cfg0) 3 _ (noclip3 _) d ((dats m 0 c).after 3 _), Window.fill_cut, after3]
    · have hi : cfg0.idle 3 (cfg0.grid.coords ⟨(⟨n + 1, hn⟩ : Fin cfg0.N).val - 1, Nat.lt_of_le_of_lt (Nat.sub_le _ _) hn⟩) = true :=
        (idle3 ⟨n, Nat.lt_of_succ_lt hn⟩).trans (by simp [hz])
      rw [hi]; dsimp only
      have := ih (Nat.lt_of_succ_lt hn) hz d
      simp only [Nat.add_sub_cancel] at this ⊢
      rw [this]
      have hm := outsAt_middle m c ⟨n, Nat.lt_of_succ_lt hn⟩ hz (by (try dsimp only); omega)
      rw [hm]

end Cert.KernelIdeal.Body

end
-- ==== Proof.KIPieces.lean ====
/-
  What each run's stores leave, as the arithmetic of the kernel's body.

  Every store of the body writes its whole buffer (the unit rectangle at offsets [0, 0]), so what a run leaves in a
  buffer is the value its LAST store there wrote, and a load reads the buffer's contents whole. Read through that, the
  pieces of the three runs are: at a first point the labelled logits (column 0 or 1 of the tile by the label) and the
  accumulator (the tile's lane-folded exponentials added to the zero vector the reset has just stored); at a middle
  point the same sum added to the accumulator found; at a last point the masked tile's sum added to the accumulator
  found, and the totals, which are the lane sums of that accumulator read back.
-/
import proofs.«429872_j65068754535073_3_alg».proof.Proof.KIOuts
import Idealize.ShloMosaic.Lib.Pipeline.Value
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

/-- The two zero offsets, spelt as the constant function. -/
theorem offs_zero : (![0, 0] : Fin 2 → Nat) = fun _ => 0 := funext fun a => by fin_cases a <;> rfl

/-- The accumulator a last point leaves is the masked tile's lane-folded exponentials added to what it found. -/
theorem accLast_eq (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) :
    accLast c t h1 h2 h3 x0 x1 xs = k0_pay4 (k0_pay9 (BitVec.ofNat 32 ((grid0.coords t) 1).val) x0) (k0_pay10 (BitVec.ofNat 32 ((grid0.coords t) 1).val) x0) xs := by
  unfold accLast
  rw [View.read_writes_eq_canon _ _ _ (cover_accLast c t h1 h2 h3 x0 x1 xs)]
  unfold runLast
  dsimp only
  sl_unfold_words
  rw [View.canon_unit_zero offs_zero]
  simp only [View.readAt_eq_ld, (hs0 t).read_unread, (Memref.isWhole_whole _).read_unread,
    View.ld_unit_zero (S := S512x4096) offs_zero, View.ld_unit_zero (S := S512x128) offs_zero]

/-- The totals a last point stores are the lane sums of the accumulator it has just left. -/
theorem totLast_eq (c : Dev nD) (t : Fin cfg0.N) (h1 : ¬cFirst (grid0.coords t)) (h2 : ¬cBelow (grid0.coords t)) (h3 : cLast (grid0.coords t))
    (x0 : Vec F S512x4096 .f32) (x1 : Vec F S512x1 .i32) (xs : Vec F S512x128 .f32) :
    totLast c t h1 h2 h3 x0 x1 xs = k0_pay5 (k0_pay4 (k0_pay9 (BitVec.ofNat 32 ((grid0.coords t) 1).val) x0) (k0_pay10 (BitVec.ofNat 32 ((grid0.coords t) 1).val) x0) xs) := by
  unfold totLast
  rw [View.read_writes_eq_canon _ _ _ (cover_tot c t h1 h2 h3 x0 x1 xs)]
  unfold runLast
  dsimp only
  sl_unfold_words
  rw [View.canon_unit_zero (S := S512x1) offs_zero]
  simp only [View.readAt_eq_ld, (hs0 t).read_unread, (Memref.isWhole_whole _).read_unread,
    View.readCov_unit_zero (S := S512x128) _ offs_zero,
    View.ld_unit_zero (S := S512x4096) offs_zero, View.ld_unit_zero (S := S512x128) offs_zero]

/-- The labelled logits a first point stores: column 0 of the tile where the label is 0, column 1 elsewhere. -/
theorem tgtOf_eq (c : Dev nD) (t : Fin cfg0.N) (h1 : cFirst (grid0.coords t)) (h2 : cBelow (grid0.coords t)) (h3 : ¬cLast (grid0.coords t))
    (x0 : Vec F S512x4096 .f32) (x1 : Vec F S512x1 .i32) : tgtOf c t h1 h2 h3 x0 x1 = k0_pay2 x0 x1 := by
  unfold tgtOf
  rw [View.read_writes_eq_canon _ _ _ (cover_tgt c t h1 h2 h3 x0 x1)]
  unfold runFirst
  dsimp only
  sl_unfold_words
  rw [View.canon_unit_zero (S := S512x1) offs_zero]
  simp only [View.readAt_eq_ld, (hs0 t).read_unread, (hs1 t).read_unread,
    View.ld_unit_zero (S := S512x4096) offs_zero, View.ld_unit_zero (S := S512x1) offs_zero]

/-- The accumulator a first point leaves: the tile's lane-folded exponentials added to the zero vector it has just
    been reset to. -/
theorem accFirst_eq (c : Dev nD) (t : Fin cfg0.N) (h1 : cFirst (grid0.coords t)) (h2 : cBelow (grid0.coords t)) (h3 : ¬cLast (grid0.coords t))
    (x0 : Vec F S512x4096 .f32) (x1 : Vec F S512x1 .i32) :
    accFirst c t h1 h2 h3 x0 x1 = k0_pay3 (k0_pay6 x0) (k0_pay7 x0) (k0_pay8 x0) (k0_pay1 (F := F)) := by
  unfold accFirst
  rw [View.read_writes_eq_canon _ _ _ (cover_accFirst c t h1 h2 h3 x0 x1)]
  unfold runFirst
  dsimp only
  sl_unfold_words
  rw [View.canon_cons_unit_zero (S := S512x128) offs_zero, View.readCov_unit_zero (S := S512x128) _ offs_zero]
  simp only [View.readAt_eq_ld, (hs0 t).read_unread, View.ld_unit_zero (S := S512x4096) offs_zero]

/-- The accumulator a middle point leaves: the tile's lane-folded exponentials added to what it found. -/
theorem accMiddle_eq (c : Dev nD) (t : Fin cfg0.N) (h1 : ¬cFirst (grid0.coords t)) (h2 : cBelow (grid0.coords t)) (h3 : ¬cLast (grid0.coords t))
    (x0 : Vec F S512x4096 .f32) (x1 : Vec F S512x1 .i32) (xs : Vec F S512x128 .f32) :
    accMiddle c t h1 h2 h3 x0 x1 xs = k0_pay3 (k0_pay6 x0) (k0_pay7 x0) (k0_pay8 x0) xs := by
  unfold accMiddle
  rw [View.read_writes_eq_canon _ _ _ (cover_accMiddle c t h1 h2 h3 x0 x1 xs)]
  unfold runMiddle
  dsimp only
  sl_unfold_words
  rw [View.canon_unit_zero (S := S512x128) offs_zero]
  simp only [View.readAt_eq_ld, (hs0 t).read_unread, (Memref.isWhole_whole _).read_unread,
    View.ld_unit_zero (S := S512x4096) offs_zero, View.ld_unit_zero (S := S512x128) offs_zero]

end Cert.KernelIdeal.Body

end
-- ==== Proof.KIIndep.lean ====
/-
  What a last point leaves does not depend on the words past the matrix's end.

  At column tile 12 the score tile overhangs the matrix: of its 4096 columns only the first 50257 − 12·4096 = 1105 are the
  matrix's. The body forms 30·x on the whole tile but selects −∞ wherever 12·4096 + (column) ≥ 50257 before it takes
  the exponential, so the exponential vector — and with it the accumulator and the rows' totals — is the same for any
  two tiles that agree on the first 1105 columns.
-/
import proofs.«429872_j65068754535073_3_alg».proof.Proof.KIDats
import proofs.«429872_j65068754535073_3_alg».proof.Proof.KIPieces
import Idealize.ShloMosaic.Lib.ValueIdx
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

variable {F : FTy → Type} [FloatOps F]

variable (m : (ℓ : Loc nD τ sig) → Buf (Elt F) ℓ)

/-- Past the matrix's last column the mask is off: 12·4096 + n ≥ 50257 for n ≥ 1105 (as signed 32-bit words). -/
theorem mask_off : ∀ n : Fin 4096, 1105 ≤ n.val →
    IntOp.cmpi .slt (IntOp.addi (Scalar.muli 12#32 4096#32) (BitVec.ofNat 32 n.val)) 50257#32 = 0#1 := by decide +kernel

/-- The masked exponential vector of two tiles that agree on the matrix's columns is one vector. -/
theorem pay9_congr (x x' : Vec F S512x4096 .f32) (h : ∀ y : S512x4096.Idx, (y 1).val < 1105 → x y = x' y) :
    k0_pay9 (F := F) 12#32 x = k0_pay9 12#32 x' := by
  funext y
  unfold k0_pay9
  dsimp only
  simp only [exp, select, mulf, cmpi, addi, broadcast]
  have hi : iota Kind.tc S512x4096 32 [1] iota_S512x4096_d1_w32 y = BitVec.ofNat 32 (y 1).val := by simp [iota]
  rw [hi]
  by_cases hy : (y 1).val < 1105
  · rw [h y hy]
  · have hm := mask_off ⟨(y 1).val, idx2_lt1 y⟩ (Nat.le_of_not_lt hy)
    dsimp only at hm
    rw [hm]; rfl

/-- The lane fold is a function of the exponential vector. -/
theorem pay10_congr (a : BitVec 32) (x x' : Vec F S512x4096 .f32) (h : k0_pay9 (F := F) a x = k0_pay9 a x') :
    k0_pay10 (F := F) a x = k0_pay10 a x' := by
  unfold k0_pay10
  rw [h]

/-- At a last point the fetch fills 512 rows and 1105 columns of the staging buffer. -/
theorem xsize_last : ∀ t : Fin cfg0.N, t.val % 13 = 12 →
    win0_0.xsize (grid0.coords t) 0 = 512 ∧ win0_0.xsize (grid0.coords t) 1 = 1105 := by decide +kernel

theorem moved_last (t : Fin cfg0.N) (h12 : t.val % 13 = 12) (y : S512x4096.Idx) (hy : (y 1).val < 1105) :
    win0_0.moved (grid0.coords t) y = true := by
  rw [win0_0.moved_iff]
  intro a
  match a with
  | ⟨0, _⟩ => rw [show win0_0.xsize (grid0.coords t) ⟨0, _⟩ = 512 from (xsize_last t h12).1]; exact idx2_lt0 y
  | ⟨1, _⟩ => rw [show win0_0.xsize (grid0.coords t) ⟨1, _⟩ = 1105 from (xsize_last t h12).2]; exact hy

/-- The masked exponential vector at a last point, whatever the buffer held past the matrix's end. -/
theorem pay9_last (c : Dev nD) (t : Fin cfg0.N) (h12 : t.val % 13 = 12) (d : S512x4096.Idx → Elt F .f32) :
    k0_pay9 (F := F) (BitVec.ofNat 32 ((grid0.coords t) 1).val) (x0At m c t d)
      = k0_pay9 (BitVec.ofNat 32 ((grid0.coords t) 1).val) (x0Std m c t) := by
  rw [show BitVec.ofNat 32 ((grid0.coords t) 1).val = 12#32 from by rw [hCol t, h12]]
  exact pay9_congr _ _ (fun y hy => x0At_agree m c t d _ y (moved_last t h12 y hy))

theorem totLast_indep (c : Dev nD) (t : Fin cfg0.N) (h0 : ¬t.val % 13 = 0) (h12 : t.val % 13 = 12) (x1 : Vec F S512x1 .i32) (xs : Vec F S512x128 .f32)
    (d : S512x4096.Idx → Elt F .f32) :
    totLast c t (fun h => h0 ((hFirst t).mp h)) (fun h => (hBelow t).mp h h12) ((hLast t).mpr h12) (x0At m c t d) x1 xs
      = totLast c t (fun h => h0 ((hFirst t).mp h)) (fun h => (hBelow t).mp h h12) ((hLast t).mpr h12) (x0Std m c t) x1 xs := by
  rw [totLast_eq, totLast_eq, pay9_last m c t h12 d, pay10_congr _ _ _ (pay9_last m c t h12 d)]

theorem accLast_indep (c : Dev nD) (t : Fin cfg0.N) (h0 : ¬t.val % 13 = 0) (h12 : t.val % 13 = 12) (x1 : Vec F S512x1 .i32) (xs : Vec F S512x128 .f32)
    (d : S512x4096.Idx → Elt F .f32) :
    accLast c t (fun h => h0 ((hFirst t).mp h)) (fun h => (hBelow t).mp h h12) ((hLast t).mpr h12) (x0At m c t d) x1 xs
      = accLast c t (fun h => h0 ((hFirst t).mp h)) (fun h => (hBelow t).mp h h12) ((hLast t).mpr h12) (x0Std m c t) x1 xs := by
  rw [accLast_eq, accLast_eq, pay9_last m c t h12 d, pay10_congr _ _ _ (pay9_last m c t h12 d)]

end Cert.KernelIdeal.Body

end
-- ==== Proof.KIBody.lean ====
/-
  The body obligation at every grid point, the run of the program and its frame.
-/
import proofs.«429872_j65068754535073_3_alg».proof.Proof.KIIndep
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the obligation states of each window -/

/-- The score tile's window is loose: its buffer is stated on the part inside the matrix only, which is the block. -/
theorem leaves0 (c : Dev nD) (t : Fin cfg0.N) :
    (dats m 0 c).leaves 0 t = iprop(∃ d, owns (c : Thread nD τ) (ms0 t) fullShare (x0At m c t d)) := by
  unfold Dat.leaves; rw [live0 t]; dsimp only
  congr 1; funext d
  rw [after0]
  show owns _ _ _ (win0_0.fill (grid0.coords t) d (win0_0.cut (grid0.coords t) (win0_0.fill (grid0.coords t) (fun _ => Scalar.ofBits .f32 0#32) (iblk m c 0 t))))
    = owns _ _ _ (win0_0.fill (grid0.coords t) d (iblk m c 0 t))
  rw [win0_0.cut_fill]
theorem leaves1 (c : Dev nD) (t : Fin cfg0.N) :
    (dats m 0 c).leaves 1 t = owns (c : Thread nD τ) (ms1 t) fullShare (iblk m c 1 t) := by
  unfold Dat.leaves; rw [live1 t]; dsimp only; rw [after1]
theorem leaves2_idle (c : Dev nD) (t : Fin cfg0.N) (h : t.val % 13 ≠ 12) :
    (dats m 0 c).leaves 2 t = iprop(∃ d, owns (c : Thread nD τ) (ms2 t) fullShare ((dats m 0 c).before 2 t d)) :=
  (dats m 0 c).leaves_idle 2 t (by rw [idle2 t]; simp [h]) (by rw [flush2 t]; simp [h])
theorem leaves2_last (c : Dev nD) (t : Fin cfg0.N) (h : t.val % 13 = 12) :
    (dats m 0 c).leaves 2 t = owns (c : Thread nD τ) (ms2 t) fullShare ((outsAt m c t.val t.isLt).1) := by
  unfold Dat.leaves; rw [idle2 t]; simp only [h, decide_true, Bool.not_true]; rw [after2]
theorem leaves3_idle (c : Dev nD) (t : Fin cfg0.N) (h0 : t.val % 13 ≠ 0) (h : t.val % 13 ≠ 12) :
    (dats m 0 c).leaves 3 t = iprop(∃ d, owns (c : Thread nD τ) (ms3 t) fullShare ((dats m 0 c).before 3 t d)) :=
  (dats m 0 c).leaves_idle 3 t (by rw [idle3 t]; simp [h0]) (by rw [flush3 t]; simp [h])
theorem leaves3_first (c : Dev nD) (t : Fin cfg0.N) (h0 : t.val % 13 = 0) :
    (dats m 0 c).leaves 3 t = owns (c : Thread nD τ) (ms3 t) fullShare ((outsAt m c t.val t.isLt).2.1) := by
  unfold Dat.leaves; rw [idle3 t]; simp only [h0, decide_true, Bool.not_true]; rw [after3]
theorem leaves3_last (c : Dev nD) (t : Fin cfg0.N) (h : t.val % 13 = 12) :
    (dats m 0 c).leaves 3 t = owns (c : Thread nD τ) (ms3 t) fullShare ((outsAt m c t.val t.isLt).2.1) := by
  unfold Dat.leaves; rw [idle3 t, flush3 t]
  simp only [h, show ¬((12 : ℕ) = 0) by decide, decide_false, decide_true, Bool.not_false]; rw [after3]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 52 := lt_of_lt_of_eq t.isLt (show cfg0.N = 52 from N_0)
  by_cases h0 : t.val % 13 = 0
  · -- a first point
    have h12 : t.val % 13 ≠ 12 := by omega
    rw [leaves2_idle m c t h12, leaves3_first m c t h0]
    obtain ⟨a, ha⟩ := outsAt_first m c t h0
    rw [ha]; dsimp only
    unfold tgtOf accFirst
    have hpre : (dats m 0 c).Φ t.castSucc ⊢ iprop(iprop((∃ d, owns (c : Thread nD τ) scM fullShare d)) ∗ (∃ r, prngReg c r)) := by
      rw [PhiS_castSucc m c t]
      by_cases hz : t.val = 0
      · rw [PhiS_zero m c _ _ hz, PhiA_eq]
      · rw [PhiS_pos m c _ _ hz]
        iintro ⟨HS, Hg⟩
        isplitl [HS]
        · iexists _; iexact HS
        iexact Hg
    refine (sep_mono hpre .rfl).trans ?_
    iintro ⟨⟨HS, Hg⟩, Ho, ⟨%d0, H0⟩, ⟨%d1, H1⟩, ⟨%d2, H2⟩, ⟨%d3, H3⟩⟩
    rw [x0At_indep m c t h12 d0 (fun _ => Scalar.ofBits .f32 0#32)]
    iapply ((runFirst c (grid0.coords t) (ms0 t) (hs0 t) (ms1 t) (hs1 t) (ms2 t) (hs2 t) (ms3 t) (hs3 t) scM (Memref.isWhole_whole _) ((hFirst t).mpr h0) ((hBelow t).mpr (by omega)) (fun h => by have := (hLast t).mp h; omega) (x0Std m c t) (iblk m c 1 t)).2.2 _ Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hg]
    · isplitl [HS]
      · unfold owns; iexists _; isplitr
        swap; · iexact HS
        ipureintro; exact View.read_writes_of_cover _ _ _ _ _ (cover_accFirst c t _ _ _ _ _)
      iexact Hg
    isplitl [Ho]; · iexact Ho
    isplitl [H0]; · iexists _; iexact H0
    isplitl [H1]; · iexact H1
    isplitl [H2]; · iexists _; iexact H2
    unfold owns; iexists _; isplitr
    swap; · iexact H3
    ipureintro; exact View.read_writes_of_cover _ _ _ _ _ (cover_tgt c t _ _ _ _ _)
  · have hz : t.val ≠ 0 := fun h => h0 (by rw [h])
    by_cases h12 : t.val % 13 = 12
    · -- a last point
      rw [leaves2_last m c t h12, leaves3_last m c t h12]
      rw [outsAt_last m c t h0 h12]; dsimp only
      rw [PhiS_castSucc m c t, PhiS_pos m c _ _ hz]
      iintro ⟨⟨HS, Hg⟩, Ho, ⟨%d0, H0⟩, ⟨%d1, H1⟩, ⟨%d2, H2⟩, ⟨%d3, H3⟩⟩
      rw [before3 m c t.val t.isLt h0 d3]
      rw [← totLast_indep m c t h0 h12 (iblk m c 1 t) _ d0, ← accLast_indep m c t h0 h12 (iblk m c 1 t) _ d0]
      unfold totLast accLast
      iapply ((runLast c (grid0.coords t) (ms0 t) (hs0 t) (ms1 t) (hs1 t) (ms2 t) (hs2 t) (ms3 t) (hs3 t) scM (Memref.isWhole_whole _) (fun h => h0 ((hFirst t).mp h)) (fun h => (hBelow t).mp h h12) ((hLast t).mpr h12) (x0At m c t d0) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (cover_accLast c t _ _ _ _ _ _)
        iexact Hg
      isplitl [Ho]; · iexact Ho
      isplitl [H0]; · iexists _; iexact H0
      isplitl [H1]; · iexact H1
      isplitl [H2]
      · unfold owns; iexists _; isplitr
        swap; · iexact H2
        ipureintro; exact View.read_writes_of_cover _ _ _ _ _ (cover_tot c t _ _ _ _ _ _)
      iexact H3
    · -- a middle point
      rw [leaves2_idle m c t h12, leaves3_idle m c t h0 h12]
      rw [outsAt_middle m c t h0 h12]; dsimp only
      unfold accMiddle
      rw [PhiS_castSucc m c t, PhiS_pos m c _ _ hz]
      iintro ⟨⟨HS, Hg⟩, Ho, ⟨%d0, H0⟩, ⟨%d1, H1⟩, ⟨%d2, H2⟩, ⟨%d3, H3⟩⟩
      rw [x0At_indep m c t h12 d0 (fun _ => Scalar.ofBits .f32 0#32)]
      iapply ((runMiddle c (grid0.coords t) (ms0 t) (hs0 t) (ms1 t) (hs1 t) (ms2 t) (hs2 t) (ms3 t) (hs3 t) scM (Memref.isWhole_whole _) (fun h => h0 ((hFirst t).mp h)) ((hBelow t).mpr h12) (fun h => h12 ((hLast t).mp h)) (x0Std m c t) (iblk m c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (cover_accMiddle c t _ _ _ _ _ _)
        iexact Hg
      isplitl [Ho]; · iexact Ho
      isplitl [H0]; · iexists _; iexact H0
      isplitl [H1]; · iexact H1
      isplitl [H2]; · iexists _; iexact H2
      iexists _; iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 52 := N_0; omega), PhiA_eq]
  iintro ⟨HS, Hg⟩
  isplitl [HS]
  · iexists _; iexact HS
  iexact Hg

/-! ## The run and the frame -/

set_option backward.isDefEq.respectTransparency.types false in
/-- Every weakly fair execution of the program terminates, each array of the pipeline ending at what the proof data
    computes and every other unscoped buffer as the closing host lines leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program runs to the end without a fault and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KIBlocks.lean ====
/-
  The blocks the body finds, read at an index as entries of the two argument arrays.

  Point t of the grid is row tile t / 13 and column tile t % 13. The score tile's block at t starts at row
  (t / 13) · 512 and column (t % 13) · 4096 of the score matrix; only the last column tile overhangs the matrix
  (13 · 4096 = 53248 > 50257), where the fetch moves the block's first 1105 columns. So entry y of the tile is moved
  exactly when its column (t % 13) · 4096 + y₁ lies inside the matrix, and there the staging buffer holds the matrix's
  entry at that row and column. The labels' window reads the labels broadcast to a column: entry y of its block at t is
  the label of row (t / 13) · 512 + y₀.
-/
import proofs.«429872_j65068754535073_3_alg».proof.Proof.KIDats
import Idealize.ShloMosaic.Lib.ValueIdx
import Idealize.ShloMosaic.Lib.StableHlo.Run
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sizes of what the score tile's fetch moves, decided over the grid. -/
theorem xsize0 : ∀ t : Fin cfg0.N, win0_0.xsize (grid0.coords t) (0 : Fin 2) = 512
    ∧ win0_0.xsize (grid0.coords t) (1 : Fin 2) = (if t.val % 13 = 12 then 1105 else 4096) :=
  (by decide +kernel : ∀ t : Fin grid0.N, win0_0.xsize (grid0.coords t) (0 : Fin 2) = 512
    ∧ win0_0.xsize (grid0.coords t) (1 : Fin 2) = (if t.val % 13 = 12 then 1105 else 4096))

/-- The score window's block index at a point: (row tile, column tile). -/
theorem index0 : ∀ t : Fin cfg0.N, win0_0.index t (0 : Fin 2) = t.val / 13 ∧ win0_0.index t (1 : Fin 2) = t.val % 13 :=
  (by decide +kernel : ∀ t : Fin grid0.N, win0_0.index t (0 : Fin 2) = t.val / 13 ∧ win0_0.index t (1 : Fin 2) = t.val % 13)

/-- The labels' window's block index at a point: (row tile, 0). -/
theorem index1 : ∀ t : Fin cfg0.N, win0_1.index t (0 : Fin 2) = t.val / 13 ∧ win0_1.index t (1 : Fin 2) = 0 :=
  (by decide +kernel : ∀ t : Fin grid0.N, win0_1.index t (0 : Fin 2) = t.val / 13 ∧ win0_1.index t (1 : Fin 2) = 0)

/-- An entry of the score tile is moved exactly when its column lies inside the matrix. -/
theorem moved0_iff (t : Fin cfg0.N) (y : S512x4096.Idx) :
    win0_0.moved (grid0.coords t) y = true ↔ (t.val % 13) * 4096 + (y 1).val < 50257 := by
  rw [Window.moved_iff]
  obtain ⟨e0, e1⟩ := xsize0 t
  have h0 : (y 0).val < 512 := (y 0).isLt
  have h1 : (y 1).val < 4096 := (y 1).isLt
  constructor
  · intro h
    have h' := h 1
    rw [e1] at h'
    split_ifs at h' with hc <;> omega
  · intro h a
    match a with
    | ⟨0, _⟩ => show (y 0).val < win0_0.xsize (grid0.coords t) (0 : Fin 2); rw [e0]; exact h0
    | ⟨1, _⟩ =>
      show (y 1).val < win0_0.xsize (grid0.coords t) (1 : Fin 2); rw [e1]
      split_ifs with hc <;> omega

/-- On the part inside the matrix the score tile's buffer holds the matrix's entry at the block's row and column. -/
theorem x0At_apply (c : Dev nD) (t : Fin cfg0.N) (d : S512x4096.Idx → Elt F .f32) (y : S512x4096.Idx)
    (hr : (t.val / 13) * 512 + (y 0).val < 2048) (hy : (t.val % 13) * 4096 + (y 1).val < 50257) :
    x0At m c t d y = m ((c.tc : Thread nD τ).loc main_arg0)
      (ix2 ⟨(t.val / 13) * 512 + (y 0).val, hr⟩ ⟨(t.val % 13) * 4096 + (y 1).val, hy⟩) := by
  unfold x0At Window.fill
  rw [dif_pos ((moved0_iff t y).mpr hy)]
  unfold iblk
  obtain ⟨e0, e1⟩ := index0 t
  show V m c main_arg0 (((cfg0.win 0).blk t).view.emb _) = _
  rw [V_main_arg0 m c]
  refine congrArg _ (funext fun a => Fin.ext ?_)
  match a with
  | ⟨0, _⟩ => show win0_0.index t (0 : Fin 2) * 512 + 1 * (y 0).val = (t.val / 13) * 512 + (y 0).val; rw [e0]; omega
  | ⟨1, _⟩ => show win0_0.index t (1 : Fin 2) * 4096 + 1 * (y 1).val = (t.val % 13) * 4096 + (y 1).val; rw [e1]; omega

/-- The labels' window's array is the one host line's: the labels broadcast to a column. -/
theorem V_main_v0 (c : Dev nD) : (V m c main_v0 : S2048x1.Idx → BitVec 32)
    = broadcastInDim S2048x1 ![0] bcast_S2048_S2048x1_0 (m ((c.tc : Thread nD τ).loc main_arg1)) := by
  dsimp only [V, V0]
  simp only [hostOps0, List.flatten_cons, List.flatten_nil, List.append_nil]
  after_results

/-- A vector broadcast to a column, read at row r. -/
theorem bcast_col_apply {α : Type} (x : S2048.Idx → α) (j : S2048x1.Idx) (r : Fin 2048) (hj : (j 0).val = r.val) :
    broadcastInDim S2048x1 ![0] bcast_S2048_S2048x1_0 x j = x (ix1 r) := by
  unfold broadcastInDim
  refine congrArg x (funext fun a => Fin.ext ?_)
  match a with
  | ⟨0, _⟩ =>
    split
    · next h1 => exact absurd h1 (show ¬(2048 : ℕ) = 1 by decide)
    · exact hj

/-- The labels' block at a point, entry by entry: the label of the block's row. -/
theorem labels_apply (c : Dev nD) (t : Fin cfg0.N) (y : S512x1.Idx) (hr : (t.val / 13) * 512 + (y 0).val < 2048) :
    iblk m c 1 t y = m ((c.tc : Thread nD τ).loc main_arg1) (ix1 ⟨(t.val / 13) * 512 + (y 0).val, hr⟩) := by
  unfold iblk
  obtain ⟨e0, e1⟩ := index1 t
  show V m c main_v0 (((cfg0.win 1).blk t).view.emb y) = _
  rw [V_main_v0 m c]
  refine bcast_col_apply (α := BitVec 32) _ _ _ ?_
  show win0_1.index t (0 : Fin 2) * 512 + 1 * (y 0).val = (t.val / 13) * 512 + (y 0).val
  rw [e0]; omega

end Cert.KernelIdeal.Body

end
-- ==== Proof.SumTiles.lean ====
import Mathlib.Algebra.BigOperators.Fin
import Mathlib.Algebra.BigOperators.Intervals

/-!
# Regrouping a tiled sum

Pure algebra over a commutative additive monoid `M`.

* `sum_fold32`: a left-nested sum of 32 terms is the sum over `Fin 32`.
* `acc_range`: an accumulator that starts at `0 + P 0` and adds `P (j+1)` at step `j+1`
  equals the partial sum of `P` over `0..n`.
* `tiles_sum`: a sum over 128 lanes, 13 tiles and 32 groups of the entries
  `e (j * 4096 + g * 128 + l)` runs over every index below `13 * 4096 = 53248` exactly once;
  when `e` vanishes from `50257` on, this is the sum of `e` over `Fin 50257`.
-/

open Finset

namespace Cert.SumTiles

variable {M : Type*} [AddCommMonoid M]

/-- The left-nested sum of 32 terms is the sum over `Fin 32`. -/
theorem sum_fold32 (a : Fin 32 → M) :
    a 0 + a 1 + a 2 + a 3 + a 4 + a 5 + a 6 + a 7 + a 8 + a 9 + a 10 + a 11 + a 12 + a 13
      + a 14 + a 15 + a 16 + a 17 + a 18 + a 19 + a 20 + a 21 + a 22 + a 23 + a 24 + a 25
      + a 26 + a 27 + a 28 + a 29 + a 30 + a 31 = ∑ g : Fin 32, a g := by
  simp only [Fin.sum_univ_castSucc, Fin.sum_univ_zero, zero_add]
  rfl

/-- An accumulator started at `0 + P 0` that adds `P (j + 1)` at step `j + 1` is the partial
sum of `P` over `0, …, n`. -/
theorem acc_range (acc P : ℕ → M) (h0 : acc 0 = 0 + P 0)
    (hs : ∀ j, acc (j + 1) = acc j + P (j + 1)) (n : ℕ) :
    acc n = ∑ j ∈ Finset.range (n + 1), P j := by
  induction n with
  | zero => rw [h0, zero_add, Finset.sum_range_one]
  | succ n ih => rw [hs, ih, Finset.sum_range_succ _ (n + 1)]

/-- A sum over `a * b` consecutive indices, cut into `a` blocks of length `b`. -/
theorem sum_range_mul (f : ℕ → M) (a b : ℕ) :
    ∑ n ∈ Finset.range (a * b), f n
      = ∑ i ∈ Finset.range a, ∑ j ∈ Finset.range b, f (i * b + j) := by
  induction a with
  | zero => rw [Nat.zero_mul, Finset.range_zero, Finset.sum_empty, Finset.sum_empty]
  | succ a ih => rw [add_one_mul, Finset.sum_range_add, ih, Finset.sum_range_succ]

/-- A sum over `a * (b * c)` consecutive indices, cut into `a` blocks of `b` sub-blocks of
length `c`, with the position inside the sub-block summed outermost. -/
theorem sum_range_mul3 (f : ℕ → M) (a b c : ℕ) :
    ∑ n ∈ Finset.range (a * (b * c)), f n
      = ∑ l ∈ Finset.range c, ∑ j ∈ Finset.range a, ∑ g ∈ Finset.range b,
          f (j * (b * c) + g * c + l) := by
  have inner : ∀ j, ∑ m ∈ Finset.range (b * c), f (j * (b * c) + m)
      = ∑ l ∈ Finset.range c, ∑ g ∈ Finset.range b, f (j * (b * c) + g * c + l) := by
    intro j
    rw [sum_range_mul (fun m => f (j * (b * c) + m)) b c, Finset.sum_comm]
    simp only [add_assoc]
  rw [sum_range_mul f a (b * c), Finset.sum_congr rfl (fun j _ => inner j), Finset.sum_comm]

/-- The tiled sum over 128 lanes, 13 tiles of 4096 and 32 groups of 128 visits each index below
`53248` once; the entries from `50257` on vanish, so it is the sum over `Fin 50257`. -/
theorem tiles_sum (e : ℕ → M) (he : ∀ n, 50257 ≤ n → e n = 0) :
    ∑ l : Fin 128, ∑ j ∈ Finset.range 13, ∑ g : Fin 32, e (j * 4096 + g.val * 128 + l.val)
      = ∑ k : Fin 50257, e k.val := by
  have h32 : ∀ j l : ℕ, ∑ g : Fin 32, e (j * 4096 + g.val * 128 + l)
      = ∑ g ∈ Finset.range 32, e (j * 4096 + g * 128 + l) :=
    fun j l => Fin.sum_univ_eq_sum_range (fun g => e (j * 4096 + g * 128 + l)) 32
  have h128 : ∑ l : Fin 128, ∑ j ∈ Finset.range 13, ∑ g : Fin 32,
        e (j * 4096 + g.val * 128 + l.val)
      = ∑ l ∈ Finset.range 128, ∑ j ∈ Finset.range 13, ∑ g : Fin 32,
        e (j * 4096 + g.val * 128 + l) :=
    Fin.sum_univ_eq_sum_range
      (fun l => ∑ j ∈ Finset.range 13, ∑ g : Fin 32, e (j * 4096 + g.val * 128 + l)) 128
  have hall : ∑ n ∈ Finset.range (13 * (32 * 128)), e n
      = ∑ l ∈ Finset.range 128, ∑ j ∈ Finset.range 13, ∑ g ∈ Finset.range 32,
          e (j * (32 * 128) + g * 128 + l) := sum_range_mul3 e 13 32 128
  have htail : ∑ x ∈ Finset.range 2991, e (50257 + x) = 0 :=
    Finset.sum_eq_zero (fun x _ => he _ (Nat.le_add_right _ _))
  have hsplit : ∑ n ∈ Finset.range (50257 + 2991), e n = ∑ n ∈ Finset.range 50257, e n := by
    rw [Finset.sum_range_add, htail, add_zero]
  rw [h128, Fin.sum_univ_eq_sum_range (fun k => e k) 50257, ← hsplit]
  simp only [h32]
  exact hall.symm

end Cert.SumTiles
-- ==== Proof.Spec.lean ====
/-
  The mathematics both programs compute, stated once over the extended reals.

  For a score matrix x (2048 rows, 50257 columns) and binary labels ℓ:
    sumexp x r      = Σ_k exp (30 · x[r,k])            (all 50257 columns of row r)
    target x ℓ r    = x[r,0] if ℓ r = 0, else x[r,1]    (the labelled logit, for ℓ r ∈ {0,1})
    margin ℓ r      = f32(0.1) if ℓ r = 0, else f32(0.4)
  and the closing chain (`tail`) maps the three row vectors S, T, M to the scalar
    −( (0 + Σ_r [ 30·(T−M) − log( exp(30·(T−M)) + (S − exp(30·T)) ) ]) / 2048 ).
  The chain is spelled with the host operations themselves, so that each program's closing lines are this
  function applied to its own three vectors and it is never opened.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S2048x50257 : Shape := ⟨2, ![2048, 50257]⟩
abbrev S2048 : Shape := ⟨1, ![2048]⟩
abbrev S_ : Shape := ⟨0, ![]⟩

/-- The scale 30, as the f32 word both programs carry. -/
def s30 : EReal := Ideal.ofBits .f32 0x41F00000#32

/-- Entry (r, k) of the score matrix. -/
abbrev at2 (x : S2048x50257.Idx → EReal) (r : Fin 2048) (k : Fin 50257) : EReal := x (ix2 r k)

/-- Row r's sum of exp (30 · x[r,k]) over all 50257 columns. -/
def sumexp (x : S2048x50257.Idx → EReal) : S2048.Idx → EReal :=
  fun i => ∑ k : Fin 50257, Ideal.exp (s30 * at2 x (i 0) k)

/-- The labelled logit of row r, for a binary label: column 0 where the label is 0, column 1 otherwise. -/
def target (x : S2048x50257.Idx → EReal) (l : S2048.Idx → BitVec 32) : S2048.Idx → EReal :=
  fun i => if l i = 0#32 then at2 x (i 0) ⟨0, by decide⟩ else at2 x (i 0) ⟨1, by decide⟩

/-- The margin of row r, for a binary label: f32(0.1) where the label is 0, f32(0.4) otherwise. -/
def margin (l : S2048.Idx → BitVec 32) : S2048.Idx → EReal :=
  fun i => if l i = 0#32 then Ideal.ofBits .f32 0x3DCCCCCD#32 else Ideal.ofBits .f32 0x3ECCCCCD#32

/-- The closing chain both programs apply to (row sums S, labelled logits T, margins M): the mean over the rows of
    30·(T−M) − log (exp (30·(T−M)) + (S − exp (30·T))), negated. -/
def tail (hb : S_.BroadcastsInDim S2048 (![] : Fin 0 → Fin S2048.rank)) (hr : S2048.ReducesTo [0] S_) (h0 : 0 < S_.numel)
    (S T M : FVec Ideal S2048 .f32) : FVec Ideal S_ .f32 :=
  let d : FVec Ideal S2048 .f32 := subf T M
  let n : FVec Ideal S2048 .f32 := mulf (broadcastInDim S2048 ![] hb (constant (F := Ideal) S_ .f32 0x41F00000#32)) d
  let st : FVec Ideal S2048 .f32 := mulf (broadcastInDim S2048 ![] hb (constant (F := Ideal) S_ .f32 0x41F00000#32)) T
  let excl : FVec Ideal S2048 .f32 := subf S (Host.exp st)
  let den : FVec Ideal S2048 .f32 := addf (Host.exp n) excl
  let L : FVec Ideal S2048 .f32 := subf n (Host.log den)
  let tot : FVec Ideal S_ .f32 := Host.reduceAdd L (constant (F := Ideal) S_ .f32 0x00000000#32) hr h0
  Host.negf (Host.divf tot (constant (F := Ideal) S_ .f32 0x45000000#32))

end Cert.Spec

end
-- ==== Proof.KIAcc.lean ====
/-
  What the accumulator and the rows' totals HOLD, at the extended reals, as the specification's row sums.

  Fix a row tile i (grid points 13 i … 13 i + 12) and a row r of it, R = 512 i + r the row of the score matrix x, and
  write e n = exp (30 · x[R, n]) for a column n < 50257 and e n = 0 from 50257 on.
    • A tile's exponential vector at (r, q), q < 4096, is e (4096 j + q) at column tile j: below tile 12 the tile is
      the matrix's block; at tile 12 the kernel masks the columns 49152 + q ≥ 50257 (q ≥ 1105) to −∞ before the
      exponential, and exp (−∞) = 0 is e there, while on q < 1105 the tile is again the matrix's block.
    • The body folds the 32 lane groups of that vector: at lane l the left-nested sum of the entries at 128 g + l,
      g = 0 … 31, which is Σ_g e (4096 j + 128 g + l), and adds it to the accumulator, which the first column tile
      has reset to zero. So after tile j the accumulator holds, at (r, l), Σ_{j' ≤ j} Σ_g e (4096 j' + 128 g + l):
      induction along the points of the row tile.
    • At tile 12 the totals are the accumulator's lane sums: Σ_l Σ_{j < 13} Σ_g e (4096 j + 128 g + l), which runs
      over every n < 13 · 4096 once, hence is Σ_{k < 50257} e k, the specification's `sumexp` at row R.
-/
import proofs.«429872_j65068754535073_3_alg».proof.Proof.KIDats
import proofs.«429872_j65068754535073_3_alg».proof.Proof.KIPieces
import proofs.«429872_j65068754535073_3_alg».proof.Proof.KIBlocks
import proofs.«429872_j65068754535073_3_alg».proof.Proof.SumTiles
import proofs.«429872_j65068754535073_3_alg».proof.Proof.Spec
import Idealize.ShloMosaic.PureOps.Ideal.Laws
import Idealize.ShloMosaic.Lib.Pipeline.Value
import Idealize.ShloMosaic.Lib.ValueLayout
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

open Cert.KernelIdeal Cert.KernelIdeal.Gen

/-! ## The payloads read at an index -/

/-- The exponentials of row R of the score matrix, extended by zero past its last column. -/
def eRow (x : Cert.Spec.S2048x50257.Idx → EReal) (R : Fin 2048) (n : ℕ) : EReal :=
  if h : n < 50257 then Ideal.exp (Cert.Spec.s30 * x (ix2 R ⟨n, h⟩)) else 0

/-- An unmasked tile's exponential vector at (r, q): exp (30 · the tile's entry). -/
theorem pay6_apply (X : Vec Ideal S512x4096 .f32) (r : Fin 512) (q : Fin 4096) :
    k0_pay6 (F := Ideal) X (ix2 r q) = Ideal.exp (Cert.Spec.s30 * X (ix2 r q)) := rfl

/-- The vector the accumulator is reset to is zero. -/
theorem pay1_apply (r : Fin 512) (l : Fin 128) : k0_pay1 (F := Ideal) (ix2 r l) = 0 := by
  unfold k0_pay1
  rw [shapeCast_self]
  exact Ideal.ofBits_zero_f32

/-- The masked tile's exponential vector at (r, q): the mask bit compares the column's number, as a 32-bit word, with
    50257; where it is clear the argument is the word of −∞. -/
theorem pay9_apply (a : BitVec 32) (X : Vec Ideal S512x4096 .f32) (r : Fin 512) (q : Fin 4096) :
    k0_pay9 (F := Ideal) a X (ix2 r q)
      = Ideal.exp (Scalar.select (IntOp.cmpi .slt (IntOp.addi (Scalar.muli a 4096#32) (BitVec.ofNat 32 q.val)) 50257#32)
          (Cert.Spec.s30 * X (ix2 r q)) (Ideal.ofBits .f32 0xFF800000#32)) := by
  unfold k0_pay9
  show Ideal.exp (Scalar.select (IntOp.cmpi .slt (IntOp.addi (Scalar.muli a 4096#32) (iota .tc S512x4096 32 [1] iota_S512x4096_d1_w32 (ix2 r q))) 50257#32)
          (Cert.Spec.s30 * X (ix2 r q)) (Ideal.ofBits .f32 0xFF800000#32)) = _
  rw [iota_single_apply]

/-- At column tile 12 the mask keeps exactly the first 1105 columns of the tile: 12 · 4096 + q < 50257 iff q < 1105. -/
theorem mask12 : ∀ q : Fin 4096,
    IntOp.cmpi .slt (IntOp.addi (Scalar.muli 12#32 4096#32) (BitVec.ofNat 32 q.val)) 50257#32 = (if q.val < 1105 then 1#1 else 0#1) := by
  decide +kernel

/-- The masking word is −∞. -/
theorem neg_inf_word : Ideal.ofBits .f32 0xFF800000#32 = ⊥ := by simp [Ideal.ofBits, Ideal.ieee]

/-- So the last tile's exponential vector is exp (30 · entry) on its first 1105 columns and exp (−∞) = 0 past them. -/
theorem pay9_apply_last (X : Vec Ideal S512x4096 .f32) (r : Fin 512) (q : Fin 4096) :
    k0_pay9 (F := Ideal) 12#32 X (ix2 r q) = if q.val < 1105 then Ideal.exp (Cert.Spec.s30 * X (ix2 r q)) else 0 := by
  rw [pay9_apply, mask12 q]
  split_ifs with h
  · rw [select_one]
  · rw [select_zero, neg_inf_word, Ideal.exp_bot]

/-- The unmasked accumulation at (r, l): what was there plus the 32 lane groups' entries of the exponential vector. -/
theorem pay3_apply (X : Vec Ideal S512x4096 .f32) (A : Vec Ideal S512x128 .f32) (r : Fin 512) (l : Fin 128) :
    k0_pay3 (F := Ideal) (k0_pay6 X) (k0_pay7 X) (k0_pay8 X) A (ix2 r l)
      = A (ix2 r l) + ∑ g : Fin 32, k0_pay6 (F := Ideal) X (ix2 r ⟨g.val * 128 + l.val, by have := g.isLt; have := l.isLt; omega⟩) := by
  rw [← Cert.SumTiles.sum_fold32 (fun g : Fin 32 => k0_pay6 (F := Ideal) X (ix2 r ⟨g.val * 128 + l.val, by have := g.isLt; have := l.isLt; omega⟩))]
  unfold k0_pay3 k0_pay7 k0_pay8
  rw [shapeCast_self]
  simp only [addf_apply, slice2_axis1_eq]
  rfl

/-- The masked accumulation at (r, l), likewise. -/
theorem pay4_apply (a : BitVec 32) (X : Vec Ideal S512x4096 .f32) (A : Vec Ideal S512x128 .f32) (r : Fin 512) (l : Fin 128) :
    k0_pay4 (F := Ideal) (k0_pay9 a X) (k0_pay10 a X) A (ix2 r l)
      = A (ix2 r l) + ∑ g : Fin 32, k0_pay9 (F := Ideal) a X (ix2 r ⟨g.val * 128 + l.val, by have := g.isLt; have := l.isLt; omega⟩) := by
  rw [← Cert.SumTiles.sum_fold32 (fun g : Fin 32 => k0_pay9 (F := Ideal) a X (ix2 r ⟨g.val * 128 + l.val, by have := g.isLt; have := l.isLt; omega⟩))]
  unfold k0_pay4 k0_pay10
  rw [shapeCast_self]
  simp only [addf_apply, slice2_axis1_eq]
  rfl

/-- The totals at (r, 0): the sum of the accumulator's 128 lanes of row r. -/
theorem pay5_apply (A : Vec Ideal S512x128 .f32) (r : Fin 512) (z : Fin 1) :
    k0_pay5 (F := Ideal) A (ix2 r z) = ∑ l : Fin 128, A (ix2 r l) := by
  unfold k0_pay5
  refine (shapeCast_apply _ _ (ix2 r z) (ix1 r) ?_).trans ?_
  · have hz : z.val = 0 := by omega
    rw [Shape.rowMajor_val_two, Shape.rowMajor_val_one]
    show r.val = r.val * 1 + z.val
    omega
  · refine (Ideal.multiReduction_add_single (φ := .f32) (s := S512x128) (t := S512) (a := 1) A 0x00000000#32
      reduces_S512x128_S512 (.inl rfl) rfl (ix1 r)).trans ?_
    show ∑ l : Fin 128, A (reduces_S512x128_S512.lift (ix1 r) l) = _
    refine Finset.sum_congr rfl fun l _ => congrArg A (funext fun a => Fin.ext ?_)
    match a with
    | ⟨0, _⟩ => rfl
    | ⟨1, _⟩ => rfl

variable (m : (ℓ : Loc nD τ sig) → Buf (Elt Ideal) ℓ)

/-! ## A tile's exponentials are the row's -/

/-- Away from the last column tile, the exponential vector at (r, q) is the row's exponential at column 4096 j + q. -/
theorem tile_exp (c : Dev nD) (t : Fin cfg0.N) (h12 : t.val % 13 ≠ 12) (r : Fin 512) (q : Fin 4096) (R : Fin 2048)
    (hR : R.val = (t.val / 13) * 512 + r.val) :
    k0_pay6 (F := Ideal) (x0Std m c t) (ix2 r q)
      = eRow (m ((c.tc : Thread nD τ).loc main_arg0)) R ((t.val % 13) * 4096 + q.val) := by
  have hq : q.val < 4096 := q.isLt
  have hlt : (t.val % 13) * 4096 + q.val < 50257 := by omega
  obtain ⟨Rv, hRv⟩ := R
  dsimp only at hR
  subst hR
  rw [pay6_apply, eRow, dif_pos hlt]
  exact congrArg (fun v => Ideal.exp (Cert.Spec.s30 * v)) (x0At_apply m c t _ (ix2 r q) hRv hlt)

/-- At the last column tile too: the masked entries are the zeros the row's exponentials are extended by. -/
theorem tile_exp_last (c : Dev nD) (t : Fin cfg0.N) (h12 : t.val % 13 = 12) (r : Fin 512) (q : Fin 4096) (R : Fin 2048)
    (hR : R.val = (t.val / 13) * 512 + r.val) :
    k0_pay9 (F := Ideal) (BitVec.ofNat 32 ((grid0.coords t) 1).val) (x0Std m c t) (ix2 r q)
      = eRow (m ((c.tc : Thread nD τ).loc main_arg0)) R ((t.val % 13) * 4096 + q.val) := by
  have hq : q.val < 4096 := q.isLt
  obtain ⟨Rv, hRv⟩ := R
  dsimp only at hR
  subst hR
  rw [hCol t, h12, pay9_apply_last, eRow]
  by_cases h : q.val < 1105
  · have hlt : 12 * 4096 + q.val < 50257 := by omega
    rw [if_pos h, dif_pos hlt]
    have hlt' : (t.val % 13) * 4096 + q.val < 50257 := by omega
    refine congrArg (fun v => Ideal.exp (Cert.Spec.s30 * v)) ((x0At_apply m c t _ (ix2 r q) hRv hlt').trans ?_)
    refine congrArg _ (congrArg (ix2 _) (Fin.ext ?_))
    show (t.val % 13) * 4096 + q.val = 12 * 4096 + q.val
    rw [h12]
  · have hge : ¬ 12 * 4096 + q.val < 50257 := by omega
    rw [if_neg h, dif_neg hge]

/-- One tile's contribution at lane l of row r. -/
theorem tile_sum (c : Dev nD) (t : Fin cfg0.N) (h12 : t.val % 13 ≠ 12) (r : Fin 512) (l : Fin 128) (R : Fin 2048)
    (hR : R.val = (t.val / 13) * 512 + r.val) :
    ∑ g : Fin 32, k0_pay6 (F := Ideal) (x0Std m c t) (ix2 r ⟨g.val * 128 + l.val, by have := g.isLt; have := l.isLt; omega⟩)
      = ∑ g : Fin 32, eRow (m ((c.tc : Thread nD τ).loc main_arg0)) R ((t.val % 13) * 4096 + g.val * 128 + l.val) :=
  Finset.sum_congr rfl fun g _ => (tile_exp m c t h12 r _ R hR).trans (congrArg _ (Nat.add_assoc _ _ _).symm)

theorem tile_sum_last (c : Dev nD) (t : Fin cfg0.N) (h12 : t.val % 13 = 12) (r : Fin 512) (l : Fin 128) (R : Fin 2048)
    (hR : R.val = (t.val / 13) * 512 + r.val) :
    ∑ g : Fin 32, k0_pay9 (F := Ideal) (BitVec.ofNat 32 ((grid0.coords t) 1).val) (x0Std m c t)
        (ix2 r ⟨g.val * 128 + l.val, by have := g.isLt; have := l.isLt; omega⟩)
      = ∑ g : Fin 32, eRow (m ((c.tc : Thread nD τ).loc main_arg0)) R ((t.val % 13) * 4096 + g.val * 128 + l.val) :=
  Finset.sum_congr rfl fun g _ => (tile_exp_last m c t h12 r _ R hR).trans (congrArg _ (Nat.add_assoc _ _ _).symm)

/-! ## The accumulator point by point -/

theorem acc_first (c : Dev nD) (t : Fin cfg0.N) (h0 : t.val % 13 = 0) (r : Fin 512) (l : Fin 128) (R : Fin 2048)
    (hR : R.val = (t.val / 13) * 512 + r.val) :
    (outsAt (F := Ideal) m c t.val t.isLt).2.2 (ix2 r l)
      = ∑ g : Fin 32, eRow (m ((c.tc : Thread nD τ).loc main_arg0)) R ((t.val % 13) * 4096 + g.val * 128 + l.val) := by
  obtain ⟨a, ha⟩ := outsAt_first (F := Ideal) m c t h0
  rw [ha]
  dsimp only
  rw [accFirst_eq, pay3_apply, pay1_apply, zero_add, tile_sum m c t (by omega) r l R hR]

theorem acc_middle (c : Dev nD) (t : Fin cfg0.N) (h0 : ¬t.val % 13 = 0) (h12 : ¬t.val % 13 = 12) (r : Fin 512) (l : Fin 128) (R : Fin 2048)
    (hR : R.val = (t.val / 13) * 512 + r.val) :
    (outsAt (F := Ideal) m c t.val t.isLt).2.2 (ix2 r l)
      = (outsAt (F := Ideal) m c (t.val - 1) (Nat.lt_of_le_of_lt (Nat.sub_le _ _) t.isLt)).2.2 (ix2 r l)
        + ∑ g : Fin 32, eRow (m ((c.tc : Thread nD τ).loc main_arg0)) R ((t.val % 13) * 4096 + g.val * 128 + l.val) := by
  rw [outsAt_middle (F := Ideal) m c t h0 h12]
  dsimp only
  rw [accMiddle_eq, pay3_apply, tile_sum m c t h12 r l R hR]

theorem acc_last (c : Dev nD) (t : Fin cfg0.N) (h0 : ¬t.val % 13 = 0) (h12 : t.val % 13 = 12) (r : Fin 512) (l : Fin 128) (R : Fin 2048)
    (hR : R.val = (t.val / 13) * 512 + r.val) :
    (outsAt (F := Ideal) m c t.val t.isLt).2.2 (ix2 r l)
      = (outsAt (F := Ideal) m c (t.val - 1) (Nat.lt_of_le_of_lt (Nat.sub_le _ _) t.isLt)).2.2 (ix2 r l)
        + ∑ g : Fin 32, eRow (m ((c.tc : Thread nD τ).loc main_arg0)) R ((t.val % 13) * 4096 + g.val * 128 + l.val) := by
  rw [outsAt_last (F := Ideal) m c t h0 h12]
  dsimp only
  rw [accLast_eq, pay4_apply, tile_sum_last m c t h12 r l R hR]

/-- After column tile j of a row tile the accumulator holds, at lane l of row r, the row's exponentials over the columns
    of tiles 0 … j that fall on lane l. -/
theorem acc_eq (c : Dev nD) : ∀ (n : ℕ) (hn : n < cfg0.N) (r : Fin 512) (l : Fin 128) (R : Fin 2048),
    R.val = (n / 13) * 512 + r.val →
    (outsAt (F := Ideal) m c n hn).2.2 (ix2 r l)
      = ∑ j ∈ Finset.range (n % 13 + 1), ∑ g : Fin 32,
          eRow (m ((c.tc : Thread nD τ).loc main_arg0)) R (j * 4096 + g.val * 128 + l.val) := by
  intro n
  induction n with
  | zero =>
    intro hn r l R hR
    rw [Nat.zero_mod, Finset.sum_range_one]
    exact acc_first m c ⟨0, hn⟩ (Nat.zero_mod 13) r l R hR
  | succ n ih =>
    intro hn r l R hR
    by_cases h0 : (n + 1) % 13 = 0
    · rw [h0, Finset.sum_range_one]
      have := acc_first m c ⟨n + 1, hn⟩ h0 r l R hR
      rw [show (⟨n + 1, hn⟩ : Fin cfg0.N).val % 13 = 0 from h0] at this
      exact this
    · have hdiv : (n + 1) / 13 = n / 13 := by omega
      have hmod : (n + 1) % 13 = n % 13 + 1 := by omega
      have hprev := ih (Nat.lt_of_succ_lt hn) r l R (by rw [hR, hdiv])
      have hstep : (outsAt (F := Ideal) m c (n + 1) hn).2.2 (ix2 r l)
          = (outsAt (F := Ideal) m c n (Nat.lt_of_succ_lt hn)).2.2 (ix2 r l)
            + ∑ g : Fin 32, eRow (m ((c.tc : Thread nD τ).loc main_arg0)) R (((n + 1) % 13) * 4096 + g.val * 128 + l.val) := by
        by_cases h12 : (n + 1) % 13 = 12
        · exact acc_last m c ⟨n + 1, hn⟩ h0 h12 r l R hR
        · exact acc_middle m c ⟨n + 1, hn⟩ h0 h12 r l R hR
      rw [hstep, hprev, hmod, Finset.sum_range_succ _ (n % 13 + 1)]

/-! ## The rows' totals -/

/-- At a row tile's last point the totals' buffer holds, at row r, the row's sum of exponentials over all 50257
    columns: the 128 lanes of the accumulator, each the sum over the 13 tiles and 32 lane groups, together run over
    every column once, and the overhang's entries are zero. -/
theorem tot_eq_aux (c : Dev nD) (t : Fin cfg0.N) (h12 : t.val % 13 = 12) (r : Fin 512) (z : Fin 1) (R : Fin 2048)
    (hR : R.val = (t.val / 13) * 512 + r.val) :
    (outsAt (F := Ideal) m c t.val t.isLt).1 (ix2 r z)
      = Cert.Spec.sumexp (m ((c.tc : Thread nD τ).loc main_arg0)) (ix1 R) := by
  have h0 : ¬t.val % 13 = 0 := by omega
  have h1 : (outsAt (F := Ideal) m c t.val t.isLt).1
      = k0_pay5 (F := Ideal) (outsAt (F := Ideal) m c t.val t.isLt).2.2 := by
    rw [outsAt_last (F := Ideal) m c t h0 h12]
    dsimp only
    rw [totLast_eq, accLast_eq]
  have hacc : ∀ l : Fin 128, (outsAt (F := Ideal) m c t.val t.isLt).2.2 (ix2 r l)
      = ∑ j ∈ Finset.range 13, ∑ g : Fin 32,
          eRow (m ((c.tc : Thread nD τ).loc main_arg0)) R (j * 4096 + g.val * 128 + l.val) := by
    intro l
    have := acc_eq m c t.val t.isLt r l R hR
    rw [h12] at this
    exact this
  rw [h1, pay5_apply, Finset.sum_congr rfl fun l _ => hacc l,
    Cert.SumTiles.tiles_sum (eRow (m ((c.tc : Thread nD τ).loc main_arg0)) R) (fun n hn => dif_neg (by omega))]
  unfold Cert.Spec.sumexp
  refine Finset.sum_congr rfl fun k _ => ?_
  rw [eRow, dif_pos k.isLt]

theorem tot_eq (c : Dev nD) (t : Fin cfg0.N) (h12 : t.val % 13 = 12) (y : S512x1.Idx)
    (hr : (t.val / 13) * 512 + (y 0).val < 2048) :
    (outsAt (F := Ideal) m c t.val t.isLt).1 y
      = Cert.Spec.sumexp (m ((c.tc : Thread nD τ).loc main_arg0)) (ix1 ⟨(t.val / 13) * 512 + (y 0).val, hr⟩) :=
  (congrArg (outsAt (F := Ideal) m c t.val t.isLt).1 (eq_ix2 y)).trans
    (tot_eq_aux m c t h12 (y 0) (y 1) ⟨(t.val / 13) * 512 + (y 0).val, hr⟩ rfl)

end Cert.KernelIdeal.Body

end
-- ==== Proof.KITgt.lean ====
/-
  The labelled logits the kernel leaves: at the first column tile of a row tile the body stores, for each of the tile's 512
  rows, column 0 of the score tile where the row's label is 0 and column 1 otherwise; the buffer is then kept to the row
  tile's end. Column tile 0 holds the matrix's columns 0 and 1, so the stored value is x[R,0] or x[R,1] by the label of
  row R = 512·(row tile) + r: the specification's labelled logit.
-/
import proofs.«429872_j65068754535073_3_alg».proof.Proof.KIDats
import proofs.«429872_j65068754535073_3_alg».proof.Proof.KIPieces
import proofs.«429872_j65068754535073_3_alg».proof.Proof.KIBlocks
import proofs.«429872_j65068754535073_3_alg».proof.Proof.Spec
import Idealize.ShloMosaic.Lib.Pipeline.Value
import Idealize.ShloMosaic.Lib.StableHlo.Predicate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

variable (m : (ℓ : Loc nD τ sig) → Buf (Elt Ideal) ℓ)

/-- The stored select at row r of the tile: column 0 where the label is 0, column 1 otherwise. -/
theorem pay2_apply (X : Vec Ideal S512x4096 .f32) (L : Vec Ideal S512x1 .i32) (r : Fin 512) :
    k0_pay2 (F := Ideal) X L (ix2 r (0 : Fin 1))
      = if L (ix2 r (0 : Fin 1)) = 0#32 then X (ix2 r (⟨0, by decide⟩ : Fin 4096)) else X (ix2 r (⟨1, by decide⟩ : Fin 4096)) := by
  unfold k0_pay2
  rw [shapeCast_self]
  have hc : (IntOp.cmpi .eq (L (ix2 r (0 : Fin 1))) 0#32 = 1#1) ↔ L (ix2 r (0 : Fin 1)) = 0#32 := StableHlo.Predicate.cmpi_eq_iff
  have e0 : extractStridedSlice S512x1 ![0, 0] X slices_S512x4096_o0_0_S512x1 (ix2 r (0 : Fin 1)) = X (ix2 r (⟨0, by decide⟩ : Fin 4096)) :=
    congrArg X (funext fun a => by match a with | ⟨0, _⟩ => exact Fin.ext (Nat.zero_add _) | ⟨1, _⟩ => exact Fin.ext (Nat.zero_add _))
  have e1 : extractStridedSlice S512x1 ![0, 1] X slices_S512x4096_o0_1_S512x1 (ix2 r (0 : Fin 1)) = X (ix2 r (⟨1, by decide⟩ : Fin 4096)) :=
    congrArg X (funext fun a => by match a with | ⟨0, _⟩ => exact Fin.ext (Nat.zero_add _) | ⟨1, _⟩ => exact Fin.ext rfl)
  show Scalar.select (IntOp.cmpi .eq (L (ix2 r 0)) 0#32) (extractStridedSlice S512x1 ![0, 0] X slices_S512x4096_o0_0_S512x1 (ix2 r (0 : Fin 1)))
    (extractStridedSlice S512x1 ![0, 1] X slices_S512x4096_o0_1_S512x1 (ix2 r (0 : Fin 1))) = _
  rw [e0, e1]
  unfold Scalar.select
  by_cases h : L (ix2 r (0 : Fin 1)) = 0#32
  · rw [if_pos (show IntOp.cmpi .eq (L (ix2 r 0)) 0#32 = 1 from hc.mpr h), if_pos h]
  · rw [if_neg (show ¬IntOp.cmpi .eq (L (ix2 r 0)) 0#32 = 1 from fun h' => h (hc.mp h')), if_neg h]

/-- At a row tile's first point the body stores the specification's labelled logits of the tile's rows. -/
theorem tgt_first (c : Dev nD) (t : Fin cfg0.N) (h0 : t.val % 13 = 0) (r : Fin 512) (hr : (t.val / 13) * 512 + r.val < 2048) :
    (outsAt (F := Ideal) m c t.val t.isLt).2.1 (ix2 r (0 : Fin 1))
      = Cert.Spec.target (m ((c.tc : Thread nD τ).loc main_arg0)) (m ((c.tc : Thread nD τ).loc main_arg1)) (ix1 ⟨(t.val / 13) * 512 + r.val, hr⟩) := by
  obtain ⟨a, ha⟩ := outsAt_first m c t h0
  rw [ha]; dsimp only
  rw [tgtOf_eq, pay2_apply]
  rw [labels_apply m c t (ix2 r (0 : Fin 1)) hr]
  unfold x0Std
  rw [x0At_apply m c t _ (ix2 r (⟨0, by decide⟩ : Fin 4096)) hr (by rw [h0]; show 0 * 4096 + 0 < 50257; decide),
    x0At_apply m c t _ (ix2 r (⟨1, by decide⟩ : Fin 4096)) hr (by rw [h0]; show 0 * 4096 + 1 < 50257; decide)]
  unfold Cert.Spec.target Cert.Spec.at2
  have e0 : ∀ (h : t.val % 13 * 4096 + 0 < 50257), (⟨t.val % 13 * 4096 + 0, h⟩ : Fin 50257) = ⟨0, by decide⟩ := fun _ => Fin.ext (by show t.val % 13 * 4096 + 0 = 0; omega)
  have e1 : ∀ (h : t.val % 13 * 4096 + 1 < 50257), (⟨t.val % 13 * 4096 + 1, h⟩ : Fin 50257) = ⟨1, by decide⟩ := fun _ => Fin.ext (by show t.val % 13 * 4096 + 1 = 1; omega)
  show (if m ((c.tc : Thread nD τ).loc main_arg1) (ix1 ⟨t.val / 13 * 512 + r.val, hr⟩) = 0#32 then
      m ((c.tc : Thread nD τ).loc main_arg0) (ix2 ⟨t.val / 13 * 512 + r.val, hr⟩ ⟨t.val % 13 * 4096 + 0, _⟩)
    else m ((c.tc : Thread nD τ).loc main_arg0) (ix2 ⟨t.val / 13 * 512 + r.val, hr⟩ ⟨t.val % 13 * 4096 + 1, _⟩)) = _
  rw [e0, e1]

/-- The labelled-logits block after position n is, at row r of the tile, the specification's labelled logit of row
    512·(n / 13) + r: stored at the row tile's first point, kept through the others. -/
theorem tgt_at (c : Dev nD) : ∀ (n : ℕ) (hn : n < cfg0.N) (r : Fin 512) (hr : (n / 13) * 512 + r.val < 2048),
    (outsAt (F := Ideal) m c n hn).2.1 (ix2 r (0 : Fin 1))
      = Cert.Spec.target (m ((c.tc : Thread nD τ).loc main_arg0)) (m ((c.tc : Thread nD τ).loc main_arg1)) (ix1 ⟨(n / 13) * 512 + r.val, hr⟩) := by
  intro n
  induction n with
  | zero => intro hn r hr; exact tgt_first m c ⟨0, hn⟩ (Nat.zero_mod _) r hr
  | succ n ih =>
    intro hn r hr
    by_cases h0 : (n + 1) % 13 = 0
    · exact tgt_first m c ⟨n + 1, hn⟩ h0 r hr
    · have hq : n / 13 = (n + 1) / 13 := by omega
      have hprev : (outsAt (F := Ideal) m c (n + 1) hn).2.1 = (outsAt m c n (Nat.lt_of_succ_lt hn)).2.1 := by
        by_cases h12 : (n + 1) % 13 = 12
        · exact congrArg (fun p => p.2.1) (outsAt_last m c ⟨n + 1, hn⟩ h0 h12)
        · exact congrArg (fun p => p.2.1) (outsAt_middle m c ⟨n + 1, hn⟩ h0 h12)
      have hr' : (n / 13) * 512 + r.val < 2048 := by rw [hq]; exact hr
      rw [hprev, ih (Nat.lt_of_succ_lt hn) r hr']
      have e : (⟨(n / 13) * 512 + r.val, hr'⟩ : Fin 2048) = ⟨((n + 1) / 13) * 512 + r.val, hr⟩ := Fin.ext (by show (n / 13) * 512 + r.val = ((n + 1) / 13) * 512 + r.val; rw [hq])
      rw [e]

theorem tgt_eq (c : Dev nD) (t : Fin cfg0.N) (y : S512x1.Idx) (hr : (t.val / 13) * 512 + (y 0).val < 2048) :
    (outsAt (F := Ideal) m c t.val t.isLt).2.1 y
      = Cert.Spec.target (m ((c.tc : Thread nD τ).loc main_arg0)) (m ((c.tc : Thread nD τ).loc main_arg1)) (ix1 ⟨(t.val / 13) * 512 + (y 0).val, hr⟩) := by
  have hy : y = ix2 (⟨(y 0).val, idx2_lt0 y⟩ : Fin 512) (0 : Fin 1) := by
    funext a; match a with
    | ⟨0, _⟩ => rfl
    | ⟨1, _⟩ => exact Fin.ext (Nat.lt_one_iff.mp (idx2_lt1 y))
  have := tgt_at m c t.val t.isLt ⟨(y 0).val, idx2_lt0 y⟩ hr
  rw [← hy] at this
  exact this

end Cert.KernelIdeal.Body

end
-- ==== Proof.KernelTail.lean ====
/-
  The kernel program's closing host lines, read at the extended reals.

  After its one region the program reshapes the two column outputs (row sums, labelled logits) to vectors, forms the
  margin vector from the labels (first word where the label is 0, second word elsewhere) and applies the closing chain.
  Here: a column read as a vector entry by entry (reshape_col_apply), the margin select lane by lane (margin_eq), and
  the value of the last line as the shared closing chain applied to those three vectors (tail_value).
-/
import proofs.«429872_j65068754535073_3_alg».proof.Proof.Gen.KernelIdeal.Frame
import proofs.«429872_j65068754535073_3_alg».proof.Proof.Spec
import Idealize.ShloMosaic.Lib.StableHlo.Run

noncomputable section

namespace Cert.KernelTail

open Idealize.ShloMosaic Idealize.ShloMosaic.TcCoe Idealize.ShloMosaic.ValueIdx
open Cert.KernelIdeal Cert.KernelIdeal.Gen

/-- A column read as a vector: the same entries, row by row. -/
def col (S : FVec Ideal S2048x1 .f32) : FVec Ideal S2048 .f32 := shapeCast S2048 S shapeCasts_S2048x1_S2048

/-- Entry i of the vector read off a column is the column's entry (i, 0). -/
theorem reshape_col_apply (S : FVec Ideal S2048x1 .f32) (i : S2048.Idx) : col S i = S (ix2 (i 0) 0) := by
  unfold col shapeCast
  refine congrArg S (Shape.reshapeEquiv_eq_of_rowMajor shapeCasts_S2048x1_S2048 ?_)
  rw [Shape.rowMajor_val_two, Shape.rowMajor_val_one]
  show (i 0).val * 1 + 0 = (i 0).val
  omega

/-- The margin select, lane by lane: labels equal to 0 take the first word, all others the second. -/
theorem margin_eq (l : IVec S2048 32) :
    select (cmpi .eq l (broadcastInDim S2048 ![] bcast_S_S2048 (constantI S_ 32 0#32)))
        (broadcastInDim S2048 ![] bcast_S_S2048 (constant (F := Ideal) S_ .f32 0x3DCCCCCD#32))
        (broadcastInDim S2048 ![] bcast_S_S2048 (constant (F := Ideal) S_ .f32 0x3ECCCCCD#32))
      = Cert.Spec.margin l := by
  funext i
  show Scalar.select (IntOp.cmpi .eq (l i) 0#32) (Ideal.ofBits .f32 0x3DCCCCCD#32) (Ideal.ofBits .f32 0x3ECCCCCD#32)
    = if l i = 0#32 then Ideal.ofBits .f32 0x3DCCCCCD#32 else Ideal.ofBits .f32 0x3ECCCCCD#32
  unfold Scalar.select IntOp.cmpi
  by_cases h : l i = 0#32
  · rw [if_pos h, h]
    exact if_pos (by decide)
  · rw [if_neg h]
    have hb : (l i == 0#32) = false := beq_eq_false_iff_ne.2 h
    show (if BitVec.ofBool (l i == 0#32) = 1 then _ else _) = _
    rw [hb]
    exact if_neg (by decide)

/-- The host lines after the kernel's region, at the ideal instance: the closing chain applied to the two kernel outputs read
    as vectors and to the margins of the labels. -/
theorem tail_value (m : (ℓ : Loc nD τ sig) → Buf (Elt Ideal) ℓ) (dats : (p : Fin 1) → (c : Dev nD) → Pipeline.Dat τ (Elt Ideal) Unit ℕ (UR sig nD τ) ℕ (cfgs p) c) (c : Dev nD) :
    Pipeline.afterTail₀ cfgs dats 0 (V0 m) [hostOps1, hostOps1_1, hostOps1_2] c main_v21
      = Cert.Spec.tail bcast_S_S2048 reducesTo_S2048_S_d0 h_S_
          (col ((dats 0 c).arrAt 2 cfg0.N))
          (col ((dats 0 c).arrAt 3 cfg0.N))
          (Cert.Spec.margin (m ((c.tc : Thread nD τ).loc main_arg1))) := by
  unfold Pipeline.afterTail₀
  simp only [hostOps1, hostOps1_1, hostOps1_2, List.flatten_cons, List.flatten_nil, List.append_nil, List.cons_append, List.nil_append]
  -- each line's result is its function at its operands' results, down to the region's outputs and the labels
  after_results_simp
  have h2 : Pipeline.withArrays (cfgs 0).spec c (V0 m c) (fun w => (dats 0 c).arrAt w (cfgs 0).N) (Proc.devRef .tc main_v1_0)
      = (dats 0 c).arrAt 2 (cfgs 0).N :=
    Pipeline.withArrays_arr (cfgs 0).spec launch0.win.arr_inj c _ _ 2
  have h3 : Pipeline.withArrays (cfgs 0).spec c (V0 m c) (fun w => (dats 0 c).arrAt w (cfgs 0).N) (Proc.devRef .tc main_v1_1)
      = (dats 0 c).arrAt 3 (cfgs 0).N :=
    Pipeline.withArrays_arr (cfgs 0).spec launch0.win.arr_inj c _ _ 3
  have hl : Pipeline.withArrays (cfgs 0).spec c (V0 m c) (fun w => (dats 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  rw [h2, h3, hl]
  -- what is left is the closing chain at the two columns and at the select of the labels, which is the margin vector
  refine Eq.trans ?_ (congrArg (Cert.Spec.tail bcast_S_S2048 reducesTo_S2048_S_d0 h_S_ (col ((dats 0 c).arrAt 2 cfg0.N)) (col ((dats 0 c).arrAt 3 cfg0.N)))
    (margin_eq (m ((c.tc : Thread nD τ).loc main_arg1))))
  rfl

end Cert.KernelTail

end
-- ==== Proof.KIArr.lean ====
/-
  The two result arrays after the run, at the extended reals.

  Each of the two result windows (the rows' totals, the labelled logits) is written back once per row tile, at the
  row tile's last column tile, and its block there is rows 512·(t / 13) … 512·(t / 13) + 511 of the one column of
  its array. The four blocks written back tile the 2048 rows. So, once the block a row tile's last point leaves
  holds a row function f at the tile's rows, the array ends holding f down its column, and read as a vector it is f.
-/
import proofs.«429872_j65068754535073_3_alg».proof.Proof.KIDats
import proofs.«429872_j65068754535073_3_alg».proof.Proof.KernelTail
import proofs.«429872_j65068754535073_3_alg».proof.Proof.Spec
import Idealize.ShloMosaic.Lib.Pipeline.Value
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

open Cert.KernelIdeal Cert.KernelIdeal.Gen

variable (m : (ℓ : Loc nD τ sig) → Buf (Elt Ideal) ℓ)

/-! ## A row function down the one column -/

/-- The column array that holds f r at (r, 0). -/
abbrev colOf (f : S2048.Idx → EReal) : S2048x1.Idx → EReal := fun i => f (ix1 (n := 2048) (i 0))

/-- The column of f, read as a vector, is f. -/
theorem col_colOf (f : S2048.Idx → EReal) : Cert.KernelTail.col (colOf f) = f := by
  funext i
  rw [Cert.KernelTail.reshape_col_apply]
  show f (ix1 (n := 2048) (i 0)) = f i
  exact congrArg f (eq_ix1 i).symm

/-- The printed index maps of the two result windows, decided over the grid: the row tile of point t is t / 13, the
    column block is 0. -/
theorem rowTile2 : ∀ t : Fin cfg0.N, win0_2.index t (0 : Fin 2) = t.val / 13 ∧ win0_2.index t (1 : Fin 2) = 0 :=
  (by decide +kernel : ∀ t : Fin grid0.N, _)
theorem rowTile3 : ∀ t : Fin cfg0.N, win0_3.index t (0 : Fin 2) = t.val / 13 ∧ win0_3.index t (1 : Fin 2) = 0 :=
  (by decide +kernel : ∀ t : Fin grid0.N, _)

/-! ## The rows' totals -/

/-- What a row tile's last point writes back into window 2's array is its block of the column of f, once the block the
    point leaves holds f at the tile's rows. -/
theorem flushed2_eq (c : Dev nD) (f : S2048.Idx → EReal)
    (hblk : ∀ (t : Fin cfg0.N), t.val % 13 = 12 → ∀ (y : S512x1.Idx) (hr : (t.val / 13) * 512 + (y 0).val < 2048),
      (outsAt (F := Ideal) m c t.val t.isLt).1 y = f (ix1 ⟨(t.val / 13) * 512 + (y 0).val, hr⟩))
    (t : Fin cfg0.N) (hf : (cfg0.win 2).flush t = true) :
    (dats (F := Ideal) m 0 c).flushed 2 t = ((cfg0.win 2).blk t).view.read (Elt Ideal) (colOf f) := by
  have h12 : t.val % 13 = 12 := of_decide_eq_true ((flush2 t).symm.trans hf)
  have hN : t.val < 52 := lt_of_lt_of_eq t.isLt (show cfg0.N = 52 from N_0)
  show (cfg0.win 2).cut (grid0.coords t) ((dats (F := Ideal) m 0 c).after 2 t) = _
  rw [after2]
  funext y
  have hy : (y 0).val < 512 := (y 0).isLt
  have hr : (t.val / 13) * 512 + (y 0).val < 2048 := by omega
  show (outsAt (F := Ideal) m c t.val t.isLt).1 y = colOf f (((cfg0.win 2).blk t).view.emb y)
  refine (hblk t h12 y hr).trans ?_
  show f _ = f _
  refine congrArg f (congrArg (ix1 (n := 2048)) (Fin.ext ?_))
  show (t.val / 13) * 512 + (y 0).val = win0_2.index t (0 : Fin 2) * 512 + 1 * (y 0).val
  rw [(rowTile2 t).1]; omega

/-- An index of window 2's array is in point t's block iff each coordinate is in the block's range on its axis. -/
theorem mem_blk2 (t : Fin cfg0.N) (i : S2048x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1_0).slice (win0_2.rect t)).set ↔ _
  rw [View.set_slice_whole, Rect.mem_set_unit]
  exact Iff.rfl

/-- Row r lies in the block the last point of its row tile, point 13·(r / 512) + 12, writes back. -/
theorem cover2 (i : S2048x1.Idx) :
    ∃ t : Fin cfg0.N, (cfg0.win 2).flush t = true ∧ i ∈ ((cfg0.win 2).blk t).view.set := by
  have hi0 : (i 0).val < 2048 := (i 0).isLt
  have hi1 : (i 1).val < 1 := (i 1).isLt
  have hN : cfg0.N = 52 := N_0
  obtain ⟨t, ht⟩ : ∃ t : Fin cfg0.N, t.val = 13 * ((i 0).val / 512) + 12 :=
    ⟨⟨13 * ((i 0).val / 512) + 12, by rw [hN]; omega⟩, rfl⟩
  obtain ⟨e0, e1⟩ := rowTile2 t
  refine ⟨t, (flush2 t).trans (decide_eq_true (by omega)), ?_⟩
  rw [mem_blk2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- Window 2's array after the run: the column of f. -/
theorem arr2_colOf (c : Dev nD) (f : S2048.Idx → EReal)
    (hblk : ∀ (t : Fin cfg0.N), t.val % 13 = 12 → ∀ (y : S512x1.Idx) (hr : (t.val / 13) * 512 + (y 0).val < 2048),
      (outsAt (F := Ideal) m c t.val t.isLt).1 y = f (ix1 ⟨(t.val / 13) * 512 + (y 0).val, hr⟩)) :
    (dats (F := Ideal) m 0 c).arrAt 2 cfg0.N = colOf f :=
  (dats (F := Ideal) m 0 c).arrAt_eq_of_cover 2 (colOf f) (fun t hf => flushed2_eq m c f hblk t hf) cover2

/-! ## The labelled logits -/

/-- What a row tile's last point writes back into window 3's array is its block of the column of f, once the block the
    point leaves holds f at the tile's rows. -/
theorem flushed3_eq (c : Dev nD) (f : S2048.Idx → EReal)
    (hblk : ∀ (t : Fin cfg0.N), t.val % 13 = 12 → ∀ (y : S512x1.Idx) (hr : (t.val / 13) * 512 + (y 0).val < 2048),
      (outsAt (F := Ideal) m c t.val t.isLt).2.1 y = f (ix1 ⟨(t.val / 13) * 512 + (y 0).val, hr⟩))
    (t : Fin cfg0.N) (hf : (cfg0.win 3).flush t = true) :
    (dats (F := Ideal) m 0 c).flushed 3 t = ((cfg0.win 3).blk t).view.read (Elt Ideal) (colOf f) := by
  have h12 : t.val % 13 = 12 := of_decide_eq_true ((flush3 t).symm.trans hf)
  have hN : t.val < 52 := lt_of_lt_of_eq t.isLt (show cfg0.N = 52 from N_0)
  show (cfg0.win 3).cut (grid0.coords t) ((dats (F := Ideal) m 0 c).after 3 t) = _
  rw [after3]
  funext y
  have hy : (y 0).val < 512 := (y 0).isLt
  have hr : (t.val / 13) * 512 + (y 0).val < 2048 := by omega
  show (outsAt (F := Ideal) m c t.val t.isLt).2.1 y = colOf f (((cfg0.win 3).blk t).view.emb y)
  refine (hblk t h12 y hr).trans ?_
  show f _ = f _
  refine congrArg f (congrArg (ix1 (n := 2048)) (Fin.ext ?_))
  show (t.val / 13) * 512 + (y 0).val = win0_3.index t (0 : Fin 2) * 512 + 1 * (y 0).val
  rw [(rowTile3 t).1]; omega

/-- An index of window 3's array is in point t's block iff each coordinate is in the block's range on its axis. -/
theorem mem_blk3 (t : Fin cfg0.N) (i : S2048x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v1_1).slice (win0_3.rect t)).set ↔ _
  rw [View.set_slice_whole, Rect.mem_set_unit]
  exact Iff.rfl

/-- Row r lies in the block the last point of its row tile, point 13·(r / 512) + 12, writes back. -/
theorem cover3 (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  have hN : cfg0.N = 52 := N_0
  obtain ⟨t, ht⟩ : ∃ t : Fin cfg0.N, t.val = 13 * ((i 0).val / 512) + 12 :=
    ⟨⟨13 * ((i 0).val / 512) + 12, by rw [hN]; omega⟩, rfl⟩
  obtain ⟨e0, e1⟩ := rowTile3 t
  refine ⟨t, (flush3 t).trans (decide_eq_true (by omega)), ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- Window 3's array after the run: the column of f. -/
theorem arr3_colOf (c : Dev nD) (f : S2048.Idx → EReal)
    (hblk : ∀ (t : Fin cfg0.N), t.val % 13 = 12 → ∀ (y : S512x1.Idx) (hr : (t.val / 13) * 512 + (y 0).val < 2048),
      (outsAt (F := Ideal) m c t.val t.isLt).2.1 y = f (ix1 ⟨(t.val / 13) * 512 + (y 0).val, hr⟩)) :
    (dats (F := Ideal) m 0 c).arrAt 3 cfg0.N = colOf f :=
  (dats (F := Ideal) m 0 c).arrAt_eq_of_cover 3 (colOf f) (fun t hf => flushed3_eq m c f hblk t hf) cover3

/-! ## The two arrays read as vectors -/

/-- The rows' totals after the run, read as a vector: every row's sum of exponentials. -/
theorem arr2_eq (c : Dev nD)
    (htot : ∀ (t : Fin cfg0.N), t.val % 13 = 12 → ∀ (y : S512x1.Idx) (hr : (t.val / 13) * 512 + (y 0).val < 2048),
      (outsAt (F := Ideal) m c t.val t.isLt).1 y
        = Cert.Spec.sumexp (m ((c.tc : Thread nD τ).loc main_arg0)) (ix1 ⟨(t.val / 13) * 512 + (y 0).val, hr⟩)) :
    Cert.KernelTail.col ((dats (F := Ideal) m 0 c).arrAt 2 cfg0.N) = Cert.Spec.sumexp (m ((c.tc : Thread nD τ).loc main_arg0)) := by
  rw [arr2_colOf m c _ htot, col_colOf]

/-- The labelled logits after the run, read as a vector: every row's labelled logit. -/
theorem arr3_eq (c : Dev nD)
    (htgt : ∀ (t : Fin cfg0.N) (y : S512x1.Idx) (hr : (t.val / 13) * 512 + (y 0).val < 2048),
      (outsAt (F := Ideal) m c t.val t.isLt).2.1 y
        = Cert.Spec.target (m ((c.tc : Thread nD τ).loc main_arg0)) (m ((c.tc : Thread nD τ).loc main_arg1)) (ix1 ⟨(t.val / 13) * 512 + (y 0).val, hr⟩)) :
    Cert.KernelTail.col ((dats (F := Ideal) m 0 c).arrAt 3 cfg0.N)
      = Cert.Spec.target (m ((c.tc : Thread nD τ).loc main_arg0)) (m ((c.tc : Thread nD τ).loc main_arg1)) := by
  rw [arr3_colOf m c _ (fun t _ => htgt t), col_colOf]

end Cert.KernelIdeal.Body

end
-- ==== Proof.RefParts.lean ====
/-
  The three row vectors the reference program forms before its closing chain, as pure terms of its two
  arguments (the score matrix x and the labels ℓ), one `let` per value of the program:
    mPart ℓ     the gather from the two-entry margin table at the (wrapped) labels;
    tPart x ℓ   the labelled logit: take_along_axis of x at the labels, flattened to a row vector;
    sPart x     the row sums of exp (30 · x).
-/
import proofs.«429872_j65068754535073_3_alg».proof.ReferenceIdeal
import proofs.«429872_j65068754535073_3_alg».proof.Proof.Spec

noncomputable section

namespace Cert.RefParts

open Idealize.ShloMosaic
open Cert.ReferenceIdeal Cert.ReferenceIdeal.Facts₀

variable {F : FTy → Type} [FloatOps F]
variable [Cert.ReferenceIdeal.Facts]

/-- %6: the margin table gathered at the labels (a negative label wrapped by the table's length first). -/
def mPart (l : IVec S2048 32) : FVec F S2048 .f32 :=
  let cst : FVec F S2 .f32 := fun i => FloatOps.ofBits .f32 (lit0 (S2.rowMajor i))
  let c : IVec S_ 32 := constantI S_ 32 0#32
  let v0 : IVec S2048 32 := broadcastInDim S2048 ![] bcast_S_S2048 c
  let v1 : IVec S2048 1 := cmpi .slt l v0
  let c_0 : IVec S_ 32 := constantI S_ 32 2#32
  let v2 : IVec S2048 32 := broadcastInDim S2048 ![] bcast_S_S2048 c_0
  let v3 : IVec S2048 32 := addi l v2
  let v4 : IVec S2048 32 := select v1 v3 l
  let v5 : IVec S2048x1 32 := broadcastInDim S2048x1 ![0] bcast_S2048_S2048x1_0 v4
  Host.gather gather_S2_S2048x1_S2048_n_0_n_n_0_1_1 cst v5

/-- %9: take_along_axis of the score matrix at the labels (a negative label wrapped by the row length,
    an out-of-range one answered by the NaN word), flattened to a row vector. -/
def tPart (x : FVec F S2048x50257 .f32) (l : IVec S2048 32) : FVec F S2048 .f32 :=
  let v7 : IVec S2048x1 32 := broadcastInDim S2048x1 ![0] bcast_S2048_S2048x1_0 l
  let c : IVec S_ 32 := constantI S_ 32 0#32
  let t0 : IVec S2048x1 32 := broadcastInDim S2048x1 ![] bcast_S_S2048x1 c
  let t1 : IVec S2048x1 1 := cmpi .slt v7 t0
  let c_0 : IVec S_ 32 := constantI S_ 32 50257#32
  let t2 : IVec S2048x1 32 := broadcastInDim S2048x1 ![] bcast_S_S2048x1 c_0
  let t3 : IVec S2048x1 32 := addi v7 t2
  let t4 : IVec S2048x1 32 := select t1 t3 v7
  let t5 : IVec S2048x1x1 32 := shapeCast S2048x1x1 t4 shapeCasts_S2048x1_S2048x1x1
  let c_1 : IVec S1 32 := constantI S1 32 50256#32
  let c_2 : IVec S_ 32 := constantI S_ 32 0#32
  let t6 : IVec S2048x1x1 32 := broadcastInDim S2048x1x1 ![] bcast_S_S2048x1x1 c_2
  let t7 : IVec S2048x1x1 1 := cmpi .sge t5 t6
  let t8 : IVec S1x1x1 32 := broadcastInDim S1x1x1 ![2] bcast_S1_S1x1x1_2 c_1
  let t9 : IVec S2048x1x1 32 := broadcastInDim S2048x1x1 ![0, 1, 2] bcast_S1x1x1_S2048x1x1_0_1_2 t8
  let t10 : IVec S2048x1x1 1 := cmpi .sle t5 t9
  let t11 : IVec S2048x1x1 1 := andi t7 t10
  let c_3 : IVec S_ 1 := constantI S_ 1 1#1
  let t12 : IVec S2048x1 1 := Host.reduce IntOp.andi t11 c_3 reducesTo_S2048x1x1_S2048x1_d2 h_S_
  let t13 : FVec F S2048x1 .f32 := Host.gather gather_S2048x50257_S2048x1x1_S2048x1_n_1_0_0_1_2_11 x t5
  let cst : FVec F S_ .f32 := constant S_ .f32 0x7FC00000#32
  let t14 : FVec F S2048x1 .f32 := broadcastInDim S2048x1 ![] bcast_S_S2048x1 cst
  let v8 : FVec F S2048x1 .f32 := select t12 t13 t14
  shapeCast S2048 v8 shapeCasts_S2048x1_S2048

/-- %16: the row sums of exp (30 · x), from the zero word. -/
def sPart (x : FVec F S2048x50257 .f32) : FVec F S2048 .f32 :=
  let cst_2 : FVec F S_ .f32 := constant S_ .f32 0x41F00000#32
  let v13 : FVec F S2048x50257 .f32 := broadcastInDim S2048x50257 ![] bcast_S_S2048x50257 cst_2
  let v14 : FVec F S2048x50257 .f32 := mulf v13 x
  let v15 : FVec F S2048x50257 .f32 := Host.exp v14
  let cst_3 : FVec F S_ .f32 := constant S_ .f32 0x00000000#32
  Host.reduceAdd v15 cst_3 reducesTo_S2048x50257_S2048_d1 h_S_

end Cert.RefParts

end
-- ==== Proof.RefRun.lean ====
/-
  The reference program's run. The program is a straight line of fifty-eight host operations: eleven that
  form the margin vector and the label column, the twenty-two of the labelled-logit lookup (the outlined
  function's body at its one call site, over that call's own buffers), and twenty-five that form the row sums and
  the closing chain. The line's run leaves every buffer at the fold of the operations' results over the
  launch contents; read at the result buffer, that fold is the closing chain applied to the row sums, the labelled
  logits and the margins, and the two arguments are left as they were.
-/
import proofs.«429872_j65068754535073_3_alg».proof.Proof.Gen.ReferenceIdeal
import proofs.«429872_j65068754535073_3_alg».proof.Proof.Spec
import proofs.«429872_j65068754535073_3_alg».proof.Proof.RefParts
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The program's fifty-eight operations, in order, the outlined lookup's twenty-two at its call site. -/
abbrev ops : List (HloOp τ sig (Elt F)) :=
  [ nullary main_cst (fun i => FloatOps.ofBits .f32 (lit0 (S2.rowMajor i))),
    nullary main_c (constantI S_ 32 0#32),
    unary main_c main_v0 (broadcastInDim S2048 ![] bcast_S_S2048 : (⟨S_, .i32⟩ : BufTy).Contents (Elt F) → (⟨S2048, .i32⟩ : BufTy).Contents (Elt F)),
    binary main_arg1 main_v0 main_v1 (cmpi .slt : (⟨S2048, .i32⟩ : BufTy).Contents (Elt F) → (⟨S2048, .i32⟩ : BufTy).Contents (Elt F) → (⟨S2048, .i1⟩ : BufTy).Contents (Elt F)),
    nullary main_c_0 (constantI S_ 32 2#32),
    unary main_c_0 main_v2 (broadcastInDim S2048 ![] bcast_S_S2048 : (⟨S_, .i32⟩ : BufTy).Contents (Elt F) → (⟨S2048, .i32⟩ : BufTy).Contents (Elt F)),
    binary main_arg1 main_v2 main_v3 (addi : (⟨S2048, .i32⟩ : BufTy).Contents (Elt F) → (⟨S2048, .i32⟩ : BufTy).Contents (Elt F) → (⟨S2048, .i32⟩ : BufTy).Contents (Elt F)),
    ternary main_v1 main_v3 main_arg1 main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v4 main_v5 (broadcastInDim S2048x1 ![0] bcast_S2048_S2048x1_0 : (⟨S2048, .i32⟩ : BufTy).Contents (Elt F) → (⟨S2048x1, .i32⟩ : BufTy).Contents (Elt F)),
    binary main_cst main_v5 main_v6 ((fun x i => Host.gather gather_S2_S2048x1_S2048_n_0_n_n_0_1_1 x i) : (⟨S2, .f32⟩ : BufTy).Contents (Elt F) → (⟨S2048x1, .i32⟩ : BufTy).Contents (Elt F) → (⟨S2048, .f32⟩ : BufTy).Contents (Elt F)),
    unary main_arg1 main_v7 (broadcastInDim S2048x1 ![0] bcast_S2048_S2048x1_0 : (⟨S2048, .i32⟩ : BufTy).Contents (Elt F) → (⟨S2048x1, .i32⟩ : BufTy).Contents (Elt F)),
    TRef.nullary main_call0.c (constantI S_ 32 0#32),
    TRef.unary main_call0.c main_call0.v0 (broadcastInDim S2048x1 ![] bcast_S_S2048x1),
    TRef.binary (TRef.of main_v7 : TRef sig ⟨S2048x1, .i32⟩) main_call0.v0 main_call0.v1 (cmpi .slt),
    TRef.nullary main_call0.c_0 (constantI S_ 32 50257#32),
    TRef.unary main_call0.c_0 main_call0.v2 (broadcastInDim S2048x1 ![] bcast_S_S2048x1),
    TRef.binary (TRef.of main_v7 : TRef sig ⟨S2048x1, .i32⟩) main_call0.v2 main_call0.v3 addi,
    TRef.ternary main_call0.v1 main_call0.v3 (TRef.of main_v7 : TRef sig ⟨S2048x1, .i32⟩) main_call0.v4 select,
    TRef.reshape main_call0.v4 main_call0.v5 rfl shapeCasts_S2048x1_S2048x1x1,
    TRef.nullary main_call0.c_1 (constantI S1 32 50256#32),
    TRef.nullary main_call0.c_2 (constantI S_ 32 0#32),
    TRef.unary main_call0.c_2 main_call0.v6 (broadcastInDim S2048x1x1 ![] bcast_S_S2048x1x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2048x1x1 ![0, 1, 2] bcast_S1x1x1_S2048x1x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1x1_S2048x1_d2 h_S_),
    TRef.binary (TRef.of main_arg0 : TRef sig ⟨S2048x50257, .f32⟩) main_call0.v5 main_call0.v13 (fun x i => Host.gather gather_S2048x50257_S2048x1x1_S2048x1_n_1_0_0_1_2_11 x i),
    TRef.nullary main_call0.cst (constant S_ .f32 0x7FC00000#32),
    TRef.unary main_call0.cst main_call0.v14 (broadcastInDim S2048x1 ![] bcast_S_S2048x1),
    TRef.ternary main_call0.v12 main_call0.v13 main_call0.v14 main_call0.v15 select,
    reshape main_v8 main_v9 rfl shapeCasts_S2048x1_S2048,
    binary main_v9 main_v6 main_v10 (subf : (⟨S2048, .f32⟩ : BufTy).Contents (Elt F) → (⟨S2048, .f32⟩ : BufTy).Contents (Elt F) → (⟨S2048, .f32⟩ : BufTy).Contents (Elt F)),
    nullary main_cst_1 (constant S_ .f32 0x41F00000#32),
    unary main_cst_1 main_v11 (broadcastInDim S2048 ![] bcast_S_S2048 : (⟨S_, .f32⟩ : BufTy).Contents (Elt F) → (⟨S2048, .f32⟩ : BufTy).Contents (Elt F)),
    binary main_v11 main_v10 main_v12 (mulf : (⟨S2048, .f32⟩ : BufTy).Contents (Elt F) → (⟨S2048, .f32⟩ : BufTy).Contents (Elt F) → (⟨S2048, .f32⟩ : BufTy).Contents (Elt F)),
    nullary main_cst_2 (constant S_ .f32 0x41F00000#32),
    unary main_cst_2 main_v13 (broadcastInDim S2048x50257 ![] bcast_S_S2048x50257 : (⟨S_, .f32⟩ : BufTy).Contents (Elt F) → (⟨S2048x50257, .f32⟩ : BufTy).Contents (Elt F)),
    binary main_v13 main_arg0 main_v14 (mulf : (⟨S2048x50257, .f32⟩ : BufTy).Contents (Elt F) → (⟨S2048x50257, .f32⟩ : BufTy).Contents (Elt F) → (⟨S2048x50257, .f32⟩ : BufTy).Contents (Elt F)),
    unary main_v14 main_v15 (Host.exp : (⟨S2048x50257, .f32⟩ : BufTy).Contents (Elt F) → (⟨S2048x50257, .f32⟩ : BufTy).Contents (Elt F)),
    nullary main_cst_3 (constant S_ .f32 0x00000000#32),
    binary main_v15 main_cst_3 main_v16 ((fun x v => Host.reduceAdd x v reducesTo_S2048x50257_S2048_d1 h_S_) : (⟨S2048x50257, .f32⟩ : BufTy).Contents (Elt F) → (⟨S_, .f32⟩ : BufTy).Contents (Elt F) → (⟨S2048, .f32⟩ : BufTy).Contents (Elt F)),
    nullary main_cst_4 (constant S_ .f32 0x41F00000#32),
    unary main_cst_4 main_v17 (broadcastInDim S2048 ![] bcast_S_S2048 : (⟨S_, .f32⟩ : BufTy).Contents (Elt F) → (⟨S2048, .f32⟩ : BufTy).Contents (Elt F)),
    binary main_v17 main_v9 main_v18 (mulf : (⟨S2048, .f32⟩ : BufTy).Contents (Elt F) → (⟨S2048, .f32⟩ : BufTy).Contents (Elt F) → (⟨S2048, .f32⟩ : BufTy).Contents (Elt F)),
    unary main_v18 main_v19 (Host.exp : (⟨S2048, .f32⟩ : BufTy).Contents (Elt F) → (⟨S2048, .f32⟩ : BufTy).Contents (Elt F)),
    binary main_v16 main_v19 main_v20 (subf : (⟨S2048, .f32⟩ : BufTy).Contents (Elt F) → (⟨S2048, .f32⟩ : BufTy).Contents (Elt F) → (⟨S2048, .f32⟩ : BufTy).Contents (Elt F)),
    unary main_v12 main_v21 (Host.exp : (⟨S2048, .f32⟩ : BufTy).Contents (Elt F) → (⟨S2048, .f32⟩ : BufTy).Contents (Elt F)),
    binary main_v21 main_v20 main_v22 (addf : (⟨S2048, .f32⟩ : BufTy).Contents (Elt F) → (⟨S2048, .f32⟩ : BufTy).Contents (Elt F) → (⟨S2048, .f32⟩ : BufTy).Contents (Elt F)),
    unary main_v22 main_v23 (Host.log : (⟨S2048, .f32⟩ : BufTy).Contents (Elt F) → (⟨S2048, .f32⟩ : BufTy).Contents (Elt F)),
    binary main_v12 main_v23 main_v24 (subf : (⟨S2048, .f32⟩ : BufTy).Contents (Elt F) → (⟨S2048, .f32⟩ : BufTy).Contents (Elt F) → (⟨S2048, .f32⟩ : BufTy).Contents (Elt F)),
    nullary main_cst_5 (constant S_ .f32 0x00000000#32),
    binary main_v24 main_cst_5 main_v25 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_6 (constant S_ .f32 0x45000000#32),
    binary main_v25 main_cst_6 main_v26 (Host.divf : (⟨S_, .f32⟩ : BufTy).Contents (Elt F) → (⟨S_, .f32⟩ : BufTy).Contents (Elt F) → (⟨S_, .f32⟩ : BufTy).Contents (Elt F)),
    unary main_v26 main_v27 (Host.negf : (⟨S_, .f32⟩ : BufTy).Contents (Elt F) → (⟨S_, .f32⟩ : BufTy).Contents (Elt F)) ]

-- fifty-eight binds re-associated: the rewrite under the chain recurses once per statement
set_option maxRecDepth 4096 in
/-- The program is that straight line: the outlined function unfolded at its call and the call's record at its
    fields, both sides are one chain of steps once sequencing is re-associated. -/
theorem main_eq (c : Dev nD) : main (F := F) c = seq ops := by
  simp only [main, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., binary_bufs_sub .., unary_bufs_sub .., binary_bufs_sub .., unary_bufs_sub .., binary_bufs_sub .., nullary_bufs_sub .., binary_bufs_sub .., nullary_bufs_sub .., binary_bufs_sub .., unary_bufs_sub ..⟩

/-- From any memory with zero counters every weakly fair execution of the program terminates, and every final
    state has each buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The program's result as a term of its two arguments: the closing chain at the row sums, the labelled logits
    and the margins. -/
def out [Cert.ReferenceIdeal.Facts] (x : FVec Ideal S2048x50257 .f32) (l : IVec S2048 32) : FVec Ideal S_ .f32 :=
  Cert.Spec.tail Cert.ReferenceIdeal.Facts₀.bcast_S_S2048 Cert.ReferenceIdeal.Facts₀.reducesTo_S2048_S_d0 Cert.ReferenceIdeal.Facts₀.h_S_
    (Cert.RefParts.sPart x) (Cert.RefParts.tPart x l) (Cert.RefParts.mPart l)

set_option maxRecDepth 8192 in
/-- The fold at the result buffer is that term. -/
theorem v27_eq (V : Valuation τ sig (Elt Ideal)) :
    after ops V (main_v27 : DevRef τ sig) = out (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- From any memory with zero counters every weakly fair execution of the program terminates with the result buffer
    at the closing chain of the three row vectors of the launch's arguments, and the two arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v27).trans (v27_eq _), (h c main_arg0).trans (arg0_eq _),
      (h c main_arg1).trans (arg1_eq _)⟩)
    (run_after m ρ)

end Cert.RefRun

end
-- ==== Proof.RefValue.lean ====
/-
  At the ideal values and under binary labels, the three row vectors the reference program forms before its
  closing chain are the specification's:
    mPart ℓ   = margin ℓ      the two-entry table gathered at the labels is f32(0.1) where ℓ r = 0, f32(0.4) where ℓ r = 1;
    tPart x ℓ = target x ℓ    take_along_axis of x at the labels is x[r,0] where ℓ r = 0, x[r,1] where ℓ r = 1;
    sPart x   = sumexp x      the row reduction from the zero word is Σ_k exp (30 · x[r,k]).
  Each is read at one row r. A binary label is not negative, so the wrap by the axis length leaves it alone; it lies
  inside the axis, so the clamp of the start index leaves it alone and the in-range mask is 1 there.
-/
import proofs.«429872_j65068754535073_3_alg».proof.Proof.RefParts
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

noncomputable section

namespace Cert.RefValue

open Idealize.ShloMosaic Idealize.ShloMosaic.ValueIdx
open Cert.RefParts

/-! ## Words: a binary label under the wrap of negative indices -/

/-- The wrap of a negative label by an axis length n (label + n where label < 0) leaves a binary label alone. -/
private theorem wrap_label (n : BitVec 32) (w : BitVec 32) (hw : w = 0#32 ∨ w = 1#32) :
    Scalar.select (IntOp.cmpi .slt w 0#32) (IntOp.addi w n) w = w := by
  rcases hw with rfl | rfl
  · exact if_neg (by decide)
  · exact if_neg (by decide)

/-! ## The margin table read at a row -/

open Cert.ReferenceIdeal Cert.ReferenceIdeal.Facts₀ in
/-- The two-entry table gathered at a column of start indices whose entry p is a binary word w: entry w of the table. -/
private theorem margin_gather [Cert.ReferenceIdeal.Facts] (idx : IVec S2048x1 32) (p : Fin 2048) (w : BitVec 32)
    (hidx : idx (StableHlo.Predicate.ixP p) = w) (hw : w = 0#32 ∨ w = 1#32) :
    Host.gather gather_S2_S2048x1_S2048_n_0_n_n_0_1_1
        (fun i => (FloatOps.ofBits .f32 (lit0 (S2.rowMajor i)) : Ideal .f32)) idx (Shape.Idx.ofFin p)
      = if w = 0#32 then Ideal.ofBits .f32 0x3DCCCCCD#32 else Ideal.ofBits .f32 0x3ECCCCCD#32 := by
  rw [StableHlo.Predicate.gather_take _ rfl rfl rfl rfl _ _ p (by decide)]
  simp only [hidx]
  rcases hw with rfl | rfl
  · rw [if_pos rfl]
    show Ideal.ofBits .f32 (lit0 _) = _
    congr 1
  · rw [if_neg (by decide)]
    show Ideal.ofBits .f32 (lit0 _) = _
    congr 1

/-! ## The margins -/

theorem mPart_eq [Cert.ReferenceIdeal.Facts] (l : IVec Cert.ReferenceIdeal.S2048 32)
    (hl : ∀ i, l i = 0#32 ∨ l i = 1#32) : mPart (F := Ideal) l = Cert.Spec.margin l := by
  funext i
  obtain ⟨p, rfl⟩ : ∃ p : Fin 2048, i = Shape.Idx.ofFin p :=
    ⟨i 0, by funext a; obtain rfl : a = 0 := Subsingleton.elim _ _; exact Fin.ext rfl⟩
  unfold mPart Cert.Spec.margin
  exact margin_gather _ p (l (Shape.Idx.ofFin p))
    (by rw [StableHlo.Predicate.bcast_col1]; exact wrap_label _ _ (hl _)) (hl _)

/-! ## The labelled logit -/

open Cert.ReferenceIdeal in
/-- The batched gather along the columns read at row p: row p of the matrix at the column the start index
    of row p names, read signed and clamped into the row. -/
private theorem along_gather [Cert.ReferenceIdeal.Facts] {α : Type} (x : S2048x50257.Idx → α) (idx : IVec S2048x1x1 32) (p : Fin 2048) :
    Host.gather gather_S2048x50257_S2048x1x1_S2048x1_n_1_0_0_1_2_11 x idx (StableHlo.Predicate.ixP p)
      = x (ix2 p ⟨min (idx (ix3 p (0 : Fin 1) (0 : Fin 1))).toInt.toNat (50257 - 1), by omega⟩) := by
  unfold Host.gather
  congr 1
  funext a
  have hsi : ∀ c, gather_S2048x50257_S2048x1x1_S2048x1_n_1_0_0_1_2_11.siIdx (StableHlo.Predicate.ixP p) c
      = ix3 p (0 : Fin 1) (0 : Fin 1) := by
    intro c
    funext b
    match b with
    | ⟨0, _⟩ => exact Fin.ext rfl
    | ⟨1, _⟩ => exact Fin.ext rfl
    | ⟨2, _⟩ => exact Subsingleton.elim (α := Fin 1) _ _
  have m00 : (0 : Fin 2) ∈ gather_S2048x50257_S2048x1x1_S2048x1_n_1_0_0_1_2_11.operandBatchingDims :=
    show (0 : Fin 2) ∈ [0] from List.mem_singleton.mpr rfl
  have m10 : (1 : Fin 2) ∉ gather_S2048x50257_S2048x1x1_S2048x1_n_1_0_0_1_2_11.operandBatchingDims :=
    show (1 : Fin 2) ∉ ([0] : List (Fin 2)) by decide
  have m11 : (1 : Fin 2) ∈ gather_S2048x50257_S2048x1x1_S2048x1_n_1_0_0_1_2_11.collapsedSliceDims :=
    show (1 : Fin 2) ∈ [1] from List.mem_singleton.mpr rfl
  have s11 : (1 : Fin 2) ∈ gather_S2048x50257_S2048x1x1_S2048x1_n_1_0_0_1_2_11.startIndexMap :=
    show (1 : Fin 2) ∈ [1] from List.mem_singleton.mpr rfl
  match a with
  | ⟨0, _⟩ =>
    refine Fin.ext ?_
    show gather_S2048x50257_S2048x1x1_S2048x1_n_1_0_0_1_2_11.start _ idx 0
      + gather_S2048x50257_S2048x1x1_S2048x1_n_1_0_0_1_2_11.batchCoord _ 0
      + gather_S2048x50257_S2048x1x1_S2048x1_n_1_0_0_1_2_11.offCoord _ 0 = p.val
    rw [GatherDims.start_batching _ _ _ _ m00,
      GatherDims.offCoord_eq_zero _ _ _ (fun h => ((GatherDims.mem_sKept _ _).mp h).2 m00), Nat.zero_add, Nat.add_zero]
    unfold GatherDims.batchCoord
    rw [dif_pos m00]
    rfl
  | ⟨1, _⟩ =>
    refine Fin.ext ?_
    show gather_S2048x50257_S2048x1x1_S2048x1_n_1_0_0_1_2_11.start _ idx 1
      + gather_S2048x50257_S2048x1x1_S2048x1_n_1_0_0_1_2_11.batchCoord _ 1
      + gather_S2048x50257_S2048x1x1_S2048x1_n_1_0_0_1_2_11.offCoord _ 1 = _
    rw [GatherDims.batchCoord_eq_zero _ _ _ m10,
      GatherDims.offCoord_eq_zero _ _ _ (fun h => ((GatherDims.mem_sKept _ _).mp h).1 m11), Nat.add_zero]
    unfold GatherDims.start
    rw [dif_pos s11, hsi]
    rfl

/-- A fold by `and` over the one coordinate of a unit axis is the one term and the initial word. -/
private theorem fold_andi_unit {n : Nat} (hn : n = 1) (b : BitVec 1) (f : Fin n → BitVec 1) :
    (Finset.univ : Finset (Fin n)).fold IntOp.andi b f = IntOp.andi (f ⟨0, by omega⟩) b := by
  subst hn; rw [Finset.univ_unique, Finset.fold_singleton]; rfl

/-- Row p of a matrix at the column a binary start index names, clamped into the row. -/
private theorem row_at {α : Type} (x : Cert.ReferenceIdeal.S2048x50257.Idx → α) (p : Fin 2048) (v w : BitVec 32)
    (hv : v = w) (hw : w = 0#32 ∨ w = 1#32) (h : min v.toInt.toNat (50257 - 1) < 50257) :
    x (ix2 p ⟨min v.toInt.toNat (50257 - 1), h⟩)
      = if w = 0#32 then x (ix2 p ⟨0, by decide⟩) else x (ix2 p ⟨1, by decide⟩) := by
  subst hv
  rcases hw with rfl | rfl
  · rw [if_pos rfl]; rfl
  · rw [if_neg (by decide)]; rfl

open Cert.ReferenceIdeal Cert.ReferenceIdeal.Facts₀ in
/-- The labels as a column, a negative one wrapped by the row length: at a binary label, the label. -/
private theorem wrapped_at [Cert.ReferenceIdeal.Facts] (l : IVec S2048 32) (hl : ∀ i, l i = 0#32 ∨ l i = 1#32) (p : Fin 2048) :
    shapeCast S2048x1x1
      (select
        (cmpi .slt (broadcastInDim S2048x1 ![0] bcast_S2048_S2048x1_0 l)
          (broadcastInDim S2048x1 ![] bcast_S_S2048x1 (constantI S_ 32 0#32)))
        (addi (broadcastInDim S2048x1 ![0] bcast_S2048_S2048x1_0 l)
          (broadcastInDim S2048x1 ![] bcast_S_S2048x1 (constantI S_ 32 50257#32)))
        (broadcastInDim S2048x1 ![0] bcast_S2048_S2048x1_0 l))
      shapeCasts_S2048x1_S2048x1x1 (ix3 p (0 : Fin 1) (0 : Fin 1)) = l (Shape.Idx.ofFin p) := by
  rw [shapeCast_apply _ _ (ix3 p (0 : Fin 1) (0 : Fin 1)) (StableHlo.Predicate.ixP p)
    (by rw [Shape.rowMajor_val_three, Shape.rowMajor_val_two]; show p.val * 1 + 0 = (p.val * 1 + 0) * 1 + 0; omega)]
  show Scalar.select
    (IntOp.cmpi .slt (broadcastInDim S2048x1 ![0] bcast_S2048_S2048x1_0 l (StableHlo.Predicate.ixP p)) 0#32)
    (IntOp.addi (broadcastInDim S2048x1 ![0] bcast_S2048_S2048x1_0 l (StableHlo.Predicate.ixP p)) 50257#32)
    (broadcastInDim S2048x1 ![0] bcast_S2048_S2048x1_0 l (StableHlo.Predicate.ixP p)) = _
  rw [StableHlo.Predicate.bcast_col1]
  exact wrap_label _ _ (hl _)

theorem tPart_eq [Cert.ReferenceIdeal.Facts] (x : FVec Ideal Cert.ReferenceIdeal.S2048x50257 .f32)
    (l : IVec Cert.ReferenceIdeal.S2048 32) (hl : ∀ i, l i = 0#32 ∨ l i = 1#32) :
    tPart (F := Ideal) x l = Cert.Spec.target x l := by
  funext i
  obtain ⟨p, rfl⟩ : ∃ p : Fin 2048, i = Shape.Idx.ofFin p :=
    ⟨i 0, by funext a; obtain rfl : a = 0 := Subsingleton.elim _ _; exact Fin.ext rfl⟩
  have hR : Shape.Reduces Cert.ReferenceIdeal.S2048x1x1 [2] Cert.ReferenceIdeal.S2048x1 := by decide
  have h5 := wrapped_at l hl p
  have hlift : ∀ k, hR.lift (StableHlo.Predicate.ixP p) k = ix3 p (0 : Fin 1) (0 : Fin 1) := by
    intro k
    funext c
    match c with
    | ⟨0, _⟩ => exact Fin.ext rfl
    | ⟨1, _⟩ => exact Fin.ext rfl
    | ⟨2, _⟩ => exact Subsingleton.elim (α := Fin 1) _ _
  have hC : ∀ (init : BitVec 1) (G : IVec Cert.ReferenceIdeal.S2048x1x1 1), init = 1#1 → G (ix3 p (0 : Fin 1) (0 : Fin 1)) = 1#1 →
      Finset.fold IntOp.andi init (G ∘ hR.lift (StableHlo.Predicate.ixP p)) Finset.univ = 1#1 := by
    intro init G hi hG
    refine (fold_andi_unit (n := Cert.ReferenceIdeal.S2048x1x1.size 2) rfl init _).trans ?_
    rw [Function.comp_apply, hlift, hG, hi]; rfl
  unfold tPart Cert.Spec.target
  simp only []
  rw [shapeCast_apply _ _ (Shape.Idx.ofFin p) (StableHlo.Predicate.ixP p)
    (by rw [Shape.rowMajor_val_two, Shape.rowMajor_val_one]; show p.val * 1 + 0 = p.val; omega)]
  rw [select_apply, along_gather, Host.reduce_eq_fold_single _ _ _ _ hR, row_at x p _ _ h5 (hl _)]
  rw [hC _ _ ?_ ?_, select_one]
  · rfl
  · rfl
  · show IntOp.andi (IntOp.cmpi .sge _ 0#32) (IntOp.cmpi .sle _ 50256#32) = 1#1
    rw [h5]
    rcases hl (Shape.Idx.ofFin p) with h | h <;> rw [h] <;> decide

/-! ## The row sums -/

theorem sPart_eq [Cert.ReferenceIdeal.Facts] (x : FVec Ideal Cert.ReferenceIdeal.S2048x50257 .f32) :
    sPart (F := Ideal) x = Cert.Spec.sumexp x := by
  funext i
  have hR : Shape.Reduces Cert.ReferenceIdeal.S2048x50257 [1] Cert.ReferenceIdeal.S2048 := by decide
  unfold sPart Cert.Spec.sumexp
  simp only []
  rw [hostReduceAdd_apply, Ideal.hostReduceAdd_single _ hR, constant_apply, Ideal.ofBits_zero_f32, zero_add]
  refine Finset.sum_congr rfl fun k _ => ?_
  have hk : hR.lift i k = ix2 (i 0) k := by
    funext c
    match c with
    | ⟨0, _⟩ => exact Fin.ext rfl
    | ⟨1, _⟩ => exact Fin.ext rfl
  show Ideal.exp (broadcastInDim Cert.ReferenceIdeal.S2048x50257 ![] _ (constant (F := Ideal) Cert.ReferenceIdeal.S_ .f32 0x41F00000#32) (hR.lift i k)
      * x (hR.lift i k)) = _
  rw [broadcastInDim_scalar_apply, constant_apply, hk]
  rfl

end Cert.RefValue

end
-- ==== Proof.PreLabels.lean ====
/-
  The printed precondition, decoded for the labels: when the predicate "every score is finite and every label is at
  least 0 and below 2" evaluates to true, every label word is 0 or 1.
-/
import proofs.«429872_j65068754535073_3_alg».proof.Pre_finite_inputs
import proofs.«429872_j65068754535073_3_alg».proof.Proof.Gen.Pre_finite_inputs
import Idealize.ShloMosaic.Lib.ReduceAll
import Idealize.ShloMosaic.Lib.StableHlo.Predicate
import Idealize.ShloMosaic.Lib.ValueIdx

namespace Cert.PreLabels

open Idealize.ShloMosaic Idealize.ShloMosaic.ValueIdx

/-- A 32-bit word that, read signed, is at least 0 and below 2 is the word 0 or the word 1. -/
theorem word_binary (w : BitVec 32) (h0 : IntOp.cmpi .sge w 0#32 = 1#1) (h2 : IntOp.cmpi .slt w 2#32 = 1#1) :
    w = 0#32 ∨ w = 1#32 := by
  rw [IntOp.cmpi_sge] at h0
  rw [IntOp.cmpi_slt] at h2
  have e0 : (0#32 : BitVec 32).toInt = 0 := by decide
  have e1 : (1#32 : BitVec 32).toInt = 1 := by decide
  have e2 : (2#32 : BitVec 32).toInt = 2 := by decide
  rw [e0] at h0
  rw [e2] at h2
  have hw : w.toInt = 0 ∨ w.toInt = 1 := by omega
  rcases hw with hw | hw
  · exact Or.inl (BitVec.eq_of_toInt_eq (by rw [hw, e0]))
  · exact Or.inr (BitVec.eq_of_toInt_eq (by rw [hw, e1]))

/-- The scalar shape has one index. -/
instance : Subsingleton Cert.Pre_finite_inputs.S_.Idx := ⟨fun _ _ => funext fun d => d.elim0⟩

/-- When the printed precondition is true, every label is 0 or 1. -/
theorem labels_binary {F : FTy → Type} [FloatOps F] [Cert.Pre_finite_inputs.Facts]
    (x : FVec F Cert.Pre_finite_inputs.S2048x50257 .f32) (l : IVec Cert.Pre_finite_inputs.S2048 32)
    (h : Cert.Pre_finite_inputs.fn (F := F) x l = fun _ => 1#1) : ∀ i, l i = 0#32 ∨ l i = 1#32 := by
  intro i
  have h0 := congrFun h ix0
  dsimp only [Cert.Pre_finite_inputs.fn] at h0
  -- the outer conjunction: keep the half that speaks of the labels
  obtain ⟨-, h9⟩ := IntOp.andi_eq_one.1 h0
  -- the conjunction over all labels, read at label i
  have h8 := Host.reduce_andi_all _ _ _ _ _ h9 i
  -- the two comparisons at label i
  obtain ⟨h5, h7⟩ := IntOp.andi_eq_one.1 h8
  exact word_binary (l i) h5 h7

end Cert.PreLabels
-- ==== Proof.lean ====
/-
  The AM-softmax loss kernel against its jnp reference, over the extended reals.

  Inputs: a score matrix x (2048 × 50257, finite) and labels ℓ (2048 words, each 0 or 1: the reference indexes a
  two-entry margin table with them). Both programs compute, per row r,
      S r = Σ_k exp (30·x[r,k]),   T r = x[r, ℓ r],   M r = 0.1 or 0.4 by ℓ r,
  and close with the same chain: the mean over the rows of 30·(T−M) − log (exp (30·(T−M)) + (S − exp (30·T))), negated.

  The kernel forms S tile by tile: 13 column tiles of 4096 per row tile, each folded onto 128 lanes by 31 additions and
  added to an accumulator, the last tile — which overhangs the matrix — masked to −∞ past column 50257 before the
  exponential (exp (−∞) = 0), and the accumulator's 128 lanes summed at the end. Over the extended reals addition is
  commutative and associative, so that sum is the reference's sum over the 50257 columns: no finiteness is used. T is a
  two-way select on ℓ r = 0 in the kernel and a gather along the row in the reference: equal for binary labels, as is M.
  The closing chain is one function (Spec.tail) applied by both programs and never opened.

  The three frames: each program runs to the end, faults nowhere and leaves its arguments unchanged — the kernel's two
  from the pipeline's run with the body's triple at each of its three kinds of grid point, the reference's from its run.
-/
import proofs.«429872_j65068754535073_3_alg».proof.Defs
import proofs.«429872_j65068754535073_3_alg».proof.Proof.Gen.Kernel
import proofs.«429872_j65068754535073_3_alg».proof.Proof.Gen.KernelIdeal
import proofs.«429872_j65068754535073_3_alg».proof.Proof.Gen.ReferenceIdeal
import proofs.«429872_j65068754535073_3_alg».proof.Proof.Gen.Pre_finite_inputs
import proofs.«429872_j65068754535073_3_alg».proof.Proof.KBBody
import proofs.«429872_j65068754535073_3_alg».proof.Proof.KIBody
import proofs.«429872_j65068754535073_3_alg».proof.Proof.KIAcc
import proofs.«429872_j65068754535073_3_alg».proof.Proof.KITgt
import proofs.«429872_j65068754535073_3_alg».proof.Proof.KIArr
import proofs.«429872_j65068754535073_3_alg».proof.Proof.KernelTail
import proofs.«429872_j65068754535073_3_alg».proof.Proof.RefRun
import proofs.«429872_j65068754535073_3_alg».proof.Proof.RefValue
import proofs.«429872_j65068754535073_3_alg».proof.Proof.PreLabels
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Body.frame (F := Bits) m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run m ρ)

open Cert.KernelIdeal Cert.KernelIdeal.Gen Cert.KernelIdeal.Body in
/-- The idealized kernel's run with its result named: the closing chain of the rows' sums, the labelled logits and the
    margins of its own arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = Cert.Spec.tail Facts₀.bcast_S_S2048 Facts₀.reducesTo_S2048_S_d0 Facts₀.h_S_
              (Cert.Spec.sumexp (m ((c.tc : Thread nD τ).loc main_arg0)))
              (Cert.Spec.target (m ((c.tc : Thread nD τ).loc main_arg0)) (m ((c.tc : Thread nD τ).loc main_arg1)))
              (Cert.Spec.margin (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main (F := Ideal) m ρ)
  · rw [(h c).2 main_v21 (Pipeline.mem_restRefs_of main_v21 (by decide) (by decide)), Cert.KernelTail.tail_value,
      arr2_eq m c (fun t h12 y hr => tot_eq m c t h12 y hr), arr3_eq m c (fun t y hr => tgt_eq m c t y hr)]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

/-- From memories that agree on the two arguments, with binary labels, both programs end with the same scalar. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hl : ∀ c : Dev Cert.KernelIdeal.nD, ∀ i,
      m ((c.tc : Thread Cert.KernelIdeal.nD Cert.KernelIdeal.τ).loc Cert.KernelIdeal.main_arg1) i = 0#32
      ∨ m ((c.tc : Thread Cert.KernelIdeal.nD Cert.KernelIdeal.τ).loc Cert.KernelIdeal.main_arg1) i = 1#32 :=
    fun c => Cert.PreLabels.labels_binary _ _ (hpre c)
  refine ⟨_, kernel_run m ρ, ?_⟩
  refine (θ_run Cert.ReferenceIdeal.defs _ _).mono (fun r h c => ⟨(h c).1.trans ?_, (h c).2.1, (h c).2.2⟩) (Cert.RefRun.run m' ρ')
  unfold Cert.RefRun.out
  rw [(hagree c).1, (hagree c).2, Cert.RefValue.sPart_eq, Cert.RefValue.tPart_eq _ _ (hl c), Cert.RefValue.mPart_eq _ (hl c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
